-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x27x5x512 : Shape := ⟨4, ![1024, 27, 5, 512]⟩
abbrev S81x512 : Shape := ⟨2, ![81, 512]⟩
abbrev S81 : Shape := ⟨1, ![81]⟩
abbrev S135x512 : Shape := ⟨2, ![135, 512]⟩
abbrev S135 : Shape := ⟨1, ![135]⟩
abbrev S_ : Shape := ⟨0, ![]⟩

class Facts : Prop where
  bcast_S_S1024x27x5x512 : S_.BroadcastsInDim S1024x27x5x512 (![] : Fin 0 → Fin S1024x27x5x512.rank)
  reducesTo_S1024x27x5x512_S_d0_1_2_3 : S1024x27x5x512.ReducesTo [0, 1, 2, 3] S_
  h_S_ : 0 < S_.numel
  bcast_S_S81x512 : S_.BroadcastsInDim S81x512 (![] : Fin 0 → Fin S81x512.rank)
  reducesTo_S81x512_S_d0_1 : S81x512.ReducesTo [0, 1] S_
  bcast_S_S81 : S_.BroadcastsInDim S81 (![] : Fin 0 → Fin S81.rank)
  reducesTo_S81_S_d0 : S81.ReducesTo [0] S_
  bcast_S_S135x512 : S_.BroadcastsInDim S135x512 (![] : Fin 0 → Fin S135x512.rank)
  reducesTo_S135x512_S_d0_1 : S135x512.ReducesTo [0, 1] S_
  bcast_S_S135 : S_.BroadcastsInDim S135 (![] : Fin 0 → Fin S135.rank)
  reducesTo_S135_S_d0 : S135.ReducesTo [0] S_

variable [Facts]

def fn_part3 {F : FTy → Type} [FloatOps F] (main_v48 : IVec S_ 1) (main_v49 : FVec F S81 .f32) (main_v50 : FVec F S81 .f32) : IVec S_ 1 :=
  let main_v51 : IVec S81 1 := cmpf .olt main_v49 main_v50
  let main_c_19 : IVec S_ 1 := constantI S_ 1 1#1
  let main_v52 : IVec S_ 1 := (fun x v => Host.reduce IntOp.andi x v reducesTo_S81_S_d0 h_S_) main_v51 main_c_19
  let main_v53 : IVec S_ 1 := andi main_v48 main_v52
  main_v53

def fn_part2 {F : FTy → Type} [FloatOps F] (main_arg7 : FVec F S81x512 .f32) (main_arg8 : FVec F S81 .f32) (main_arg9 : FVec F S81x512 .f32) (main_arg10 : FVec F S81 .f32) (main_v33 : IVec S_ 1) : IVec S_ 1 :=
  let main_v34 : FVec F S81x512 .f32 := Host.absf main_arg7
  let main_cst_12 : FVec F S_ .f32 := constant S_ .f32 0x7F800000#32
  let main_v35 : FVec F S81x512 .f32 := broadcastInDim S81x512 ![] bcast_S_S81x512 main_cst_12
  let main_v36 : IVec S81x512 1 := cmpf .olt main_v34 main_v35
  let main_c_13 : IVec S_ 1 := constantI S_ 1 1#1
  let main_v37 : IVec S_ 1 := (fun x v => Host.reduce IntOp.andi x v reducesTo_S81x512_S_d0_1 h_S_) main_v36 main_c_13
  let main_v38 : IVec S_ 1 := andi main_v33 main_v37
  let main_v39 : FVec F S81 .f32 := Host.absf main_arg8
  let main_cst_14 : FVec F S_ .f32 := constant S_ .f32 0x7F800000#32
  let main_v40 : FVec F S81 .f32 := broadcastInDim S81 ![] bcast_S_S81 main_cst_14
  let main_v41 : IVec S81 1 := cmpf .olt main_v39 main_v40
  let main_c_15 : IVec S_ 1 := constantI S_ 1 1#1
  let main_v42 : IVec S_ 1 := (fun x v => Host.reduce IntOp.andi x v reducesTo_S81_S_d0 h_S_) main_v41 main_c_15
  let main_v43 : IVec S_ 1 := andi main_v38 main_v42
  let main_v44 : FVec F S81x512 .f32 := Host.absf main_arg9
  let main_cst_16 : FVec F S_ .f32 := constant S_ .f32 0x7F800000#32
  let main_v45 : FVec F S81x512 .f32 := broadcastInDim S81x512 ![] bcast_S_S81x512 main_cst_16
  let main_v46 : IVec S81x512 1 := cmpf .olt main_v44 main_v45
  let main_c_17 : IVec S_ 1 := constantI S_ 1 1#1
  let main_v47 : IVec S_ 1 := (fun x v => Host.reduce IntOp.andi x v reducesTo_S81x512_S_d0_1 h_S_) main_v46 main_c_17
  let main_v48 : IVec S_ 1 := andi main_v43 main_v47
  let main_v49 : FVec F S81 .f32 := Host.absf main_arg10
  let main_cst_18 : FVec F S_ .f32 := constant S_ .f32 0x7F800000#32
  let main_v50 : FVec F S81 .f32 := broadcastInDim S81 ![] bcast_S_S81 main_cst_18
  fn_part3 (F := F) main_v48 main_v49 main_v50

def fn_part1 {F : FTy → Type} [FloatOps F] (main_arg4 : FVec F S81 .f32) (main_arg5 : FVec F S135x512 .f32) (main_arg6 : FVec F S135 .f32) (main_arg7 : FVec F S81x512 .f32) (main_arg8 : FVec F S81 .f32) (main_arg9 : FVec F S81x512 .f32) (main_arg10 : FVec F S81 .f32) (main_v13 : IVec S_ 1) (main_v16 : IVec S81x512 1) : IVec S_ 1 :=
  let main_c_5 : IVec S_ 1 := constantI S_ 1 1#1
  let main_v17 : IVec S_ 1 := (fun x v => Host.reduce IntOp.andi x v reducesTo_S81x512_S_d0_1 h_S_) main_v16 main_c_5
  let main_v18 : IVec S_ 1 := andi main_v13 main_v17
  let main_v19 : FVec F S81 .f32 := Host.absf main_arg4
  let main_cst_6 : FVec F S_ .f32 := constant S_ .f32 0x7F800000#32
  let main_v20 : FVec F S81 .f32 := broadcastInDim S81 ![] bcast_S_S81 main_cst_6
  let main_v21 : IVec S81 1 := cmpf .olt main_v19 main_v20
  let main_c_7 : IVec S_ 1 := constantI S_ 1 1#1
  let main_v22 : IVec S_ 1 := (fun x v => Host.reduce IntOp.andi x v reducesTo_S81_S_d0 h_S_) main_v21 main_c_7
  let main_v23 : IVec S_ 1 := andi main_v18 main_v22
  let main_v24 : FVec F S135x512 .f32 := Host.absf main_arg5
  let main_cst_8 : FVec F S_ .f32 := constant S_ .f32 0x7F800000#32
  let main_v25 : FVec F S135x512 .f32 := broadcastInDim S135x512 ![] bcast_S_S135x512 main_cst_8
  let main_v26 : IVec S135x512 1 := cmpf .olt main_v24 main_v25
  let main_c_9 : IVec S_ 1 := constantI S_ 1 1#1
  let main_v27 : IVec S_ 1 := (fun x v => Host.reduce IntOp.andi x v reducesTo_S135x512_S_d0_1 h_S_) main_v26 main_c_9
  let main_v28 : IVec S_ 1 := andi main_v23 main_v27
  let main_v29 : FVec F S135 .f32 := Host.absf main_arg6
  let main_cst_10 : FVec F S_ .f32 := constant S_ .f32 0x7F800000#32
  let main_v30 : FVec F S135 .f32 := broadcastInDim S135 ![] bcast_S_S135 main_cst_10
  let main_v31 : IVec S135 1 := cmpf .olt main_v29 main_v30
  let main_c_11 : IVec S_ 1 := constantI S_ 1 1#1
  let main_v32 : IVec S_ 1 := (fun x v => Host.reduce IntOp.andi x v reducesTo_S135_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1024x27x5x512 .f32) (main_arg1 : FVec F S81x512 .f32) (main_arg2 : FVec F S81 .f32) (main_arg3 : FVec F S81x512 .f32) (main_arg4 : FVec F S81 .f32) (main_arg5 : FVec F S135x512 .f32) (main_arg6 : FVec F S135 .f32) (main_arg7 : FVec F S81x512 .f32) (main_arg8 : FVec F S81 .f32) (main_arg9 : FVec F S81x512 .f32) (main_arg10 : FVec F S81 .f32) : IVec S_ 1 :=
  let main_v0 : FVec F S1024x27x5x512 .f32 := Host.absf main_arg0
  let main_cst : FVec F S_ .f32 := constant S_ .f32 0x7F800000#32
  let main_v1 : FVec F S1024x27x5x512 .f32 := broadcastInDim S1024x27x5x512 ![] bcast_S_S1024x27x5x512 main_cst
  let main_v2 : IVec S1024x27x5x512 1 := cmpf .olt main_v0 main_v1
  let main_c : IVec S_ 1 := constantI S_ 1 1#1
  let main_v3 : IVec S_ 1 := (fun x v => Host.reduce IntOp.andi x v reducesTo_S1024x27x5x512_S_d0_1_2_3 h_S_) main_v2 main_c
  let main_v4 : FVec F S81x512 .f32 := Host.absf main_arg1
  let main_cst_0 : FVec F S_ .f32 := constant S_ .f32 0x7F800000#32
  let main_v5 : FVec F S81x512 .f32 := broadcastInDim S81x512 ![] bcast_S_S81x512 main_cst_0
  let main_v6 : IVec S81x512 1 := cmpf .olt main_v4 main_v5
  let main_c_1 : IVec S_ 1 := constantI S_ 1 1#1
  let main_v7 : IVec S_ 1 := (fun x v => Host.reduce IntOp.andi x v reducesTo_S81x512_S_d0_1 h_S_) main_v6 main_c_1
  let main_v8 : IVec S_ 1 := andi main_v3 main_v7
  let main_v9 : FVec F S81 .f32 := Host.absf main_arg2
  let main_cst_2 : FVec F S_ .f32 := constant S_ .f32 0x7F800000#32
  let main_v10 : FVec F S81 .f32 := broadcastInDim S81 ![] bcast_S_S81 main_cst_2
  let main_v11 : IVec S81 1 := cmpf .olt main_v9 main_v10
  let main_c_3 : IVec S_ 1 := constantI S_ 1 1#1
  let main_v12 : IVec S_ 1 := (fun x v => Host.reduce IntOp.andi x v reducesTo_S81_S_d0 h_S_) main_v11 main_c_3
  let main_v13 : IVec S_ 1 := andi main_v8 main_v12
  let main_v14 : FVec F S81x512 .f32 := Host.absf main_arg3
  let main_cst_4 : FVec F S_ .f32 := constant S_ .f32 0x7F800000#32
  let main_v15 : FVec F S81x512 .f32 := broadcastInDim S81x512 ![] bcast_S_S81x512 main_cst_4
  let main_v16 : IVec S81x512 1 := cmpf .olt main_v14 main_v15
  fn_part1 (F := F) main_arg4 main_arg5 main_arg6 main_arg7 main_arg8 main_arg9 main_arg10 main_v13 main_v16
-- ==== Kernel.lean ====
abbrev S1024x27x5x512 : Shape := ⟨4, ![1024, 27, 5, 512]⟩
abbrev S81x512 : Shape := ⟨2, ![81, 512]⟩
abbrev S81 : Shape := ⟨1, ![81]⟩
abbrev S135x512 : Shape := ⟨2, ![135, 512]⟩
abbrev S135 : Shape := ⟨1, ![135]⟩
abbrev S1x81 : Shape := ⟨2, ![1, 81]⟩
abbrev S1x135 : Shape := ⟨2, ![1, 135]⟩
abbrev S1024x27x9x51 : Shape := ⟨4, ![1024, 27, 9, 51]⟩
abbrev S32x27x5x512 : Shape := ⟨4, ![32, 27, 5, 512]⟩
abbrev S32x27x9x51 : Shape := ⟨4, ![32, 27, 9, 51]⟩
abbrev S32x27x1x512 : Shape := ⟨4, ![32, 27, 1, 512]⟩
abbrev S32x27x512 : Shape := ⟨3, ![32, 27, 512]⟩
abbrev S864x512 : Shape := ⟨2, ![864, 512]⟩
abbrev S864x81 : Shape := ⟨2, ![864, 81]⟩
abbrev S32x27x81 : Shape := ⟨3, ![32, 27, 81]⟩
abbrev S32x27x9x9 : Shape := ⟨4, ![32, 27, 9, 9]⟩
abbrev S864x135 : Shape := ⟨2, ![864, 135]⟩
abbrev S32x27x135 : Shape := ⟨3, ![32, 27, 135]⟩
abbrev S32x27x9x15 : Shape := ⟨4, ![32, 27, 9, 15]⟩
abbrev S32x27x9x3 : Shape := ⟨4, ![32, 27, 9, 3]⟩
abbrev S32x27x9x12 : Shape := ⟨4, ![32, 27, 9, 12]⟩
abbrev S1024x243x17x3 : Shape := ⟨4, ![1024, 243, 17, 3]⟩

abbrev nBuf : Space → Nat
  | .hbm => 18
  | .vmem => 14
  | .smem => 0
  | _ => 0

abbrev bufTy : (tb : Table) → Fin (tcTables nBuf tb) → BufTy
  | .hbm, ⟨0, _⟩ => ⟨S1024x27x5x512, .f32⟩
  | .hbm, ⟨1, _⟩ => ⟨S81x512, .f32⟩
  | .hbm, ⟨2, _⟩ => ⟨S81, .f32⟩
  | .hbm, ⟨3, _⟩ => ⟨S81x512, .f32⟩
  | .hbm, ⟨4, _⟩ => ⟨S81, .f32⟩
  | .hbm, ⟨5, _⟩ => ⟨S135x512, .f32⟩
  | .hbm, ⟨6, _⟩ => ⟨S135, .f32⟩
  | .hbm, ⟨7, _⟩ => ⟨S81x512, .f32⟩
  | .hbm, ⟨8, _⟩ => ⟨S81, .f32⟩
  | .hbm, ⟨9, _⟩ => ⟨S81x512, .f32⟩
  | .hbm, ⟨10, _⟩ => ⟨S81, .f32⟩
  | .hbm, ⟨11, _⟩ => ⟨S1x81, .f32⟩
  | .hbm, ⟨12, _⟩ => ⟨S1x81, .f32⟩
  | .hbm, ⟨13, _⟩ => ⟨S1x135, .f32⟩
  | .hbm, ⟨14, _⟩ => ⟨S1x81, .f32⟩
  | .hbm, ⟨15, _⟩ => ⟨S1x81, .f32⟩
  | .hbm, ⟨16, _⟩ => ⟨S1024x27x9x51, .f32⟩
  | .hbm, ⟨17, _⟩ => ⟨S1024x243x17x3, .f32⟩
  | .local _ .vmem, ⟨0, _⟩ => ⟨S32x27x5x512, .f32⟩
  | .local _ .vmem, ⟨1, _⟩ => ⟨S32x27x5x512, .f32⟩
  | .local _ .vmem, ⟨2, _⟩ => ⟨S81x512, .f32⟩
  | .local _ .vmem, ⟨3, _⟩ => ⟨S1x81, .f32⟩
  | .local _ .vmem, ⟨4, _⟩ => ⟨S81x512, .f32⟩
  | .local _ .vmem, ⟨5, _⟩ => ⟨S1x81, .f32⟩
  | .local _ .vmem, ⟨6, _⟩ => ⟨S135x512, .f32⟩
  | .local _ .vmem, ⟨7, _⟩ => ⟨S1x135, .f32⟩
  | .local _ .vmem, ⟨8, _⟩ => ⟨S81x512, .f32⟩
  | .local _ .vmem, ⟨9, _⟩ => ⟨S1x81, .f32⟩
  | .local _ .vmem, ⟨10, _⟩ => ⟨S81x512, .f32⟩
  | .local _ .vmem, ⟨11, _⟩ => ⟨S1x81, .f32⟩
  | .local _ .vmem, ⟨12, _⟩ => ⟨S32x27x9x51, .f32⟩
  | .local _ .vmem, ⟨13, _⟩ => ⟨S32x27x9x51, .f32⟩
  | _, _ => ⟨S1024x27x5x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S32x27x5x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S81x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x81 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S81x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x81 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S135x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x135 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S81x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x81 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S81x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x81 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S32x27x9x51 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S81_S1x81 : S81.ShapeCasts S1x81
  shapeCasts_S135_S1x135 : S135.ShapeCasts S1x135
  inb_S32x27x5x512_S32x27x1x512_0_0_0_0 : ∀ a, (![0, 0, 0, 0] : Fin 4 → Nat) a + S32x27x1x512.size a ≤ S32x27x5x512.size a
  h_S32x27x1x512 : 0 < S32x27x1x512.numel
  shapeCasts_S32x27x1x512_S32x27x512 : S32x27x1x512.ShapeCasts S32x27x512
  shapeCasts_S32x27x512_S864x512 : S32x27x512.ShapeCasts S864x512
  bitsLt_bf16_f32 : FTy.bits .bf16 < FTy.bits .f32
  inb_S81x512_S81x512_0_0 : ∀ a, (![0, 0] : Fin 2 → Nat) a + S81x512.size a ≤ S81x512.size a
  h_S81x512 : 0 < S81x512.numel
  inb_S1x81_S1x81_0_0 : ∀ a, (![0, 0] : Fin 2 → Nat) a + S1x81.size a ≤ S1x81.size a
  h_S1x81 : 0 < S1x81.numel
  shapeCasts_S1x81_S1x81 : S1x81.ShapeCasts S1x81
  broadcasts_S1x81_S864x81 : S1x81.Broadcasts S864x81
  shapeCasts_S864x81_S32x27x81 : S864x81.ShapeCasts S32x27x81
  shapeCasts_S32x27x81_S32x27x9x9 : S32x27x81.ShapeCasts S32x27x9x9
  inb_S32x27x9x51_S32x27x9x9_0_0_0_3 : ∀ a, (![0, 0, 0, 3] : Fin 4 → Nat) a + S32x27x9x9.size a ≤ S32x27x9x51.size a
  h_S32x27x9x9 : 0 < S32x27x9x9.numel
  inb_S32x27x5x512_S32x27x1x512_0_0_1_0 : ∀ a, (![0, 0, 1, 0] : Fin 4 → Nat) a + S32x27x1x512.size a ≤ S32x27x5x512.size a
  inb_S32x27x9x51_S32x27x9x9_0_0_0_12 : ∀ a, (![0, 0, 0, 12] : Fin 4 → Nat) a + S32x27x9x9.size a ≤ S32x27x9x51.size a
  inb_S32x27x5x512_S32x27x1x512_0_0_2_0 : ∀ a, (![0, 0, 2, 0] : Fin 4 → Nat) a + S32x27x1x512.size a ≤ S32x27x5x512.size a
  inb_S135x512_S135x512_0_0 : ∀ a, (![0, 0] : Fin 2 → Nat) a + S135x512.size a ≤ S135x512.size a
  h_S135x512 : 0 < S135x512.numel
  inb_S1x135_S1x135_0_0 : ∀ a, (![0, 0] : Fin 2 → Nat) a + S1x135.size a ≤ S1x135.size a
  h_S1x135 : 0 < S1x135.numel
  shapeCasts_S1x135_S1x135 : S1x135.ShapeCasts S1x135
  broadcasts_S1x135_S864x135 : S1x135.Broadcasts S864x135
  shapeCasts_S864x135_S32x27x135 : S864x135.ShapeCasts S32x27x135
  shapeCasts_S32x27x135_S32x27x9x15 : S32x27x135.ShapeCasts S32x27x9x15
  slices_S32x27x9x15_o0_0_0_0_S32x27x9x3 : S32x27x9x15.Slices ![0, 0, 0, 0] S32x27x9x3
  inb_S32x27x9x51_S32x27x9x3_0_0_0_0 : ∀ a, (![0, 0, 0, 0] : Fin 4 → Nat) a + S32x27x9x3.size a ≤ S32x27x9x51.size a
  h_S32x27x9x3 : 0 < S32x27x9x3.numel
  slices_S32x27x9x15_o0_0_0_3_S32x27x9x12 : S32x27x9x15.Slices ![0, 0, 0, 3] S32x27x9x12
  inb_S32x27x9x51_S32x27x9x12_0_0_0_21 : ∀ a, (![0, 0, 0, 21] : Fin 4 → Nat) a + S32x27x9x12.size a ≤ S32x27x9x51.size a
  h_S32x27x9x12 : 0 < S32x27x9x12.numel
  inb_S32x27x5x512_S32x27x1x512_0_0_3_0 : ∀ a, (![0, 0, 3, 0] : Fin 4 → Nat) a + S32x27x1x512.size a ≤ S32x27x5x512.size a
  inb_S32x27x9x51_S32x27x9x9_0_0_0_33 : ∀ a, (![0, 0, 0, 33] : Fin 4 → Nat) a + S32x27x9x9.size a ≤ S32x27x9x51.size a
  inb_S32x27x5x512_S32x27x1x512_0_0_4_0 : ∀ a, (![0, 0, 4, 0] : Fin 4 → Nat) a + S32x27x1x512.size a ≤ S32x27x5x512.size a
  inb_S32x27x9x51_S32x27x9x9_0_0_0_42 : ∀ a, (![0, 0, 0, 42] : Fin 4 → Nat) a + S32x27x9x9.size a ≤ S32x27x9x51.size a
  shapeCasts_S1024x27x9x51_S1024x243x17x3 : S1024x27x9x51.ShapeCasts S1024x243x17x3
  dot_S864x512_S81x512_S864x81_1_1_0_0_n_n_wf : DotDims.WF S864x512 S81x512 S864x81 [1] [1] [0] [0] [] []
  dot_S864x512_S135x512_S864x135_1_1_0_0_n_n_wf : DotDims.WF S864x512 S135x512 S864x135 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x27x5x512.size a ≤ S1024x27x5x512.size a
  hwx0_0 : ∀ i : grid0.Coords, EltTy.bits .f32 = 32 ∨ (Rect.block (s := S1024x27x5x512) S32x27x5x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S81x512.size a ≤ S81x512.size a
  hwx0_1 : ∀ i : grid0.Coords, EltTy.bits .f32 = 32 ∨ (Rect.block (s := S81x512) S81x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x81.size a ≤ S1x81.size a
  hwx0_2 : ∀ i : grid0.Coords, EltTy.bits .f32 = 32 ∨ (Rect.block (s := S1x81) S1x81.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S81x512.size a ≤ S81x512.size a
  hwx0_3 : ∀ i : grid0.Coords, EltTy.bits .f32 = 32 ∨ (Rect.block (s := S81x512) S81x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x81.size a ≤ S1x81.size a
  hwx0_4 : ∀ i : grid0.Coords, EltTy.bits .f32 = 32 ∨ (Rect.block (s := S1x81) S1x81.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S135x512.size a ≤ S135x512.size a
  hwx0_5 : ∀ i : grid0.Coords, EltTy.bits .f32 = 32 ∨ (Rect.block (s := S135x512) S135x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x135.size a ≤ S1x135.size a
  hwx0_6 : ∀ i : grid0.Coords, EltTy.bits .f32 = 32 ∨ (Rect.block (s := S1x135) S1x135.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S81x512.size a ≤ S81x512.size a
  hwx0_7 : ∀ i : grid0.Coords, EltTy.bits .f32 = 32 ∨ (Rect.block (s := S81x512) S81x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x81.size a ≤ S1x81.size a
  hwx0_8 : ∀ i : grid0.Coords, EltTy.bits .f32 = 32 ∨ (Rect.block (s := S1x81) S1x81.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S81x512.size a ≤ S81x512.size a
  hwx0_9 : ∀ i : grid0.Coords, EltTy.bits .f32 = 32 ∨ (Rect.block (s := S81x512) S81x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x81.size a ≤ S1x81.size a
  hwx0_10 : ∀ i : grid0.Coords, EltTy.bits .f32 = 32 ∨ (Rect.block (s := S1x81) S1x81.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S32x27x9x51.size a ≤ S1024x27x9x51.size a
  hwx0_11 : ∀ i : grid0.Coords, EltTy.bits .f32 = 32 ∨ (Rect.block (s := S1024x27x9x51) S32x27x9x51.size (cc0_transform_11 i) (hinb0_11 i)).WholeWords (EltTy.packing .f32)

variable [Facts₀]

def dot_S864x512_S81x512_S864x81_1_1_0_0_n_n : DotDims S864x512 S81x512 S864x81 where
  lhsContracting := [1]
  rhsContracting := [1]
  lhsNonContracting := [0]
  rhsNonContracting := [0]
  lhsBatch := []
  rhsBatch := []
  wf := dot_S864x512_S81x512_S864x81_1_1_0_0_n_n_wf
def dot_S864x512_S135x512_S864x135_1_1_0_0_n_n : DotDims S864x512 S135x512 S864x135 where
  lhsContracting := [1]
  rhsContracting := [1]
  lhsNonContracting := [0]
  rhsNonContracting := [0]
  lhsBatch := []
  rhsBatch := []
  wf := dot_S864x512_S135x512_S864x135_1_1_0_0_n_n_wf

abbrev win0_0 : Pipeline.Window sig grid0 :=
  Pipeline.Window.ofSpec (Memref.whole main_arg0) S32x27x5x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S81x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x81.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S81x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x81.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S135x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x135.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S81x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x81.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S81x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x81.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S32x27x9x51.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1024x27x5x512 : Shape := ⟨4, ![1024, 27, 5, 512]⟩
abbrev S81x512 : Shape := ⟨2, ![81, 512]⟩
abbrev S81 : Shape := ⟨1, ![81]⟩
abbrev S135x512 : Shape := ⟨2, ![135, 512]⟩
abbrev S135 : Shape := ⟨1, ![135]⟩
abbrev S3 : Shape := ⟨1, ![3]⟩
abbrev S5 : Shape := ⟨1, ![5]⟩
abbrev S_ : Shape := ⟨0, ![]⟩
abbrev S1024x243x17x3 : Shape := ⟨4, ![1024, 243, 17, 3]⟩
abbrev S1024x243x17x1 : Shape := ⟨4, ![1024, 243, 17, 1]⟩
abbrev S1024x27x1x512 : Shape := ⟨4, ![1024, 27, 1, 512]⟩
abbrev S1024x27x512 : Shape := ⟨3, ![1024, 27, 512]⟩
abbrev S1024x27x81 : Shape := ⟨3, ![1024, 27, 81]⟩
abbrev S1x1x81 : Shape := ⟨3, ![1, 1, 81]⟩
abbrev S1024x243x3x3 : Shape := ⟨4, ![1024, 243, 3, 3]⟩
abbrev S3x1 : Shape := ⟨2, ![3, 1]⟩
abbrev S1024x243x3x1 : Shape := ⟨4, ![1024, 243, 3, 1]⟩
abbrev S1024x27x135 : Shape := ⟨3, ![1024, 27, 135]⟩
abbrev S1x1x135 : Shape := ⟨3, ![1, 1, 135]⟩
abbrev S1024x243x5x3 : Shape := ⟨4, ![1024, 243, 5, 3]⟩
abbrev S5x1 : Shape := ⟨2, ![5, 1]⟩
abbrev S1024x243x5x1 : Shape := ⟨4, ![1024, 243, 5, 1]⟩

abbrev nBuf : Space → Nat
  | .hbm => 161
  | .vmem => 0
  | .smem => 0
  | _ => 0

abbrev hbmTy0_0 (i : Nat) : BufTy := match i % 128 with
  | 0 => ⟨S1024x27x5x512, .f32⟩
  | 1 => ⟨S81x512, .f32⟩
  | 2 => ⟨S81, .f32⟩
  | 3 => ⟨S81x512, .f32⟩
  | 4 => ⟨S81, .f32⟩
  | 5 => ⟨S135x512, .f32⟩
  | 6 => ⟨S135, .f32⟩
  | 7 => ⟨S81x512, .f32⟩
  | 8 => ⟨S81, .f32⟩
  | 9 => ⟨S81x512, .f32⟩
  | 10 => ⟨S81, .f32⟩
  | 11 => ⟨S3, .i32⟩
  | 12 => ⟨S3, .i32⟩
  | 13 => ⟨S5, .i32⟩
  | 14 => ⟨S3, .i32⟩
  | 15 => ⟨S3, .i32⟩
  | 16 => ⟨S_, .f32⟩
  | 17 => ⟨S1024x243x17x3, .f32⟩
  | 18 => ⟨S_, .f32⟩
  | 19 => ⟨S1024x243x17x1, .f32⟩
  | 20 => ⟨S1024x27x1x512, .f32⟩
  | 21 => ⟨S1024x27x512, .f32⟩
  | 22 => ⟨S1024x27x81, .f32⟩
  | 23 => ⟨S1x1x81, .f32⟩
  | 24 => ⟨S1024x27x81, .f32⟩
  | 25 => ⟨S1024x27x81, .f32⟩
  | 26 => ⟨S1024x243x3x3, .f32⟩
  | 27 => ⟨S_, .i32⟩
  | 28 => ⟨S3, .i32⟩
  | 29 => ⟨S3, .i1⟩
  | 30 => ⟨S_, .i32⟩
  | 31 => ⟨S3, .i32⟩
  | 32 => ⟨S3, .i32⟩
  | 33 => ⟨S3, .i32⟩
  | 34 => ⟨S3x1, .i32⟩
  | 35 => ⟨S1024x243x17x3, .f32⟩
  | 36 => ⟨S_, .i32⟩
  | 37 => ⟨S3, .i32⟩
  | 38 => ⟨S3, .i1⟩
  | 39 => ⟨S_, .i32⟩
  | 40 => ⟨S3, .i32⟩
  | 41 => ⟨S3, .i32⟩
  | 42 => ⟨S3, .i32⟩
  | 43 => ⟨S3x1, .i32⟩
  | 44 => ⟨S_, .f32⟩
  | 45 => ⟨S1024x243x3x1, .f32⟩
  | 46 => ⟨S1024x243x17x1, .f32⟩
  | 47 => ⟨S1024x27x1x512, .f32⟩
  | 48 => ⟨S1024x27x512, .f32⟩
  | 49 => ⟨S1024x27x81, .f32⟩
  | 50 => ⟨S1x1x81, .f32⟩
  | 51 => ⟨S1024x27x81, .f32⟩
  | 52 => ⟨S1024x27x81, .f32⟩
  | 53 => ⟨S1024x243x3x3, .f32⟩
  | 54 => ⟨S_, .i32⟩
  | 55 => ⟨S3, .i32⟩
  | 56 => ⟨S3, .i1⟩
  | 57 => ⟨S_, .i32⟩
  | 58 => ⟨S3, .i32⟩
  | 59 => ⟨S3, .i32⟩
  | 60 => ⟨S3, .i32⟩
  | 61 => ⟨S3x1, .i32⟩
  | 62 => ⟨S1024x243x17x3, .f32⟩
  | 63 => ⟨S_, .i32⟩
  | 64 => ⟨S3, .i32⟩
  | 65 => ⟨S3, .i1⟩
  | 66 => ⟨S_, .i32⟩
  | 67 => ⟨S3, .i32⟩
  | 68 => ⟨S3, .i32⟩
  | 69 => ⟨S3, .i32⟩
  | 70 => ⟨S3x1, .i32⟩
  | 71 => ⟨S_, .f32⟩
  | 72 => ⟨S1024x243x3x1, .f32⟩
  | 73 => ⟨S1024x243x17x1, .f32⟩
  | 74 => ⟨S1024x27x1x512, .f32⟩
  | 75 => ⟨S1024x27x512, .f32⟩
  | 76 => ⟨S1024x27x135, .f32⟩
  | 77 => ⟨S1x1x135, .f32⟩
  | 78 => ⟨S1024x27x135, .f32⟩
  | 79 => ⟨S1024x27x135, .f32⟩
  | 80 => ⟨S1024x243x5x3, .f32⟩
  | 81 => ⟨S_, .i32⟩
  | 82 => ⟨S5, .i32⟩
  | 83 => ⟨S5, .i1⟩
  | 84 => ⟨S_, .i32⟩
  | 85 => ⟨S5, .i32⟩
  | 86 => ⟨S5, .i32⟩
  | 87 => ⟨S5, .i32⟩
  | 88 => ⟨S5x1, .i32⟩
  | 89 => ⟨S1024x243x17x3, .f32⟩
  | 90 => ⟨S_, .i32⟩
  | 91 => ⟨S5, .i32⟩
  | 92 => ⟨S5, .i1⟩
  | 93 => ⟨S_, .i32⟩
  | 94 => ⟨S5, .i32⟩
  | 95 => ⟨S5, .i32⟩
  | 96 => ⟨S5, .i32⟩
  | 97 => ⟨S5x1, .i32⟩
  | 98 => ⟨S_, .f32⟩
  | 99 => ⟨S1024x243x5x1, .f32⟩
  | 100 => ⟨S1024x243x17x1, .f32⟩
  | 101 => ⟨S1024x27x1x512, .f32⟩
  | 102 => ⟨S1024x27x512, .f32⟩
  | 103 => ⟨S1024x27x81, .f32⟩
  | 104 => ⟨S1x1x81, .f32⟩
  | 105 => ⟨S1024x27x81, .f32⟩
  | 106 => ⟨S1024x27x81, .f32⟩
  | 107 => ⟨S1024x243x3x3, .f32⟩
  | 108 => ⟨S_, .i32⟩
  | 109 => ⟨S3, .i32⟩
  | 110 => ⟨S3, .i1⟩
  | 111 => ⟨S_, .i32⟩
  | 112 => ⟨S3, .i32⟩
  | 113 => ⟨S3, .i32⟩
  | 114 => ⟨S3, .i32⟩
  | 115 => ⟨S3x1, .i32⟩
  | 116 => ⟨S1024x243x17x3, .f32⟩
  | 117 => ⟨S_, .i32⟩
  | 118 => ⟨S3, .i32⟩
  | 119 => ⟨S3, .i1⟩
  | 120 => ⟨S_, .i32⟩
  | 121 => ⟨S3, .i32⟩
  | 122 => ⟨S3, .i32⟩
  | 123 => ⟨S3, .i32⟩
  | 124 => ⟨S3x1, .i32⟩
  | 125 => ⟨S_, .f32⟩
  | 126 => ⟨S1024x243x3x1, .f32⟩
  | 127 => ⟨S1024x243x17x1, .f32⟩
  | _ => ⟨S1024x27x5x512, .f32⟩

abbrev hbmTy0_1 (i : Nat) : BufTy := match i % 128 with
  | 0 => ⟨S1024x27x1x512, .f32⟩
  | 1 => ⟨S1024x27x512, .f32⟩
  | 2 => ⟨S1024x27x81, .f32⟩
  | 3 => ⟨S1x1x81, .f32⟩
  | 4 => ⟨S1024x27x81, .f32⟩
  | 5 => ⟨S1024x27x81, .f32⟩
  | 6 => ⟨S1024x243x3x3, .f32⟩
  | 7 => ⟨S_, .i32⟩
  | 8 => ⟨S3, .i32⟩
  | 9 => ⟨S3, .i1⟩
  | 10 => ⟨S_, .i32⟩
  | 11 => ⟨S3, .i32⟩
  | 12 => ⟨S3, .i32⟩
  | 13 => ⟨S3, .i32⟩
  | 14 => ⟨S3x1, .i32⟩
  | 15 => ⟨S1024x243x17x3, .f32⟩
  | 16 => ⟨S_, .i32⟩
  | 17 => ⟨S3, .i32⟩
  | 18 => ⟨S3, .i1⟩
  | 19 => ⟨S_, .i32⟩
  | 20 => ⟨S3, .i32⟩
  | 21 => ⟨S3, .i32⟩
  | 22 => ⟨S3, .i32⟩
  | 23 => ⟨S3x1, .i32⟩
  | 24 => ⟨S_, .f32⟩
  | 25 => ⟨S1024x243x3x1, .f32⟩
  | 26 => ⟨S1024x243x17x1, .f32⟩
  | 27 => ⟨S_, .f32⟩
  | 28 => ⟨S_, .f32⟩
  | 29 => ⟨S1024x243x17x1, .f32⟩
  | 30 => ⟨S1024x243x17x1, .f32⟩
  | 31 => ⟨S1024x243x17x3, .f32⟩
  | 32 => ⟨S1024x243x17x3, .f32⟩
  | _ => ⟨S1024x27x5x512, .f32⟩

abbrev hbmTy (i : Nat) : BufTy := match i / 128 with
  | 0 => hbmTy0_0 i
  | 1 => hbmTy0_1 i
  | _ => ⟨S1024x27x5x512, .f32⟩

abbrev bufTy : (tb : Table) → Fin (tcTables nBuf tb) → BufTy
  | .hbm, ⟨i, _⟩ => hbmTy i
  | _, _ => ⟨S1024x27x5x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_c_2 : Ref sig .tc := ⟨.hbm, 14, rfl⟩
abbrev main_c_3 : Ref sig .tc := ⟨.hbm, 15, rfl⟩
abbrev main_cst : Ref sig .tc := ⟨.hbm, 16, rfl⟩
abbrev main_v0 : Ref sig .tc := ⟨.hbm, 17, rfl⟩
abbrev main_cst_4 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c_5 : Ref sig .tc := ⟨.hbm, 27, rfl⟩
abbrev main_v9 : Ref sig .tc := ⟨.hbm, 28, rfl⟩
abbrev main_v10 : Ref sig .tc := ⟨.hbm, 29, rfl⟩
abbrev main_c_6 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_7 : Ref sig .tc := ⟨.hbm, 36, rfl⟩
abbrev main_v16 : Ref sig .tc := ⟨.hbm, 37, rfl⟩
abbrev main_v17 : Ref sig .tc := ⟨.hbm, 38, rfl⟩
abbrev main_c_8 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_9 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_10 : Ref sig .tc := ⟨.hbm, 54, rfl⟩
abbrev main_v31 : Ref sig .tc := ⟨.hbm, 55, rfl⟩
abbrev main_v32 : Ref sig .tc := ⟨.hbm, 56, rfl⟩
abbrev main_c_11 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_12 : Ref sig .tc := ⟨.hbm, 63, rfl⟩
abbrev main_v38 : Ref sig .tc := ⟨.hbm, 64, rfl⟩
abbrev main_v39 : Ref sig .tc := ⟨.hbm, 65, rfl⟩
abbrev main_c_13 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_14 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_15 : Ref sig .tc := ⟨.hbm, 81, rfl⟩
abbrev main_v53 : Ref sig .tc := ⟨.hbm, 82, rfl⟩
abbrev main_v54 : Ref sig .tc := ⟨.hbm, 83, rfl⟩
abbrev main_c_16 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_17 : Ref sig .tc := ⟨.hbm, 90, rfl⟩
abbrev main_v60 : Ref sig .tc := ⟨.hbm, 91, rfl⟩
abbrev main_v61 : Ref sig .tc := ⟨.hbm, 92, rfl⟩
abbrev main_c_18 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_19 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_20 : Ref sig .tc := ⟨.hbm, 108, rfl⟩
abbrev main_v75 : Ref sig .tc := ⟨.hbm, 109, rfl⟩
abbrev main_v76 : Ref sig .tc := ⟨.hbm, 110, rfl⟩
abbrev main_c_21 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_22 : Ref sig .tc := ⟨.hbm, 117, rfl⟩
abbrev main_v82 : Ref sig .tc := ⟨.hbm, 118, rfl⟩
abbrev main_v83 : Ref sig .tc := ⟨.hbm, 119, rfl⟩
abbrev main_c_23 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_24 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_c_25 : Ref sig .tc := ⟨.hbm, 135, rfl⟩
abbrev main_v97 : Ref sig .tc := ⟨.hbm, 136, rfl⟩
abbrev main_v98 : Ref sig .tc := ⟨.hbm, 137, rfl⟩
abbrev main_c_26 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_c_27 : Ref sig .tc := ⟨.hbm, 144, rfl⟩
abbrev main_v104 : Ref sig .tc := ⟨.hbm, 145, rfl⟩
abbrev main_v105 : Ref sig .tc := ⟨.hbm, 146, rfl⟩
abbrev main_c_28 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_29 : Ref sig .tc := ⟨.hbm, 152, rfl⟩
abbrev main_v110 : Ref sig .tc := ⟨.hbm, 153, rfl⟩
abbrev main_v111 : Ref sig .tc := ⟨.hbm, 154, rfl⟩
abbrev main_cst_30 : Ref sig .tc := ⟨.hbm, 155, rfl⟩
abbrev main_call0_v0 : Ref sig .tc := ⟨.hbm, 156, rfl⟩
abbrev main_call0_v1 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩

abbrev nD : Nat := 1
abbrev τ : Topo := Topo.v7x

variable {F : FTy → Type} [FloatOps F]

class Facts₀ : Prop where
  bcast_S_S1024x243x17x3 : S_.BroadcastsInDim S1024x243x17x3 (![] : Fin 0 → Fin S1024x243x17x3.rank)
  bcast_S_S1024x243x17x1 : S_.BroadcastsInDim S1024x243x17x1 (![] : Fin 0 → Fin S1024x243x17x1.rank)
  slices_S1024x27x5x512_S1024x27x1x512_0_0_0_0 : S1024x27x5x512.Slices ![0, 0, 0, 0] S1024x27x1x512
  shapeCasts_S1024x27x1x512_S1024x27x512 : S1024x27x1x512.ShapeCasts S1024x27x512
  bcast_S81_S1x1x81_2 : S81.BroadcastsInDim S1x1x81 (![2] : Fin 1 → Fin S1x1x81.rank)
  bcast_S1x1x81_S1024x27x81_0_1_2 : S1x1x81.BroadcastsInDim S1024x27x81 (![0, 1, 2] : Fin 3 → Fin S1024x27x81.rank)
  shapeCasts_S1024x27x81_S1024x243x3x3 : S1024x27x81.ShapeCasts S1024x243x3x3
  bcast_S_S3 : S_.BroadcastsInDim S3 (![] : Fin 0 → Fin S3.rank)
  bcast_S3_S3x1_0 : S3.BroadcastsInDim S3x1 (![0] : Fin 1 → Fin S3x1.rank)
  bcast_S_S1024x243x3x1 : S_.BroadcastsInDim S1024x243x3x1 (![] : Fin 0 → Fin S1024x243x3x1.rank)
  slices_S1024x27x5x512_S1024x27x1x512_0_0_1_0 : S1024x27x5x512.Slices ![0, 0, 1, 0] S1024x27x1x512
  slices_S1024x27x5x512_S1024x27x1x512_0_0_2_0 : S1024x27x5x512.Slices ![0, 0, 2, 0] S1024x27x1x512
  bcast_S135_S1x1x135_2 : S135.BroadcastsInDim S1x1x135 (![2] : Fin 1 → Fin S1x1x135.rank)
  bcast_S1x1x135_S1024x27x135_0_1_2 : S1x1x135.BroadcastsInDim S1024x27x135 (![0, 1, 2] : Fin 3 → Fin S1024x27x135.rank)
  shapeCasts_S1024x27x135_S1024x243x5x3 : S1024x27x135.ShapeCasts S1024x243x5x3
  bcast_S_S5 : S_.BroadcastsInDim S5 (![] : Fin 0 → Fin S5.rank)
  bcast_S5_S5x1_0 : S5.BroadcastsInDim S5x1 (![0] : Fin 1 → Fin S5x1.rank)
  bcast_S_S1024x243x5x1 : S_.BroadcastsInDim S1024x243x5x1 (![] : Fin 0 → Fin S1024x243x5x1.rank)
  slices_S1024x27x5x512_S1024x27x1x512_0_0_3_0 : S1024x27x5x512.Slices ![0, 0, 3, 0] S1024x27x1x512
  slices_S1024x27x5x512_S1024x27x1x512_0_0_4_0 : S1024x27x5x512.Slices ![0, 0, 4, 0] S1024x27x1x512
  bcast_S1024x243x17x1_S1024x243x17x3_0_1_2_3 : S1024x243x17x1.BroadcastsInDim S1024x243x17x3 (![0, 1, 2, 3] : Fin 4 → Fin S1024x243x17x3.rank)
  dot_S1024x27x512_S81x512_S1024x27x81_2_1_01_0_n_n_wf : DotDims.WF S1024x27x512 S81x512 S1024x27x81 [2] [1] [0, 1] [0] [] []
  scatter_S1024x243x17x3_S3x1_S1024x243x3x3_013_2_2_1_wf : ScatterDims.WF S1024x243x17x3 S3x1 S1024x243x3x3 [0, 1, 3] [2] [2] 1
  scatter_S1024x243x17x1_S3x1_S1024x243x3x1_013_2_2_1_wf : ScatterDims.WF S1024x243x17x1 S3x1 S1024x243x3x1 [0, 1, 3] [2] [2] 1
  dot_S1024x27x512_S135x512_S1024x27x135_2_1_01_0_n_n_wf : DotDims.WF S1024x27x512 S135x512 S1024x27x135 [2] [1] [0, 1] [0] [] []
  scatter_S1024x243x17x3_S5x1_S1024x243x5x3_013_2_2_1_wf : ScatterDims.WF S1024x243x17x3 S5x1 S1024x243x5x3 [0, 1, 3] [2] [2] 1
  scatter_S1024x243x17x1_S5x1_S1024x243x5x1_013_2_2_1_wf : ScatterDims.WF S1024x243x17x1 S5x1 S1024x243x5x1 [0, 1, 3] [2] [2] 1

variable [Facts₀]

def dot_S1024x27x512_S81x512_S1024x27x81_2_1_01_0_n_n : DotDims S1024x27x512 S81x512 S1024x27x81 where
  lhsContracting := [2]
  rhsContracting := [1]
  lhsNonContracting := [0, 1]
  rhsNonContracting := [0]
  lhsBatch := []
  rhsBatch := []
  wf := dot_S1024x27x512_S81x512_S1024x27x81_2_1_01_0_n_n_wf
def scatter_S1024x243x17x3_S3x1_S1024x243x3x3_013_2_2_1 : ScatterDims S1024x243x17x3 S3x1 S1024x243x3x3 where
  updateWindowDims := [0, 1, 3]
  insertedWindowDims := [2]
  scatterDimsToOperandDims := [2]
  indexVectorDim := 1
  wf := scatter_S1024x243x17x3_S3x1_S1024x243x3x3_013_2_2_1_wf
def scatter_S1024x243x17x1_S3x1_S1024x243x3x1_013_2_2_1 : ScatterDims S1024x243x17x1 S3x1 S1024x243x3x1 where
  updateWindowDims := [0, 1, 3]
  insertedWindowDims := [2]
  scatterDimsToOperandDims := [2]
  indexVectorDim := 1
  wf := scatter_S1024x243x17x1_S3x1_S1024x243x3x1_013_2_2_1_wf
def dot_S1024x27x512_S135x512_S1024x27x135_2_1_01_0_n_n : DotDims S1024x27x512 S135x512 S1024x27x135 where
  lhsContracting := [2]
  rhsContracting := [1]
  lhsNonContracting := [0, 1]
  rhsNonContracting := [0]
  lhsBatch := []
  rhsBatch := []
  wf := dot_S1024x27x512_S135x512_S1024x27x135_2_1_01_0_n_n_wf
def scatter_S1024x243x17x3_S5x1_S1024x243x5x3_013_2_2_1 : ScatterDims S1024x243x17x3 S5x1 S1024x243x5x3 where
  updateWindowDims := [0, 1, 3]
  insertedWindowDims := [2]
  scatterDimsToOperandDims := [2]
  indexVectorDim := 1
  wf := scatter_S1024x243x17x3_S5x1_S1024x243x5x3_013_2_2_1_wf
def scatter_S1024x243x17x1_S5x1_S1024x243x5x1_013_2_2_1 : ScatterDims S1024x243x17x1 S5x1 S1024x243x5x1 where
  updateWindowDims := [0, 1, 3]
  insertedWindowDims := [2]
  scatterDimsToOperandDims := [2]
  indexVectorDim := 1
  wf := scatter_S1024x243x17x1_S5x1_S1024x243x5x1_013_2_2_1_wf

class Facts : Prop extends Facts₀ where

variable [Facts]
-- ==== Proof.KerPay.lean ====
/-
  The kernel body's stored values, read at an index, at the ideal instance. For one joint group the body loads
  the group's token block [32, 27, 1, 512], flattens it to 864 rows, multiplies it into the group's weight
  (n · 27 rows of 512, n joints) transposed, from a zero accumulator, adds the bias row, and re-lays the
  [864, 27n] result as [32, 27, 9, 3n]: the entry at batch bb, patch t, frame p, column q is row 27 bb + t of the
  product at column p · 3n + q, that is the token's 512 features against weight row p · 3n + q, plus the bias
  there. The changes of float format on the way are the identity at the ideal instance.
-/
import proofs.«129922_j69887707841118_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KerPay

open Cert.KernelIdeal Cert.KernelIdeal.Gen Idealize.ShloMosaic Idealize.ShloMosaic.ValueIdx

/-! ## The two re-layings, read at an index

Row-major positions: entry (bb, t, p, q) of [32, 27, 9, c] is entry (bb, t, p · c + q) of [32, 27, 9 c], which is
entry (27 bb + t, p · c + q) of [864, 9 c]; entry (27 bb + t, h) of [864, 512] is entry (bb, t, h) of
[32, 27, 512], which is entry (bb, t, 0, h) of [32, 27, 1, 512]. -/

section Layout
variable {α : Type}

/-- The product's re-laying [864, 81] → [32, 27, 81] → [32, 27, 9, 9] at (bb, t, p, q) reads row 27 bb + t,
    column 9 p + q. -/
theorem relay81_apply (y : S864x81.Idx → α) (h1 : S864x81.ShapeCasts S32x27x81) (h2 : S32x27x81.ShapeCasts S32x27x9x9)
    (bb : Fin 32) (t : Fin 27) (p : Fin 9) (q : Fin 9) :
    shapeCast S32x27x9x9 (shapeCast S32x27x81 y h1) h2 (ix4 bb t p q)
      = y (ix2 (⟨bb.val * 27 + t.val, by omega⟩ : Fin 864) (⟨p.val * 9 + q.val, by omega⟩ : Fin 81)) := by
  refine (shapeCast_apply _ h2 (ix4 bb t p q) (ix3 bb t (⟨p.val * 9 + q.val, by omega⟩ : Fin 81)) ?_).trans
    (shapeCast_apply y h1 _ (ix2 (⟨bb.val * 27 + t.val, by omega⟩ : Fin 864) (⟨p.val * 9 + q.val, by omega⟩ : Fin 81)) ?_)
  · rw [Shape.rowMajor_val_three, Shape.rowMajor_val_four]
    show (bb.val * 27 + t.val) * 81 + (p.val * 9 + q.val) = ((bb.val * 27 + t.val) * 9 + p.val) * 9 + q.val
    omega
  · rw [Shape.rowMajor_val_two, Shape.rowMajor_val_three]
    show (bb.val * 27 + t.val) * 81 + (p.val * 9 + q.val) = (bb.val * 27 + t.val) * 81 + (p.val * 9 + q.val)
    rfl

/-- The token block's flattening [32, 27, 1, 512] → [32, 27, 512] → [864, 512] at row 27 bb + t, feature h reads
    the block at (bb, t, 0, h). -/
theorem flat512_apply (x : S32x27x1x512.Idx → α) (h1 : S32x27x1x512.ShapeCasts S32x27x512)
    (h2 : S32x27x512.ShapeCasts S864x512) (bb : Fin 32) (t : Fin 27) (h : Fin 512) :
    shapeCast S864x512 (shapeCast S32x27x512 x h1) h2 (ix2 (⟨bb.val * 27 + t.val, by omega⟩ : Fin 864) h)
      = x (ix4 bb t (0 : Fin 1) h) := by
  refine (shapeCast_apply _ h2 (ix2 (⟨bb.val * 27 + t.val, by omega⟩ : Fin 864) h) (ix3 bb t h) ?_).trans
    (shapeCast_apply x h1 _ (ix4 bb t (0 : Fin 1) h) ?_)
  · rw [Shape.rowMajor_val_three, Shape.rowMajor_val_two]
    show (bb.val * 27 + t.val) * 512 + h.val = (bb.val * 27 + t.val) * 512 + h.val
    rfl
  · rw [Shape.rowMajor_val_four, Shape.rowMajor_val_three]
    show ((bb.val * 27 + t.val) * 1 + 0) * 512 + h.val = (bb.val * 27 + t.val) * 512 + h.val
    omega

end Layout

/-! ## The product's operand indices

The dimension numbers contract axis 1 of both operands and keep axis 0 of each: at output (r, c) and contraction
position k the left operand is read at (r, k) and the right at (c, k). One lemma per operand axis. -/

section Dot81

theorem lhs81_0 (i : S864x81.Idx) (k : dot_S864x512_S81x512_S864x81_1_1_0_0_n_n.contr.Idx) :
    (dot_S864x512_S81x512_S864x81_1_1_0_0_n_n.lhsIdx i k 0).val = (i 0).val := by
  unfold DotDims.lhsIdx
  rw [dif_neg (show ¬(0 : Fin S864x512.rank) ∈ dot_S864x512_S81x512_S864x81_1_1_0_0_n_n.lhsBatch by decide),
    dif_pos (show (0 : Fin S864x512.rank) ∈ dot_S864x512_S81x512_S864x81_1_1_0_0_n_n.lhsNonContracting by decide)]
  rfl

theorem lhs81_1 (i : S864x81.Idx) (k : dot_S864x512_S81x512_S864x81_1_1_0_0_n_n.contr.Idx) :
    (dot_S864x512_S81x512_S864x81_1_1_0_0_n_n.lhsIdx i k 1).val = (k ⟨0, by decide⟩).val :=
  dot_S864x512_S81x512_S864x81_1_1_0_0_n_n.lhsIdx_val_of_single rfl i k

theorem rhs81_0 (i : S864x81.Idx) (k : dot_S864x512_S81x512_S864x81_1_1_0_0_n_n.contr.Idx) :
    (dot_S864x512_S81x512_S864x81_1_1_0_0_n_n.rhsIdx i k 0).val = (i 1).val := by
  unfold DotDims.rhsIdx
  rw [dif_neg (show ¬(0 : Fin S81x512.rank) ∈ dot_S864x512_S81x512_S864x81_1_1_0_0_n_n.rhsBatch by decide),
    dif_pos (show (0 : Fin S81x512.rank) ∈ dot_S864x512_S81x512_S864x81_1_1_0_0_n_n.rhsNonContracting by decide)]
  rfl

theorem rhs81_1 (i : S864x81.Idx) (k : dot_S864x512_S81x512_S864x81_1_1_0_0_n_n.contr.Idx) :
    (dot_S864x512_S81x512_S864x81_1_1_0_0_n_n.rhsIdx i k 1).val = (k ⟨0, by decide⟩).val :=
  dot_S864x512_S81x512_S864x81_1_1_0_0_n_n.rhsIdx_val_of_single rfl i k

/-- The product from a zero accumulator at (r, c): the sum over the 512 features of left (r, h) times right (c, h). -/
theorem mm81_apply (A : FVec Ideal S864x512 .bf16) (B : FVec Ideal S81x512 .bf16) (r : Fin 864) (c : Fin 81) :
    matmul dot_S864x512_S81x512_S864x81_1_1_0_0_n_n none A B (constant S864x81 .f32 0x00000000#32) (ix2 r c)
      = ∑ h : Fin 512, A (ix2 r h) * B (ix2 c h) := by
  simp only [matmul]
  rw [Ideal.matmul_constant_zero_apply,
    ← Equiv.sum_comp (contrEquiv1 dot_S864x512_S81x512_S864x81_1_1_0_0_n_n 512 rfl rfl).symm]
  refine Finset.sum_congr rfl fun k _ => ?_
  have hk := contrEquiv1_symm_val dot_S864x512_S81x512_S864x81_1_1_0_0_n_n 512 rfl rfl k
  have el : dot_S864x512_S81x512_S864x81_1_1_0_0_n_n.lhsIdx (ix2 r c)
      ((contrEquiv1 dot_S864x512_S81x512_S864x81_1_1_0_0_n_n 512 rfl rfl).symm k) = ix2 r k :=
    funext fun a => Fin.ext (by
      match a with
      | ⟨0, _⟩ => exact lhs81_0 _ _
      | ⟨1, _⟩ => exact (lhs81_1 _ _).trans hk)
  have er : dot_S864x512_S81x512_S864x81_1_1_0_0_n_n.rhsIdx (ix2 r c)
      ((contrEquiv1 dot_S864x512_S81x512_S864x81_1_1_0_0_n_n 512 rfl rfl).symm k) = ix2 c k :=
    funext fun a => Fin.ext (by
      match a with
      | ⟨0, _⟩ => exact rhs81_0 _ _
      | ⟨1, _⟩ => exact (rhs81_1 _ _).trans hk)
  rw [el, er]

end Dot81

/-! ## The 81-column payloads -/

/-- Payload 2 (an 81-column group) at batch `bb`, patch `t`, frame `p`, column `q`. -/
theorem pay2_apply (x : Vec Ideal S32x27x1x512 .f32) (W : Vec Ideal S81x512 .f32) (bias : Vec Ideal S1x81 .f32)
    (bb : Fin 32) (t : Fin 27) (p : Fin 9) (q : Fin 9) :
    k0_pay2 (F := Ideal) x W bias (ix4 bb t p q)
      = (∑ h : Fin 512, x (ix4 bb t (0 : Fin 1) h) * W (ix2 (⟨p.val * 9 + q.val, by omega⟩ : Fin 81) h))
        + bias (ix2 (0 : Fin 1) (⟨p.val * 9 + q.val, by omega⟩ : Fin 81)) := by
  unfold k0_pay2
  refine (relay81_apply _ _ _ bb t p q).trans ?_
  rw [addf_apply, mm81_apply, broadcastTo_1b_ab_apply, shapeCast_self]
  refine congrArg (· + _) (Finset.sum_congr rfl fun h _ => ?_)
  rw [truncf_apply, truncf_apply, flat512_apply]

/-- Payload 3 (an 81-column group) at batch `bb`, patch `t`, frame `p`, column `q`. -/
theorem pay3_apply (x : Vec Ideal S32x27x1x512 .f32) (W : Vec Ideal S81x512 .f32) (bias : Vec Ideal S1x81 .f32)
    (bb : Fin 32) (t : Fin 27) (p : Fin 9) (q : Fin 9) :
    k0_pay3 (F := Ideal) x W bias (ix4 bb t p q)
      = (∑ h : Fin 512, x (ix4 bb t (0 : Fin 1) h) * W (ix2 (⟨p.val * 9 + q.val, by omega⟩ : Fin 81) h))
        + bias (ix2 (0 : Fin 1) (⟨p.val * 9 + q.val, by omega⟩ : Fin 81)) := by
  exact pay2_apply x W bias bb t p q

/-- Payload 7 (an 81-column group) at batch `bb`, patch `t`, frame `p`, column `q`. -/
theorem pay7_apply (x : Vec Ideal S32x27x1x512 .f32) (W : Vec Ideal S81x512 .f32) (bias : Vec Ideal S1x81 .f32)
    (bb : Fin 32) (t : Fin 27) (p : Fin 9) (q : Fin 9) :
    k0_pay7 (F := Ideal) x W bias (ix4 bb t p q)
      = (∑ h : Fin 512, x (ix4 bb t (0 : Fin 1) h) * W (ix2 (⟨p.val * 9 + q.val, by omega⟩ : Fin 81) h))
        + bias (ix2 (0 : Fin 1) (⟨p.val * 9 + q.val, by omega⟩ : Fin 81)) := by
  exact pay2_apply x W bias bb t p q

/-- Payload 1 (an 81-column group) at batch `bb`, patch `t`, frame `p`, column `q`. -/
theorem pay1_apply (x : Vec Ideal S32x27x1x512 .f32) (W : Vec Ideal S81x512 .f32) (bias : Vec Ideal S1x81 .f32)
    (bb : Fin 32) (t : Fin 27) (p : Fin 9) (q : Fin 9) :
    k0_pay1 (F := Ideal) x W bias (ix4 bb t p q)
      = (∑ h : Fin 512, x (ix4 bb t (0 : Fin 1) h) * W (ix2 (⟨p.val * 9 + q.val, by omega⟩ : Fin 81) h))
        + bias (ix2 (0 : Fin 1) (⟨p.val * 9 + q.val, by omega⟩ : Fin 81)) := by
  exact pay2_apply x W bias bb t p q

/-! ## The 135-column payload and its two slices -/

/-- The product's re-laying [864, 135] → [32, 27, 135] → [32, 27, 9, 15] at (bb, t, p, q) reads row 27 bb + t,
    column 15 p + q. -/
theorem relay135_apply {α : Type} (y : S864x135.Idx → α) (h1 : S864x135.ShapeCasts S32x27x135)
    (h2 : S32x27x135.ShapeCasts S32x27x9x15) (bb : Fin 32) (t : Fin 27) (p : Fin 9) (q : Fin 15) :
    shapeCast S32x27x9x15 (shapeCast S32x27x135 y h1) h2 (ix4 bb t p q)
      = y (ix2 (⟨bb.val * 27 + t.val, by omega⟩ : Fin 864) (⟨p.val * 15 + q.val, by omega⟩ : Fin 135)) := by
  refine (shapeCast_apply _ h2 (ix4 bb t p q) (ix3 bb t (⟨p.val * 15 + q.val, by omega⟩ : Fin 135)) ?_).trans
    (shapeCast_apply y h1 _ (ix2 (⟨bb.val * 27 + t.val, by omega⟩ : Fin 864) (⟨p.val * 15 + q.val, by omega⟩ : Fin 135)) ?_)
  · rw [Shape.rowMajor_val_three, Shape.rowMajor_val_four]
    show (bb.val * 27 + t.val) * 135 + (p.val * 15 + q.val) = ((bb.val * 27 + t.val) * 9 + p.val) * 15 + q.val
    omega
  · rw [Shape.rowMajor_val_two, Shape.rowMajor_val_three]
    show (bb.val * 27 + t.val) * 135 + (p.val * 15 + q.val) = (bb.val * 27 + t.val) * 135 + (p.val * 15 + q.val)
    rfl

section Dot135

theorem lhs135_0 (i : S864x135.Idx) (k : dot_S864x512_S135x512_S864x135_1_1_0_0_n_n.contr.Idx) :
    (dot_S864x512_S135x512_S864x135_1_1_0_0_n_n.lhsIdx i k 0).val = (i 0).val := by
  unfold DotDims.lhsIdx
  rw [dif_neg (show ¬(0 : Fin S864x512.rank) ∈ dot_S864x512_S135x512_S864x135_1_1_0_0_n_n.lhsBatch by decide),
    dif_pos (show (0 : Fin S864x512.rank) ∈ dot_S864x512_S135x512_S864x135_1_1_0_0_n_n.lhsNonContracting by decide)]
  rfl

theorem lhs135_1 (i : S864x135.Idx) (k : dot_S864x512_S135x512_S864x135_1_1_0_0_n_n.contr.Idx) :
    (dot_S864x512_S135x512_S864x135_1_1_0_0_n_n.lhsIdx i k 1).val = (k ⟨0, by decide⟩).val :=
  dot_S864x512_S135x512_S864x135_1_1_0_0_n_n.lhsIdx_val_of_single rfl i k

theorem rhs135_0 (i : S864x135.Idx) (k : dot_S864x512_S135x512_S864x135_1_1_0_0_n_n.contr.Idx) :
    (dot_S864x512_S135x512_S864x135_1_1_0_0_n_n.rhsIdx i k 0).val = (i 1).val := by
  unfold DotDims.rhsIdx
  rw [dif_neg (show ¬(0 : Fin S135x512.rank) ∈ dot_S864x512_S135x512_S864x135_1_1_0_0_n_n.rhsBatch by decide),
    dif_pos (show (0 : Fin S135x512.rank) ∈ dot_S864x512_S135x512_S864x135_1_1_0_0_n_n.rhsNonContracting by decide)]
  rfl

theorem rhs135_1 (i : S864x135.Idx) (k : dot_S864x512_S135x512_S864x135_1_1_0_0_n_n.contr.Idx) :
    (dot_S864x512_S135x512_S864x135_1_1_0_0_n_n.rhsIdx i k 1).val = (k ⟨0, by decide⟩).val :=
  dot_S864x512_S135x512_S864x135_1_1_0_0_n_n.rhsIdx_val_of_single rfl i k

/-- The product from a zero accumulator at (r, c): the sum over the 512 features of left (r, h) times right (c, h). -/
theorem mm135_apply (A : FVec Ideal S864x512 .bf16) (B : FVec Ideal S135x512 .bf16) (r : Fin 864) (c : Fin 135) :
    matmul dot_S864x512_S135x512_S864x135_1_1_0_0_n_n none A B (constant S864x135 .f32 0x00000000#32) (ix2 r c)
      = ∑ h : Fin 512, A (ix2 r h) * B (ix2 c h) := by
  simp only [matmul]
  rw [Ideal.matmul_constant_zero_apply,
    ← Equiv.sum_comp (contrEquiv1 dot_S864x512_S135x512_S864x135_1_1_0_0_n_n 512 rfl rfl).symm]
  refine Finset.sum_congr rfl fun k _ => ?_
  have hk := contrEquiv1_symm_val dot_S864x512_S135x512_S864x135_1_1_0_0_n_n 512 rfl rfl k
  have el : dot_S864x512_S135x512_S864x135_1_1_0_0_n_n.lhsIdx (ix2 r c)
      ((contrEquiv1 dot_S864x512_S135x512_S864x135_1_1_0_0_n_n 512 rfl rfl).symm k) = ix2 r k :=
    funext fun a => Fin.ext (by
      match a with
      | ⟨0, _⟩ => exact lhs135_0 _ _
      | ⟨1, _⟩ => exact (lhs135_1 _ _).trans hk)
  have er : dot_S864x512_S135x512_S864x135_1_1_0_0_n_n.rhsIdx (ix2 r c)
      ((contrEquiv1 dot_S864x512_S135x512_S864x135_1_1_0_0_n_n 512 rfl rfl).symm k) = ix2 c k :=
    funext fun a => Fin.ext (by
      match a with
      | ⟨0, _⟩ => exact rhs135_0 _ _
      | ⟨1, _⟩ => exact (rhs135_1 _ _).trans hk)
  rw [el, er]

end Dot135

/-- The five-joint group's full payload (15 columns a frame) at batch `bb`, patch `t`, frame `p`, column `q`. -/
theorem pay4_apply (x : Vec Ideal S32x27x1x512 .f32) (W : Vec Ideal S135x512 .f32) (bias : Vec Ideal S1x135 .f32)
    (bb : Fin 32) (t : Fin 27) (p : Fin 9) (q : Fin 15) :
    k0_pay4 (F := Ideal) x W bias (ix4 bb t p q)
      = (∑ h : Fin 512, x (ix4 bb t (0 : Fin 1) h) * W (ix2 (⟨p.val * 15 + q.val, by omega⟩ : Fin 135) h))
        + bias (ix2 (0 : Fin 1) (⟨p.val * 15 + q.val, by omega⟩ : Fin 135)) := by
  unfold k0_pay4
  refine (relay135_apply _ _ _ bb t p q).trans ?_
  rw [addf_apply, mm135_apply, broadcastTo_1b_ab_apply, shapeCast_self]
  refine congrArg (· + _) (Finset.sum_congr rfl fun h _ => ?_)
  rw [truncf_apply, truncf_apply, flat512_apply]

/-- Its first three columns (the group's first joint). -/
theorem pay5_apply (x : Vec Ideal S32x27x1x512 .f32) (W : Vec Ideal S135x512 .f32) (bias : Vec Ideal S1x135 .f32)
    (bb : Fin 32) (t : Fin 27) (p : Fin 9) (q : Fin 3) :
    k0_pay5 (F := Ideal) x W bias (ix4 bb t p q)
      = (∑ h : Fin 512, x (ix4 bb t (0 : Fin 1) h) * W (ix2 (⟨p.val * 15 + q.val, by omega⟩ : Fin 135) h))
        + bias (ix2 (0 : Fin 1) (⟨p.val * 15 + q.val, by omega⟩ : Fin 135)) := by
  unfold k0_pay5
  refine (extractStridedSlice_apply _ _ _ (ix4 bb t p q) (ix4 bb t p (⟨q.val, by omega⟩ : Fin 15)) fun a => ?_).trans
    (pay4_apply x W bias bb t p ⟨q.val, by omega⟩)
  match a with
  | ⟨0, _⟩ => exact (Nat.zero_add _).symm
  | ⟨1, _⟩ => exact (Nat.zero_add _).symm
  | ⟨2, _⟩ => exact (Nat.zero_add _).symm
  | ⟨3, _⟩ => exact (Nat.zero_add _).symm

/-- Its last twelve columns (the group's other four joints). -/
theorem pay6_apply (x : Vec Ideal S32x27x1x512 .f32) (W : Vec Ideal S135x512 .f32) (bias : Vec Ideal S1x135 .f32)
    (bb : Fin 32) (t : Fin 27) (p : Fin 9) (q : Fin 12) :
    k0_pay6 (F := Ideal) x W bias (ix4 bb t p q)
      = (∑ h : Fin 512, x (ix4 bb t (0 : Fin 1) h) * W (ix2 (⟨p.val * 15 + (q.val + 3), by omega⟩ : Fin 135) h))
        + bias (ix2 (0 : Fin 1) (⟨p.val * 15 + (q.val + 3), by omega⟩ : Fin 135)) := by
  unfold k0_pay6
  refine (extractStridedSlice_apply _ _ _ (ix4 bb t p q) (ix4 bb t p (⟨q.val + 3, by omega⟩ : Fin 15)) fun a => ?_).trans
    (pay4_apply x W bias bb t p ⟨q.val + 3, by omega⟩)
  match a with
  | ⟨0, _⟩ => exact (Nat.zero_add _).symm
  | ⟨1, _⟩ => exact (Nat.zero_add _).symm
  | ⟨2, _⟩ => exact (Nat.zero_add _).symm
  | ⟨3, _⟩ => exact Nat.add_comm _ _

end Cert.KernelIdeal.KerPay

end
-- ==== Proof.KerBlock.lean ====
/-
  What one grid point's body leaves in the output block [32, 27, 9, 51], read at an index, at the ideal instance.
  The body's six stores tile the block's 51 lanes: lanes 0–2 and 21–32 hold the five-joint group's 15 columns
  (its first three, then its last twelve), lanes 3–11, 12–20, 33–41 and 42–50 the nine columns of the four
  three-joint groups. Each stored value is the group's token block (the point's 32 batches, slice k of the group
  axis) against the group's weight plus its bias row; so the block is ONE function of the index, by lane range.
-/
import proofs.«129922_j69887707841118_1_alg».proof.Proof.Gen.KernelIdeal.Frame
import proofs.«129922_j69887707841118_1_alg».proof.Proof.KerPay
import Idealize.ShloMosaic.Lib.Pipeline.Value

set_option maxRecDepth 16384

noncomputable section

open scoped BigOperators

namespace Cert.KernelIdeal.KerBlock

open Cert.KernelIdeal Cert.KernelIdeal.Gen Idealize.ShloMosaic Idealize.ShloMosaic.ValueIdx

/-- Group `k`'s linear layer on a point's blocks: batch `bb` of the point, patch `t`, output row `o`. -/
def linB {n : Nat} (x : S32x27x5x512.Idx → EReal) (k : Fin 5) (W : (⟨2, ![n, 512]⟩ : Shape).Idx → EReal)
    (bias : (⟨2, ![1, n]⟩ : Shape).Idx → EReal) (bb : Fin 32) (t : Fin 27) (o : Fin n) : EReal :=
  (∑ h : Fin 512, x (ix4 bb t k h) * W (ix2 o h)) + bias (ix2 (0 : Fin 1) o)

/-- The block by coordinates: batch `bb` of the point, patch `t`, frame `p`, lane `l`. -/
def BKc (x0 : S32x27x5x512.Idx → EReal) (x1 : S81x512.Idx → EReal) (x2 : S1x81.Idx → EReal) (x3 : S81x512.Idx → EReal)
    (x4 : S1x81.Idx → EReal) (x5 : S135x512.Idx → EReal) (x6 : S1x135.Idx → EReal) (x7 : S81x512.Idx → EReal)
    (x8 : S1x81.Idx → EReal) (x9 : S81x512.Idx → EReal) (x10 : S1x81.Idx → EReal)
    (bb : Fin 32) (t : Fin 27) (p : Fin 9) (l : Fin 51) : EReal :=
  if h0 : l.val < 3 then linB x0 2 x5 x6 bb t ⟨p.val * 15 + l.val, by omega⟩
  else if h1 : l.val < 12 then linB x0 0 x1 x2 bb t ⟨p.val * 9 + (l.val - 3), by omega⟩
  else if h2 : l.val < 21 then linB x0 1 x3 x4 bb t ⟨p.val * 9 + (l.val - 12), by omega⟩
  else if h3 : l.val < 33 then linB x0 2 x5 x6 bb t ⟨p.val * 15 + (l.val - 18), by omega⟩
  else if h4 : l.val < 42 then linB x0 3 x7 x8 bb t ⟨p.val * 9 + (l.val - 33), by omega⟩
  else linB x0 4 x9 x10 bb t ⟨p.val * 9 + (l.val - 42), by omega⟩

/-- A load from a whole buffer holding `X` reads `X` at the rectangle's indices. -/
theorem readAt_unread {S : Shape} (m : Memref sig .tc .vmem S .f32) (hm : m.IsWhole) (X : S.Idx → Elt Ideal .f32)
    (r : Rect S) : View.readAt (Elt Ideal) m.view r.toLoadRect (hm.unread X) = View.ld X r := by
  rw [View.readAt_eq_ld, hm.read_unread]

/-- The token block's slice `k` of the group axis, read at batch `b'`, patch `t'`, feature `h`. -/
theorem ld_tok (x0 : S32x27x5x512.Idx → EReal) (k : Fin 5)
    (inb : ∀ a, (![0, 0, k.val, 0] : Fin 4 → Nat) a + S32x27x1x512.size a ≤ S32x27x5x512.size a)
    (b' : Fin 32) (t' : Fin 27) (h : Fin 512) :
    View.ld (Val := Elt Ideal) (e' := .f32) x0 (Rect.unit (s := S32x27x5x512) ![0, 0, k.val, 0] S32x27x1x512.size inb)
        (ix4 b' t' (0 : Fin 1) h)
      = x0 (ix4 b' t' k h) := by
  show x0 _ = x0 _
  congr 1
  funext a
  apply Fin.ext
  match a with
  | ⟨0, _⟩ => simp
  | ⟨1, _⟩ => simp
  | ⟨2, _⟩ => simp
  | ⟨3, _⟩ => simp

/-- The store rectangle of `n` lanes from lane `o` places its index (b', t', p', q') at lane `o + q'`. -/
theorem emb_lane (o n : Nat) (ho : o + n ≤ 51)
    (inb : ∀ a, (![0, 0, 0, o] : Fin 4 → Nat) a + (![32, 27, 9, n] : Fin 4 → Nat) a ≤ S32x27x9x51.size a)
    (b' : Fin 32) (t' : Fin 27) (p' : Fin 9) (q' : Fin n) :
    (Rect.unit (s := S32x27x9x51) ![0, 0, 0, o] ![32, 27, 9, n] inb).emb (ix4 b' t' p' q')
      = ix4 b' t' p' (⟨o + q'.val, by omega⟩ : Fin 51) := by
  funext a
  apply Fin.ext
  match a with
  | ⟨0, _⟩ => simp
  | ⟨1, _⟩ => simp
  | ⟨2, _⟩ => simp
  | ⟨3, _⟩ => simp

/-- The token block's slice `k`, loaded from its whole buffer, at batch `b'`, patch `t'`, feature `h`. -/
theorem load_tok (m : Memref sig .tc .vmem S32x27x5x512 .f32) (hm : m.IsWhole) (x0 : S32x27x5x512.Idx → EReal) (k : Fin 5)
    (inb : ∀ a, (![0, 0, k.val, 0] : Fin 4 → Nat) a + S32x27x1x512.size a ≤ S32x27x5x512.size a)
    (b' : Fin 32) (t' : Fin 27) (h : Fin 512) :
    View.readAt (Elt Ideal) m.view (Rect.unit (s := S32x27x5x512) ![0, 0, k.val, 0] S32x27x1x512.size inb).toLoadRect
        (hm.unread x0) (ix4 b' t' (0 : Fin 1) h) = x0 (ix4 b' t' k h) := by
  rw [readAt_unread]
  exact ld_tok x0 k inb b' t' h

/-- A rank-2 array loaded whole from its buffer is the array. -/
theorem load_whole2 {n k : Nat} (m : Memref sig .tc .vmem ⟨2, ![n, k]⟩ .f32) (hm : m.IsWhole)
    (X : (⟨2, ![n, k]⟩ : Shape).Idx → EReal)
    (inb : ∀ a, (![0, 0] : Fin 2 → Nat) a + (⟨2, ![n, k]⟩ : Shape).size a ≤ (⟨2, ![n, k]⟩ : Shape).size a) :
    View.readAt (Elt Ideal) m.view (Rect.unit (s := ⟨2, ![n, k]⟩) ![0, 0] (⟨2, ![n, k]⟩ : Shape).size inb).toLoadRect
        (hm.unread X) = X := by
  rw [readAt_unread]
  exact View.ld_unit_zero (Val := Elt Ideal) (e := .f32) (by funext a; fin_cases a <;> rfl) inb X

/-- A payload's value in the linear layer's form: the token slice's features against a weight row, plus the bias. -/
theorem lin_of_loads {n : Nat} (x0 : S32x27x5x512.Idx → EReal) (k : Fin 5) (X : S32x27x1x512.Idx → EReal)
    (W W' : (⟨2, ![n, 512]⟩ : Shape).Idx → EReal) (Bi Bi' : (⟨2, ![1, n]⟩ : Shape).Idx → EReal)
    (b' : Fin 32) (t' : Fin 27) (o : Fin n)
    (hX : ∀ h, X (ix4 b' t' (0 : Fin 1) h) = x0 (ix4 b' t' k h)) (hW : W = W') (hB : Bi = Bi') :
    (∑ h : Fin 512, X (ix4 b' t' (0 : Fin 1) h) * W (ix2 o h)) + Bi (ix2 (0 : Fin 1) o) = linB x0 k W' Bi' b' t' o := by
  subst hW hB
  unfold linB
  congr 1
  exact Finset.sum_congr rfl fun h _ => by rw [hX h]

section Lanes
variable (x0 : S32x27x5x512.Idx → EReal) (x1 : S81x512.Idx → EReal) (x2 : S1x81.Idx → EReal) (x3 : S81x512.Idx → EReal)
  (x4 : S1x81.Idx → EReal) (x5 : S135x512.Idx → EReal) (x6 : S1x135.Idx → EReal) (x7 : S81x512.Idx → EReal)
  (x8 : S1x81.Idx → EReal) (x9 : S81x512.Idx → EReal) (x10 : S1x81.Idx → EReal)
  (b' : Fin 32) (t' : Fin 27) (p' : Fin 9)

/-- Lanes 0–2: the five-joint group's first three columns. -/
theorem BKc_lane0 (q' : Fin 3) :
    BKc x0 x1 x2 x3 x4 x5 x6 x7 x8 x9 x10 b' t' p' (⟨0 + q'.val, by omega⟩ : Fin 51)
      = linB x0 2 x5 x6 b' t' (⟨p'.val * 15 + q'.val, by omega⟩ : Fin 135) := by
  unfold BKc
  split_ifs <;> first | (exfalso; simp only [Fin.val_mk] at *; omega) | (congr 1; apply Fin.ext; simp only [Fin.val_mk]; omega)

/-- Lanes 3–11: group 0's nine columns. -/
theorem BKc_lane3 (q' : Fin 9) :
    BKc x0 x1 x2 x3 x4 x5 x6 x7 x8 x9 x10 b' t' p' (⟨3 + q'.val, by omega⟩ : Fin 51)
      = linB x0 0 x1 x2 b' t' (⟨p'.val * 9 + q'.val, by omega⟩ : Fin 81) := by
  unfold BKc
  split_ifs <;> first | (exfalso; simp only [Fin.val_mk] at *; omega) | (congr 1; apply Fin.ext; simp only [Fin.val_mk]; omega)

/-- Lanes 12–20: group 1's nine columns. -/
theorem BKc_lane12 (q' : Fin 9) :
    BKc x0 x1 x2 x3 x4 x5 x6 x7 x8 x9 x10 b' t' p' (⟨12 + q'.val, by omega⟩ : Fin 51)
      = linB x0 1 x3 x4 b' t' (⟨p'.val * 9 + q'.val, by omega⟩ : Fin 81) := by
  unfold BKc
  split_ifs <;> first | (exfalso; simp only [Fin.val_mk] at *; omega) | (congr 1; apply Fin.ext; simp only [Fin.val_mk]; omega)

/-- Lanes 21–32: the five-joint group's last twelve columns. -/
theorem BKc_lane21 (q' : Fin 12) :
    BKc x0 x1 x2 x3 x4 x5 x6 x7 x8 x9 x10 b' t' p' (⟨21 + q'.val, by omega⟩ : Fin 51)
      = linB x0 2 x5 x6 b' t' (⟨p'.val * 15 + (q'.val + 3), by omega⟩ : Fin 135) := by
  unfold BKc
  split_ifs <;> first | (exfalso; simp only [Fin.val_mk] at *; omega) | (congr 1; apply Fin.ext; simp only [Fin.val_mk]; omega)

/-- Lanes 33–41: group 3's nine columns. -/
theorem BKc_lane33 (q' : Fin 9) :
    BKc x0 x1 x2 x3 x4 x5 x6 x7 x8 x9 x10 b' t' p' (⟨33 + q'.val, by omega⟩ : Fin 51)
      = linB x0 3 x7 x8 b' t' (⟨p'.val * 9 + q'.val, by omega⟩ : Fin 81) := by
  unfold BKc
  split_ifs <;> first | (exfalso; simp only [Fin.val_mk] at *; omega) | (congr 1; apply Fin.ext; simp only [Fin.val_mk]; omega)

/-- Lanes 42–50: group 4's nine columns. -/
theorem BKc_lane42 (q' : Fin 9) :
    BKc x0 x1 x2 x3 x4 x5 x6 x7 x8 x9 x10 b' t' p' (⟨42 + q'.val, by omega⟩ : Fin 51)
      = linB x0 4 x9 x10 b' t' (⟨p'.val * 9 + q'.val, by omega⟩ : Fin 81) := by
  unfold BKc
  split_ifs <;> first | (exfalso; simp only [Fin.val_mk] at *; omega) | (congr 1; apply Fin.ext; simp only [Fin.val_mk]; omega)

end Lanes

/-- The body's output block, at batch `bb`, patch `t`, frame `p`, lane `l`, is that function of the point's
    input blocks. -/
theorem out0_A_11_apply (c : Dev nD) (i : grid0.Coords) (arg1 : Memref sig .tc .vmem S32x27x5x512 .f32) (harg1 : arg1.IsWhole) (arg2 : Memref sig .tc .vmem S81x512 .f32) (harg2 : arg2.IsWhole) (arg3 : Memref sig .tc .vmem S1x81 .f32) (harg3 : arg3.IsWhole) (arg4 : Memref sig .tc .vmem S81x512 .f32) (harg4 : arg4.IsWhole) (arg5 : Memref sig .tc .vmem S1x81 .f32) (harg5 : arg5.IsWhole) (arg6 : Memref sig .tc .vmem S135x512 .f32) (harg6 : arg6.IsWhole) (arg7 : Memref sig .tc .vmem S1x135 .f32) (harg7 : arg7.IsWhole) (arg8 : Memref sig .tc .vmem S81x512 .f32) (harg8 : arg8.IsWhole) (arg9 : Memref sig .tc .vmem S1x81 .f32) (harg9 : arg9.IsWhole) (arg10 : Memref sig .tc .vmem S81x512 .f32) (harg10 : arg10.IsWhole) (arg11 : Memref sig .tc .vmem S1x81 .f32) (harg11 : arg11.IsWhole) (arg12 : Memref sig .tc .vmem S32x27x9x51 .f32) (harg12 : arg12.IsWhole)
    (x0 : Vec Ideal S32x27x5x512 .f32) (x1 : Vec Ideal S81x512 .f32) (x2 : Vec Ideal S1x81 .f32) (x3 : Vec Ideal S81x512 .f32) (x4 : Vec Ideal S1x81 .f32) (x5 : Vec Ideal S135x512 .f32) (x6 : Vec Ideal S1x135 .f32) (x7 : Vec Ideal S81x512 .f32) (x8 : Vec Ideal S1x81 .f32) (x9 : Vec Ideal S81x512 .f32) (x10 : Vec Ideal S1x81 .f32)
    (bb : Fin 32) (t : Fin 27) (p : Fin 9) (l : Fin 51) :
    out0_A_11 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 (ix4 bb t p l)
      = BKc x0 x1 x2 x3 x4 x5 x6 x7 x8 x9 x10 bb t p l := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10)]
  -- every store's payload is the one function of the block index, on the store's rectangle
  refine View.canon_apply_of_pieces (Val := Elt Ideal)
    (fun y => BKc x0 x1 x2 x3 x4 x5 x6 x7 x8 x9 x10 (y 0) (y 1) (y 2) (y 3)) _ ?_ (ix4 bb t p l)
    (cover0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 (ix4 bb t p l))
  unfold kernelRun0_A
  dsimp only
  sl_unfold_words
  intro q hq
  simp only [List.mem_cons, List.mem_nil_iff, or_false] at hq
  rcases hq with rfl | rfl | rfl | rfl | rfl | rfl
  · -- lanes 42–50: group 4
    intro x
    obtain ⟨b', t', p', q', rfl⟩ : ∃ (b' : Fin 32) (t' : Fin 27) (p' : Fin 9) (q' : Fin 9), x = ix4 b' t' p' q' :=
      ⟨x 0, x 1, x 2, x 3, eq_ix4 x⟩
    refine (KerPay.pay1_apply _ _ _ b' t' p' q').trans ?_
    rw [emb_lane 42 9 (by decide) _ b' t' p' q']
    refine (lin_of_loads x0 4 _ _ x9 _ x10 b' t' _ (fun h => load_tok arg1 harg1 x0 4 _ b' t' h)
      (load_whole2 arg10 harg10 x9 _) (load_whole2 arg11 harg11 x10 _)).trans ?_
    exact (BKc_lane42 x0 x1 x2 x3 x4 x5 x6 x7 x8 x9 x10 b' t' p' q').symm
  · -- lanes 33–41: group 3
    intro x
    obtain ⟨b', t', p', q', rfl⟩ : ∃ (b' : Fin 32) (t' : Fin 27) (p' : Fin 9) (q' : Fin 9), x = ix4 b' t' p' q' :=
      ⟨x 0, x 1, x 2, x 3, eq_ix4 x⟩
    refine (KerPay.pay7_apply _ _ _ b' t' p' q').trans ?_
    rw [emb_lane 33 9 (by decide) _ b' t' p' q']
    refine (lin_of_loads x0 3 _ _ x7 _ x8 b' t' _ (fun h => load_tok arg1 harg1 x0 3 _ b' t' h)
      (load_whole2 arg8 harg8 x7 _) (load_whole2 arg9 harg9 x8 _)).trans ?_
    exact (BKc_lane33 x0 x1 x2 x3 x4 x5 x6 x7 x8 x9 x10 b' t' p' q').symm
  · -- lanes 21–32: the five-joint group's last twelve columns
    intro x
    obtain ⟨b', t', p', q', rfl⟩ : ∃ (b' : Fin 32) (t' : Fin 27) (p' : Fin 9) (q' : Fin 12), x = ix4 b' t' p' q' :=
      ⟨x 0, x 1, x 2, x 3, eq_ix4 x⟩
    refine (KerPay.pay6_apply _ _ _ b' t' p' q').trans ?_
    rw [emb_lane 21 12 (by decide) _ b' t' p' q']
    refine (lin_of_loads x0 2 _ _ x5 _ x6 b' t' _ (fun h => load_tok arg1 harg1 x0 2 _ b' t' h)
      (load_whole2 arg6 harg6 x5 _) (load_whole2 arg7 harg7 x6 _)).trans ?_
    exact (BKc_lane21 x0 x1 x2 x3 x4 x5 x6 x7 x8 x9 x10 b' t' p' q').symm
  · -- lanes 0–2: the five-joint group's first three columns
    intro x
    obtain ⟨b', t', p', q', rfl⟩ : ∃ (b' : Fin 32) (t' : Fin 27) (p' : Fin 9) (q' : Fin 3), x = ix4 b' t' p' q' :=
      ⟨x 0, x 1, x 2, x 3, eq_ix4 x⟩
    refine (KerPay.pay5_apply _ _ _ b' t' p' q').trans ?_
    rw [emb_lane 0 3 (by decide) _ b' t' p' q']
    refine (lin_of_loads x0 2 _ _ x5 _ x6 b' t' _ (fun h => load_tok arg1 harg1 x0 2 _ b' t' h)
      (load_whole2 arg6 harg6 x5 _) (load_whole2 arg7 harg7 x6 _)).trans ?_
    exact (BKc_lane0 x0 x1 x2 x3 x4 x5 x6 x7 x8 x9 x10 b' t' p' q').symm
  · -- lanes 12–20: group 1
    intro x
    obtain ⟨b', t', p', q', rfl⟩ : ∃ (b' : Fin 32) (t' : Fin 27) (p' : Fin 9) (q' : Fin 9), x = ix4 b' t' p' q' :=
      ⟨x 0, x 1, x 2, x 3, eq_ix4 x⟩
    refine (KerPay.pay3_apply _ _ _ b' t' p' q').trans ?_
    rw [emb_lane 12 9 (by decide) _ b' t' p' q']
    refine (lin_of_loads x0 1 _ _ x3 _ x4 b' t' _ (fun h => load_tok arg1 harg1 x0 1 _ b' t' h)
      (load_whole2 arg4 harg4 x3 _) (load_whole2 arg5 harg5 x4 _)).trans ?_
    exact (BKc_lane12 x0 x1 x2 x3 x4 x5 x6 x7 x8 x9 x10 b' t' p' q').symm
  · -- lanes 3–11: group 0
    intro x
    obtain ⟨b', t', p', q', rfl⟩ : ∃ (b' : Fin 32) (t' : Fin 27) (p' : Fin 9) (q' : Fin 9), x = ix4 b' t' p' q' :=
      ⟨x 0, x 1, x 2, x 3, eq_ix4 x⟩
    refine (KerPay.pay2_apply _ _ _ b' t' p' q').trans ?_
    rw [emb_lane 3 9 (by decide) _ b' t' p' q']
    refine (lin_of_loads x0 0 _ _ x1 _ x2 b' t' _ (fun h => load_tok arg1 harg1 x0 0 _ b' t' h)
      (load_whole2 arg2 harg2 x1 _) (load_whole2 arg3 harg3 x2 _)).trans ?_
    exact (BKc_lane3 x0 x1 x2 x3 x4 x5 x6 x7 x8 x9 x10 b' t' p' q').symm

end Cert.KernelIdeal.KerBlock

end
-- ==== Proof.KerIn.lean ====
/-
  What the pipeline's input windows hold at a grid point, read at an index, against the argument arrays in
  memory. The tokens' window at point t is batches 32 t … 32 t + 31 of the token array; each weight window is its
  whole weight at every point; each bias window is the whole row [1, n] the host re-lays the bias [n] as before the
  call, whose entry (0, o) is the bias's entry o.
-/
import proofs.«129922_j69887707841118_1_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.KernelIdeal.KerIn

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The printed index maps, decided once over the grid -/

/-- The tokens' window moves along the batch axis with the point and stays at block 0 on the other axes. -/
theorem idx0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)
/-- Each weight's and each bias row's window is block (0, 0) at every point. -/
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)

/-! ## The bias rows when the region is entered: the host's re-laying of each bias -/

theorem V_main_v0 (c : Dev nD) :
    (V m c main_v0 : S1x81.Idx → EReal) = shapeCast S1x81 (m ((c : Thread nD τ).loc main_arg2)) shapeCasts_S81_S1x81 := by
  show StableHlo.after hostOps0 (fun b => m (c, b)) (Proc.devRef .tc main_v0) = _
  after_results
  rfl
theorem V_main_v1 (c : Dev nD) :
    (V m c main_v1 : S1x81.Idx → EReal) = shapeCast S1x81 (m ((c : Thread nD τ).loc main_arg4)) shapeCasts_S81_S1x81 := by
  show StableHlo.after hostOps0 (fun b => m (c, b)) (Proc.devRef .tc main_v1) = _
  after_results
  rfl
theorem V_main_v2 (c : Dev nD) :
    (V m c main_v2 : S1x135.Idx → EReal) = shapeCast S1x135 (m ((c : Thread nD τ).loc main_arg6)) shapeCasts_S135_S1x135 := by
  show StableHlo.after hostOps0 (fun b => m (c, b)) (Proc.devRef .tc main_v2) = _
  after_results
  rfl
theorem V_main_v3 (c : Dev nD) :
    (V m c main_v3 : S1x81.Idx → EReal) = shapeCast S1x81 (m ((c : Thread nD τ).loc main_arg8)) shapeCasts_S81_S1x81 := by
  show StableHlo.after hostOps0 (fun b => m (c, b)) (Proc.devRef .tc main_v3) = _
  after_results
  rfl
theorem V_main_v4 (c : Dev nD) :
    (V m c main_v4 : S1x81.Idx → EReal) = shapeCast S1x81 (m ((c : Thread nD τ).loc main_arg10)) shapeCasts_S81_S1x81 := by
  show StableHlo.after hostOps0 (fun b => m (c, b)) (Proc.devRef .tc main_v4) = _
  after_results
  rfl

/-- A vector [81] re-laid as the row [1, 81], at (0, o): the vector's entry o (the same row-major position). -/
theorem row81_apply (x : S81.Idx → EReal) (o : Fin 81) :
    shapeCast S1x81 x shapeCasts_S81_S1x81 (ix2 (0 : Fin 1) o) = x (ix1 o) := by
  refine shapeCast_apply _ shapeCasts_S81_S1x81 (ix2 (0 : Fin 1) o) (ix1 o) ?_
  rw [Shape.rowMajor_val_one, Shape.rowMajor_val_two]
  show o.val = 0 * 81 + o.val
  omega
/-- The same for [135] re-laid as [1, 135]. -/
theorem row135_apply (x : S135.Idx → EReal) (o : Fin 135) :
    shapeCast S1x135 x shapeCasts_S135_S1x135 (ix2 (0 : Fin 1) o) = x (ix1 o) := by
  refine shapeCast_apply _ shapeCasts_S135_S1x135 (ix2 (0 : Fin 1) o) (ix1 o) ?_
  rw [Shape.rowMajor_val_one, Shape.rowMajor_val_two]
  show o.val = 0 * 135 + o.val
  omega

/-! ## The windows' blocks at an index

A block's coordinate in its array is the block index times the block's extent plus the coordinate inside the block. -/

/-- The tokens' window at point `t`: batch `bb` of the block is batch `32 t + bb` of the array. -/
theorem iblk0_apply (c : Dev nD) (t : Fin cfg0.N) (ht : t.val < 32) (bb : Fin 32) (tp : Fin 27) (k : Fin 5) (h : Fin 512) :
    (iblk m c 0 t : S32x27x5x512.Idx → EReal) (ix4 bb tp k h)
      = (m ((c : Thread nD τ).loc main_arg0)) (ix4 (⟨t.val * 32 + bb.val, by omega⟩ : Fin 1024) tp k h) := by
  show V m c main_arg0 (((cfg0.win 0).blk t).view.emb (ix4 bb tp k h)) = _
  rw [V_main_arg0]
  refine congrArg _ ?_
  obtain ⟨e0, e1, e2, e3⟩ := idx0 t
  funext a; apply Fin.ext
  match a with
  | ⟨0, _⟩ => show win0_0.index t (0 : Fin 4) * 32 + 1 * bb.val = t.val * 32 + bb.val; rw [e0]; omega
  | ⟨1, _⟩ => show win0_0.index t (1 : Fin 4) * 27 + 1 * tp.val = tp.val; rw [e1]; omega
  | ⟨2, _⟩ => show win0_0.index t (2 : Fin 4) * 5 + 1 * k.val = k.val; rw [e2]; omega
  | ⟨3, _⟩ => show win0_0.index t (3 : Fin 4) * 512 + 1 * h.val = h.val; rw [e3]; omega

/-- Window 1 stages the whole of its weight at every point. -/
theorem iblk1_eq (c : Dev nD) (t : Fin cfg0.N) : (iblk m c 1 t : S81x512.Idx → EReal) = (m ((c : Thread nD τ).loc main_arg1)) := by
  funext j
  show V m c main_arg1 (((cfg0.win 1).blk t).view.emb j) = _
  rw [V_main_arg1]
  refine congrArg _ ?_
  obtain ⟨e0, e1⟩ := idx1 t
  funext a; apply Fin.ext
  match a with
  | ⟨0, _⟩ => show win0_1.index t (0 : Fin 2) * 81 + 1 * (j 0).val = (j 0).val; rw [e0]; omega
  | ⟨1, _⟩ => show win0_1.index t (1 : Fin 2) * 512 + 1 * (j 1).val = (j 1).val; rw [e1]; omega

/-- Window 2 stages the whole bias row, the host's re-laying [81] → [1, 81] of its bias, at every point. -/
theorem iblk2_apply (c : Dev nD) (t : Fin cfg0.N) (o : Fin 81) :
    (iblk m c 2 t : S1x81.Idx → EReal) (ix2 (0 : Fin 1) o) = (m ((c : Thread nD τ).loc main_arg2)) (ix1 o) := by
  show (V m c main_v0 : S1x81.Idx → EReal) (((cfg0.win 2).blk t).view.emb (ix2 (0 : Fin 1) o)) = _
  rw [V_main_v0]
  obtain ⟨e0, e1⟩ := idx2 t
  have he : ((cfg0.win 2).blk t).view.emb (ix2 (0 : Fin 1) o) = (ix2 (0 : Fin 1) o : S1x81.Idx) := by
    funext a; apply Fin.ext
    match a with
    | ⟨0, _⟩ => show win0_2.index t (0 : Fin 2) * 1 + 1 * 0 = 0; rw [e0]
    | ⟨1, _⟩ => show win0_2.index t (1 : Fin 2) * 81 + 1 * o.val = o.val; rw [e1]; omega
  rw [he]
  exact row81_apply _ o

/-- Window 3 stages the whole of its weight at every point. -/
theorem iblk3_eq (c : Dev nD) (t : Fin cfg0.N) : (iblk m c 3 t : S81x512.Idx → EReal) = (m ((c : Thread nD τ).loc main_arg3)) := by
  funext j
  show V m c main_arg3 (((cfg0.win 3).blk t).view.emb j) = _
  rw [V_main_arg3]
  refine congrArg _ ?_
  obtain ⟨e0, e1⟩ := idx3 t
  funext a; apply Fin.ext
  match a with
  | ⟨0, _⟩ => show win0_3.index t (0 : Fin 2) * 81 + 1 * (j 0).val = (j 0).val; rw [e0]; omega
  | ⟨1, _⟩ => show win0_3.index t (1 : Fin 2) * 512 + 1 * (j 1).val = (j 1).val; rw [e1]; omega

/-- Window 4 stages the whole bias row, the host's re-laying [81] → [1, 81] of its bias, at every point. -/
theorem iblk4_apply (c : Dev nD) (t : Fin cfg0.N) (o : Fin 81) :
    (iblk m c 4 t : S1x81.Idx → EReal) (ix2 (0 : Fin 1) o) = (m ((c : Thread nD τ).loc main_arg4)) (ix1 o) := by
  show (V m c main_v1 : S1x81.Idx → EReal) (((cfg0.win 4).blk t).view.emb (ix2 (0 : Fin 1) o)) = _
  rw [V_main_v1]
  obtain ⟨e0, e1⟩ := idx4 t
  have he : ((cfg0.win 4).blk t).view.emb (ix2 (0 : Fin 1) o) = (ix2 (0 : Fin 1) o : S1x81.Idx) := by
    funext a; apply Fin.ext
    match a with
    | ⟨0, _⟩ => show win0_4.index t (0 : Fin 2) * 1 + 1 * 0 = 0; rw [e0]
    | ⟨1, _⟩ => show win0_4.index t (1 : Fin 2) * 81 + 1 * o.val = o.val; rw [e1]; omega
  rw [he]
  exact row81_apply _ o

/-- Window 5 stages the whole of its weight at every point. -/
theorem iblk5_eq (c : Dev nD) (t : Fin cfg0.N) : (iblk m c 5 t : S135x512.Idx → EReal) = (m ((c : Thread nD τ).loc main_arg5)) := by
  funext j
  show V m c main_arg5 (((cfg0.win 5).blk t).view.emb j) = _
  rw [V_main_arg5]
  refine congrArg _ ?_
  obtain ⟨e0, e1⟩ := idx5 t
  funext a; apply Fin.ext
  match a with
  | ⟨0, _⟩ => show win0_5.index t (0 : Fin 2) * 135 + 1 * (j 0).val = (j 0).val; rw [e0]; omega
  | ⟨1, _⟩ => show win0_5.index t (1 : Fin 2) * 512 + 1 * (j 1).val = (j 1).val; rw [e1]; omega

/-- Window 6 stages the whole bias row, the host's re-laying [135] → [1, 135] of its bias, at every point. -/
theorem iblk6_apply (c : Dev nD) (t : Fin cfg0.N) (o : Fin 135) :
    (iblk m c 6 t : S1x135.Idx → EReal) (ix2 (0 : Fin 1) o) = (m ((c : Thread nD τ).loc main_arg6)) (ix1 o) := by
  show (V m c main_v2 : S1x135.Idx → EReal) (((cfg0.win 6).blk t).view.emb (ix2 (0 : Fin 1) o)) = _
  rw [V_main_v2]
  obtain ⟨e0, e1⟩ := idx6 t
  have he : ((cfg0.win 6).blk t).view.emb (ix2 (0 : Fin 1) o) = (ix2 (0 : Fin 1) o : S1x135.Idx) := by
    funext a; apply Fin.ext
    match a with
    | ⟨0, _⟩ => show win0_6.index t (0 : Fin 2) * 1 + 1 * 0 = 0; rw [e0]
    | ⟨1, _⟩ => show win0_6.index t (1 : Fin 2) * 135 + 1 * o.val = o.val; rw [e1]; omega
  rw [he]
  exact row135_apply _ o

/-- Window 7 stages the whole of its weight at every point. -/
theorem iblk7_eq (c : Dev nD) (t : Fin cfg0.N) : (iblk m c 7 t : S81x512.Idx → EReal) = (m ((c : Thread nD τ).loc main_arg7)) := by
  funext j
  show V m c main_arg7 (((cfg0.win 7).blk t).view.emb j) = _
  rw [V_main_arg7]
  refine congrArg _ ?_
  obtain ⟨e0, e1⟩ := idx7 t
  funext a; apply Fin.ext
  match a with
  | ⟨0, _⟩ => show win0_7.index t (0 : Fin 2) * 81 + 1 * (j 0).val = (j 0).val; rw [e0]; omega
  | ⟨1, _⟩ => show win0_7.index t (1 : Fin 2) * 512 + 1 * (j 1).val = (j 1).val; rw [e1]; omega

/-- Window 8 stages the whole bias row, the host's re-laying [81] → [1, 81] of its bias, at every point. -/
theorem iblk8_apply (c : Dev nD) (t : Fin cfg0.N) (o : Fin 81) :
    (iblk m c 8 t : S1x81.Idx → EReal) (ix2 (0 : Fin 1) o) = (m ((c : Thread nD τ).loc main_arg8)) (ix1 o) := by
  show (V m c main_v3 : S1x81.Idx → EReal) (((cfg0.win 8).blk t).view.emb (ix2 (0 : Fin 1) o)) = _
  rw [V_main_v3]
  obtain ⟨e0, e1⟩ := idx8 t
  have he : ((cfg0.win 8).blk t).view.emb (ix2 (0 : Fin 1) o) = (ix2 (0 : Fin 1) o : S1x81.Idx) := by
    funext a; apply Fin.ext
    match a with
    | ⟨0, _⟩ => show win0_8.index t (0 : Fin 2) * 1 + 1 * 0 = 0; rw [e0]
    | ⟨1, _⟩ => show win0_8.index t (1 : Fin 2) * 81 + 1 * o.val = o.val; rw [e1]; omega
  rw [he]
  exact row81_apply _ o

/-- Window 9 stages the whole of its weight at every point. -/
theorem iblk9_eq (c : Dev nD) (t : Fin cfg0.N) : (iblk m c 9 t : S81x512.Idx → EReal) = (m ((c : Thread nD τ).loc main_arg9)) := by
  funext j
  show V m c main_arg9 (((cfg0.win 9).blk t).view.emb j) = _
  rw [V_main_arg9]
  refine congrArg _ ?_
  obtain ⟨e0, e1⟩ := idx9 t
  funext a; apply Fin.ext
  match a with
  | ⟨0, _⟩ => show win0_9.index t (0 : Fin 2) * 81 + 1 * (j 0).val = (j 0).val; rw [e0]; omega
  | ⟨1, _⟩ => show win0_9.index t (1 : Fin 2) * 512 + 1 * (j 1).val = (j 1).val; rw [e1]; omega

/-- Window 10 stages the whole bias row, the host's re-laying [81] → [1, 81] of its bias, at every point. -/
theorem iblk10_apply (c : Dev nD) (t : Fin cfg0.N) (o : Fin 81) :
    (iblk m c 10 t : S1x81.Idx → EReal) (ix2 (0 : Fin 1) o) = (m ((c : Thread nD τ).loc main_arg10)) (ix1 o) := by
  show (V m c main_v4 : S1x81.Idx → EReal) (((cfg0.win 10).blk t).view.emb (ix2 (0 : Fin 1) o)) = _
  rw [V_main_v4]
  obtain ⟨e0, e1⟩ := idx10 t
  have he : ((cfg0.win 10).blk t).view.emb (ix2 (0 : Fin 1) o) = (ix2 (0 : Fin 1) o : S1x81.Idx) := by
    funext a; apply Fin.ext
    match a with
    | ⟨0, _⟩ => show win0_10.index t (0 : Fin 2) * 1 + 1 * 0 = 0; rw [e0]
    | ⟨1, _⟩ => show win0_10.index t (1 : Fin 2) * 81 + 1 * o.val = o.val; rw [e1]; omega
  rw [he]
  exact row81_apply _ o

end Cert.KernelIdeal.KerIn

end
-- ==== Proof.KerCover.lean ====
/-
  The output window's blocks in its array. Point t of the 32 writes back the block of batches 32 t … 32 t + 31,
  whole in the other three axes; so entry (bb, tp, p, l) of point t's block is entry (32 t + bb, tp, p, l) of the
  array [1024, 27, 9, 51], and every index of the array lies in the block of point (its batch) / 32.
-/
import proofs.«129922_j69887707841118_1_alg».proof.Proof.Gen.KernelIdeal.Frame
import Idealize.ShloMosaic.Lib.ValueIdx
import Idealize.ShloMosaic.Lib.Pipeline.Value

set_option maxRecDepth 16384

noncomputable section

namespace Cert.KernelIdeal.KerCover

open Cert.KernelIdeal Cert.KernelIdeal.Gen Idealize.ShloMosaic Idealize.ShloMosaic.TcCoe Idealize.SL.Sem Idealize.ShloMosaic.ValueIdx
open Idealize.ShloMosaic.Pipeline (Dat)

/-- The output window's index map over the grid: point `t` is at block `t` of the batch axis and block 0 of the
    other three. -/
theorem idx_facts11 : ∀ t : Fin cfg0.N, win0_11.index t (0 : Fin 4) = t.val ∧ win0_11.index t (1 : Fin 4) = 0
    ∧ win0_11.index t (2 : Fin 4) = 0 ∧ win0_11.index t (3 : Fin 4) = 0 :=
  (by decide +kernel : ∀ t : Fin grid0.N, _)

/-- An index of the array is in point `t`'s block iff each coordinate is in the block's range on its axis. -/
theorem mem_blk11 (t : Fin cfg0.N) (i : S1024x27x9x51.Idx) :
    i ∈ ((cfg0.win 11).blk t).view.set ↔ ∀ a : Fin 4, win0_11.index t a * S32x27x9x51.size a ≤ (i a).val
      ∧ (i a).val < win0_11.index t a * S32x27x9x51.size a + S32x27x9x51.size a := by
  show i ∈ ((View.whole main_v5).slice (win0_11.rect t)).set ↔ _
  rw [View.set_slice_whole, Rect.mem_set_unit]
  exact Iff.rfl

/-- Where point `t`'s output block sits in the array. -/
theorem emb11 (t : Fin cfg0.N) (ht : t.val < 32) (bb : Fin 32) (tp : Fin 27) (p : Fin 9) (l : Fin 51) :
    (((cfg0.win 11).blk t).view.emb (ix4 bb tp p l) : S1024x27x9x51.Idx)
      = ix4 (⟨t.val * 32 + bb.val, by omega⟩ : Fin 1024) tp p l := by
  obtain ⟨e0, e1, e2, e3⟩ := idx_facts11 t
  funext a; apply Fin.ext
  match a with
  | ⟨0, _⟩ => show win0_11.index t (0 : Fin 4) * 32 + 1 * bb.val = t.val * 32 + bb.val; omega
  | ⟨1, _⟩ => show win0_11.index t (1 : Fin 4) * 27 + 1 * tp.val = tp.val; omega
  | ⟨2, _⟩ => show win0_11.index t (2 : Fin 4) * 9 + 1 * p.val = p.val; omega
  | ⟨3, _⟩ => show win0_11.index t (3 : Fin 4) * 51 + 1 * l.val = l.val; omega

/-- Every index of the output array is in some point's block, and every point writes its block back. -/
theorem cover11 (i : S1024x27x9x51.Idx) :
    ∃ t : Fin cfg0.N, (cfg0.win 11).flush t = true ∧ i ∈ ((cfg0.win 11).blk t).view.set := by
  have h0 : (i 0).val < 1024 := (i 0).isLt
  have h1 : (i 1).val < 27 := (i 1).isLt
  have h2 : (i 2).val < 9 := (i 2).isLt
  have h3 : (i 3).val < 51 := (i 3).isLt
  have hN : cfg0.N = 32 := N_0
  obtain ⟨t, et⟩ : ∃ t : Fin cfg0.N, t.val = (i 0).val / 32 := ⟨⟨(i 0).val / 32, by rw [hN]; omega⟩, rfl⟩
  refine ⟨t, flush0_11 t, ?_⟩
  rw [mem_blk11]
  obtain ⟨e0, e1, e2, e3⟩ := idx_facts11 t
  intro a
  match a with
  | ⟨0, _⟩ =>
    show win0_11.index t (0 : Fin 4) * 32 ≤ (i 0).val ∧ (i 0).val < win0_11.index t (0 : Fin 4) * 32 + 32
    omega
  | ⟨1, _⟩ =>
    show win0_11.index t (1 : Fin 4) * 27 ≤ (i 1).val ∧ (i 1).val < win0_11.index t (1 : Fin 4) * 27 + 27
    omega
  | ⟨2, _⟩ =>
    show win0_11.index t (2 : Fin 4) * 9 ≤ (i 2).val ∧ (i 2).val < win0_11.index t (2 : Fin 4) * 9 + 9
    omega
  | ⟨3, _⟩ =>
    show win0_11.index t (3 : Fin 4) * 51 ≤ (i 3).val ∧ (i 3).val < win0_11.index t (3 : Fin 4) * 51 + 51
    omega

end Cert.KernelIdeal.KerCover

end
-- ==== Proof.Spec.lean ====
/-
  The specification both programs meet, stated once over the argument arrays.

  The model predicts, for each of five joint groups k (of 3, 3, 5, 3, 3 joints), a linear image of the group's
  token: for batch b, temporal patch t and output row o,
      lin k (b, t, o) = (∑ h, tokens[b, t, k, h] · W_k[o, h]) + bias_k[o],
  where row o = p · (3 · |group|) + 3 · g + c addresses frame p of the patch, the g-th joint of the group and
  channel c. Every joint 0 … 16 lies in exactly one group, so the result at frame T = 9 t + p, joint j, channel c
  is the one group's prediction for that joint: nothing is averaged.

  Two layouts of that result are used. `GK` is the array [1024, 27, 9, 51] indexed (b, t, p, l) with lane
  l = 3 j + c; `G` is the array [1024, 243, 17, 3] indexed (b, T, j, c). They hold the same numbers:
  G (b, T, j, c) = GK (b, T / 9, T % 9, 3 j + c).
-/
import Idealize.ShloMosaic.PureOps.Ideal
import Idealize.ShloMosaic.Lib.ValueIdx

noncomputable section

open scoped BigOperators

namespace Cert.Spec

open Idealize.ShloMosaic Idealize.ShloMosaic.ValueIdx

abbrev STok : Shape := ⟨4, ![1024, 27, 5, 512]⟩
abbrev SW (n : Nat) : Shape := ⟨2, ![n, 512]⟩
abbrev SB (n : Nat) : Shape := ⟨1, ![n]⟩
abbrev SK : Shape := ⟨4, ![1024, 27, 9, 51]⟩
abbrev SOut : Shape := ⟨4, ![1024, 243, 17, 3]⟩

/-- Group `k`'s linear layer at batch `b`, patch `t`, output row `o`: the token's 512 features against weight
    row `o`, plus the bias. -/
def lin {n : Nat} (tok : STok.Idx → EReal) (k : Fin 5) (W : (SW n).Idx → EReal) (bias : (SB n).Idx → EReal)
    (b : Fin 1024) (t : Fin 27) (o : Fin n) : EReal :=
  (∑ h : Fin 512, tok (ix4 b t k h) * W (ix2 o h)) + bias (ix1 o)

section
variable (tok : STok.Idx → EReal)
  (W0 : (SW 81).Idx → EReal) (b0 : (SB 81).Idx → EReal) (W1 : (SW 81).Idx → EReal) (b1 : (SB 81).Idx → EReal)
  (W2 : (SW 135).Idx → EReal) (b2 : (SB 135).Idx → EReal) (W3 : (SW 81).Idx → EReal) (b3 : (SB 81).Idx → EReal)
  (W4 : (SW 81).Idx → EReal) (b4 : (SB 81).Idx → EReal)

/-- The result in the lane layout, by coordinates. Lanes 0–2 are joint 0 and lanes 21–32 joints 7–10 (group 2,
    five joints, 15 columns a frame); lanes 3–11 joints 1–3 (group 0), 12–20 joints 4–6 (group 1), 33–41 joints
    11–13 (group 3), 42–50 joints 14–16 (group 4), nine columns a frame each. -/
def GKc (b : Fin 1024) (t : Fin 27) (p : Fin 9) (l : Fin 51) : EReal :=
  if h0 : l.val < 3 then lin tok 2 W2 b2 b t ⟨p.val * 15 + l.val, by omega⟩
  else if h1 : l.val < 12 then lin tok 0 W0 b0 b t ⟨p.val * 9 + (l.val - 3), by omega⟩
  else if h2 : l.val < 21 then lin tok 1 W1 b1 b t ⟨p.val * 9 + (l.val - 12), by omega⟩
  else if h3 : l.val < 33 then lin tok 2 W2 b2 b t ⟨p.val * 15 + (l.val - 18), by omega⟩
  else if h4 : l.val < 42 then lin tok 3 W3 b3 b t ⟨p.val * 9 + (l.val - 33), by omega⟩
  else lin tok 4 W4 b4 b t ⟨p.val * 9 + (l.val - 42), by omega⟩

/-- The result as the array [1024, 27, 9, 51]. -/
def GK : SK.Idx → EReal := fun y => GKc tok W0 b0 W1 b1 W2 b2 W3 b3 W4 b4 (y 0) (y 1) (y 2) (y 3)

/-- The result at frame `T`, joint `j`, channel `c`: the lane layout at patch `T / 9`, frame `T % 9`, lane `3 j + c`. -/
def Gc (b : Fin 1024) (T : Fin 243) (j : Fin 17) (c : Fin 3) : EReal :=
  GKc tok W0 b0 W1 b1 W2 b2 W3 b3 W4 b4 b ⟨T.val / 9, by omega⟩ ⟨T.val % 9, by omega⟩ ⟨j.val * 3 + c.val, by omega⟩

/-- The result as the array [1024, 243, 17, 3]. -/
def G : SOut.Idx → EReal := fun i => Gc tok W0 b0 W1 b1 W2 b2 W3 b3 W4 b4 (i 0) (i 1) (i 2) (i 3)

end

end Cert.Spec

end
-- ==== Proof.KerArray.lean ====
/-
  The kernel's output array after the run is the specification in the lane layout.
  At grid point t the body leaves in the output block the lane function of the point's input blocks; the token
  block is batches 32 t … 32 t + 31 of the token array, the weight blocks are the whole weights and the bias rows
  the biases, so the block is the specification restricted to those batches; point t writes it back at batches
  32 t … 32 t + 31 of the output array; and the 32 points' blocks cover the array.
-/
import proofs.«129922_j69887707841118_1_alg».proof.Proof.KerBlock
import proofs.«129922_j69887707841118_1_alg».proof.Proof.KerIn
import proofs.«129922_j69887707841118_1_alg».proof.Proof.KerCover
import proofs.«129922_j69887707841118_1_alg».proof.Proof.Spec

set_option maxRecDepth 16384

noncomputable section

open scoped BigOperators

namespace Cert.KernelIdeal.KerArray

open Cert.KernelIdeal Cert.KernelIdeal.Gen Idealize.ShloMosaic Idealize.ShloMosaic.TcCoe Idealize.SL.Sem Idealize.ShloMosaic.ValueIdx
open Idealize.ShloMosaic.Pipeline (Dat)

/-- The lane function of blocks that are the arrays' restrictions to batches `32 tv …` (the weights whole, the bias
    rows the biases) is the specification at batch `32 tv + bb`. -/
theorem BKc_eq_GKc (X0 : S32x27x5x512.Idx → EReal) (X1 : S81x512.Idx → EReal) (X2 : S1x81.Idx → EReal)
    (X3 : S81x512.Idx → EReal) (X4 : S1x81.Idx → EReal) (X5 : S135x512.Idx → EReal) (X6 : S1x135.Idx → EReal)
    (X7 : S81x512.Idx → EReal) (X8 : S1x81.Idx → EReal) (X9 : S81x512.Idx → EReal) (X10 : S1x81.Idx → EReal)
    (tok : S1024x27x5x512.Idx → EReal) (W0 : S81x512.Idx → EReal) (b0 : S81.Idx → EReal) (W1 : S81x512.Idx → EReal)
    (b1 : S81.Idx → EReal) (W2 : S135x512.Idx → EReal) (b2 : S135.Idx → EReal) (W3 : S81x512.Idx → EReal)
    (b3 : S81.Idx → EReal) (W4 : S81x512.Idx → EReal) (b4 : S81.Idx → EReal) (tv : Nat) (ht : tv < 32)
    (h0 : ∀ (bb : Fin 32) (tp : Fin 27) (k : Fin 5) (h : Fin 512),
      X0 (ix4 bb tp k h) = tok (ix4 (⟨tv * 32 + bb.val, by omega⟩ : Fin 1024) tp k h))
    (h1 : X1 = W0) (h2 : ∀ o : Fin 81, X2 (ix2 (0 : Fin 1) o) = b0 (ix1 o))
    (h3 : X3 = W1) (h4 : ∀ o : Fin 81, X4 (ix2 (0 : Fin 1) o) = b1 (ix1 o))
    (h5 : X5 = W2) (h6 : ∀ o : Fin 135, X6 (ix2 (0 : Fin 1) o) = b2 (ix1 o))
    (h7 : X7 = W3) (h8 : ∀ o : Fin 81, X8 (ix2 (0 : Fin 1) o) = b3 (ix1 o))
    (h9 : X9 = W4) (h10 : ∀ o : Fin 81, X10 (ix2 (0 : Fin 1) o) = b4 (ix1 o))
    (bb : Fin 32) (tp : Fin 27) (p : Fin 9) (l : Fin 51) :
    KerBlock.BKc X0 X1 X2 X3 X4 X5 X6 X7 X8 X9 X10 bb tp p l
      = Cert.Spec.GKc tok W0 b0 W1 b1 W2 b2 W3 b3 W4 b4 (⟨tv * 32 + bb.val, by omega⟩ : Fin 1024) tp p l := by
  subst h1 h3 h5 h7 h9
  unfold KerBlock.BKc Cert.Spec.GKc
  split_ifs <;> simp only [KerBlock.linB, Cert.Spec.lin, h0, h2, h4, h6, h8, h10]

variable (m : (ℓ : Loc nD τ sig) → Buf (Elt Ideal) ℓ)

/-- The specification in the lane layout, of the argument arrays in memory on core `c`. -/
abbrev GKm (c : Dev nD) : S1024x27x9x51.Idx → EReal :=
  Cert.Spec.GK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

theorem lt32 (t : Fin cfg0.N) : t.val < 32 := by
  have h := t.isLt
  have e : cfg0.N = 32 := N_0
  omega

/-- What point `t`'s body leaves in the output block, at an index: the specification at batch `32 t + bb`. -/
theorem outsAt0_apply (c : Dev nD) (t : Fin cfg0.N) (bb : Fin 32) (tp : Fin 27) (p : Fin 9) (l : Fin 51) :
    (outsAt0 m c t : S32x27x9x51.Idx → EReal) (ix4 bb tp p l)
      = Cert.Spec.GKc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
          (⟨t.val * 32 + bb.val, by have := lt32 t; omega⟩ : Fin 1024) tp p l := by
  unfold outsAt0
  refine (KerBlock.out0_A_11_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) bb tp p l).trans ?_
  exact BKc_eq_GKc (iblk m c 0 t) (iblk m c 1 t) (iblk m c 2 t) (iblk m c 3 t) (iblk m c 4 t) (iblk m c 5 t) (iblk m c 6 t) (iblk m c 7 t) (iblk m c 8 t) (iblk m c 9 t) (iblk m c 10 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) t.val (lt32 t)
    (fun bb tp k h => KerIn.iblk0_apply m c t (lt32 t) bb tp k h)
    (KerIn.iblk1_eq m c t) (fun o => KerIn.iblk2_apply m c t o)
    (KerIn.iblk3_eq m c t) (fun o => KerIn.iblk4_apply m c t o)
    (KerIn.iblk5_eq m c t) (fun o => KerIn.iblk6_apply m c t o)
    (KerIn.iblk7_eq m c t) (fun o => KerIn.iblk8_apply m c t o)
    (KerIn.iblk9_eq m c t) (fun o => KerIn.iblk10_apply m c t o) bb tp p l

/-- WHAT POINT `t` WRITES BACK is block `t` of the specification. -/
theorem flushed_eq (c : Dev nD) (t : Fin cfg0.N) :
    (dats m 0 c).flushed 11 t = ((cfg0.win 11).blk t).view.read (Elt Ideal) (GKm m c) := by
  show (cfg0.win 11).cut (grid0.coords t) ((dats m 0 c).after 11 t) = _
  rw [after0_11]
  funext j
  obtain ⟨bb, tp, p, l, rfl⟩ : ∃ (bb : Fin 32) (tp : Fin 27) (p : Fin 9) (l : Fin 51), j = ix4 bb tp p l :=
    ⟨j 0, j 1, j 2, j 3, eq_ix4 j⟩
  show (outsAt0 m c t : S32x27x9x51.Idx → EReal) (ix4 bb tp p l)
    = GKm m c (((cfg0.win 11).blk t).view.emb (ix4 bb tp p l))
  rw [KerCover.emb11 t (lt32 t) bb tp p l]
  exact outsAt0_apply m c t bb tp p l

/-- THE OUTPUT ARRAY after the run is the specification in the lane layout. -/
theorem final (c : Dev nD) : (dats m 0 c).arrAt 11 cfg0.N = GKm m c :=
  (dats m 0 c).arrAt_eq_of_cover 11 (GKm m c) (fun t _ => flushed_eq m c t) KerCover.cover11

end Cert.KernelIdeal.KerArray

end
-- ==== Proof.SpecLayout.lean ====
/-
  The two layouts of the specification hold the same numbers: re-laying the lane array [1024, 27, 9, 51] as
  [1024, 243, 17, 3] (a reshape keeps row-major positions) sends (b, t, p, 3 j + c) to (b, 9 t + p, j, c), so
  the re-laid array at (b, T, j, c) is the lane array at (b, T / 9, T % 9, 3 j + c).
-/
import proofs.«129922_j69887707841118_1_alg».proof.Proof.Spec
import Idealize.ShloMosaic.Lib.Pipeline.Value

noncomputable section

namespace Cert.Spec

open Idealize.ShloMosaic Idealize.ShloMosaic.ValueIdx

/-- The lane layout re-laid by frame, joint and channel is the specification's array. -/
theorem shapeCast_GK (tok : STok.Idx → EReal)
    (W0 : (SW 81).Idx → EReal) (b0 : (SB 81).Idx → EReal) (W1 : (SW 81).Idx → EReal) (b1 : (SB 81).Idx → EReal)
    (W2 : (SW 135).Idx → EReal) (b2 : (SB 135).Idx → EReal) (W3 : (SW 81).Idx → EReal) (b3 : (SB 81).Idx → EReal)
    (W4 : (SW 81).Idx → EReal) (b4 : (SB 81).Idx → EReal) (h : SK.ShapeCasts SOut) :
    shapeCast SOut (GK tok W0 b0 W1 b1 W2 b2 W3 b3 W4 b4) h = G tok W0 b0 W1 b1 W2 b2 W3 b3 W4 b4 := by
  funext i
  obtain ⟨b, T, j, c, rfl⟩ : ∃ (b : Fin 1024) (T : Fin 243) (j : Fin 17) (c : Fin 3), i = ix4 b T j c :=
    ⟨i 0, i 1, i 2, i 3, eq_ix4 i⟩
  -- the source index with the same row-major position: patch T / 9, frame T % 9, lane 3 j + c
  refine (shapeCast_apply _ h (ix4 b T j c)
    (ix4 b (⟨T.val / 9, by omega⟩ : Fin 27) (⟨T.val % 9, by omega⟩ : Fin 9)
      (⟨j.val * 3 + c.val, by omega⟩ : Fin 51)) ?_).trans ?_
  · rw [Shape.rowMajor_val_four, Shape.rowMajor_val_four]
    show ((b.val * 27 + T.val / 9) * 9 + T.val % 9) * 51 + (j.val * 3 + c.val)
      = ((b.val * 243 + T.val) * 17 + j.val) * 3 + c.val
    omega
  · rfl

end Cert.Spec

end
-- ==== Proof.KerRun.lean ====
/-
  The idealized kernel's run: every weakly fair execution terminates, nothing faulting, with the result — the
  host's re-laying [1024, 27, 9, 51] → [1024, 243, 17, 3] of the pipeline's output array — at the specification
  of the argument arrays, and the arguments unchanged.
-/
import proofs.«129922_j69887707841118_1_alg».proof.Proof.KerArray
import proofs.«129922_j69887707841118_1_alg».proof.Proof.SpecLayout
import Idealize.ShloMosaic.Lib.StableHlo.Run

set_option maxRecDepth 16384

noncomputable section

namespace Cert.KernelIdeal.KerRun

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result buffer after the line that follows the region: the output array re-laid, which is the
    specification by frame, joint and channel. -/
theorem tail_eq (c : Dev nD) :
    Pipeline.afterTail₀ cfgs (dats m) 0 (V0 m) [hostOps1] c main_v6
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold Pipeline.afterTail₀
  show StableHlo.after hostOps1 _ (Proc.devRef .tc main_v6) = _
  after_results
  have hw : Pipeline.withArrays (cfgs 0).spec c (V0 m c) (fun w => (dats m 0 c).arrAt w (cfgs 0).N)
      (Proc.devRef .tc main_v5) = KerArray.GKm m c :=
    (Pipeline.withArrays_arr spec0 launch0.win.arr_inj c _ _ 11).trans (KerArray.final m c)
  funext i
  show shapeCast S1024x243x17x3 (Pipeline.withArrays (cfgs 0).spec c (V0 m c)
      (fun w => (dats m 0 c).arrAt w (cfgs 0).N) (Proc.devRef .tc main_v5)) shapeCasts_S1024x27x9x51_S1024x243x17x3 i = _
  rw [hw]
  exact congrFun (Cert.Spec.shapeCast_GK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) shapeCasts_S1024x27x9x51_S1024x243x17x3) i

/-- On every device, from any memory with zero counters: every weakly fair execution of the idealized kernel
    terminates with its result at the specification of the arguments, the arguments unchanged. -/
theorem run : θ_run defs (onTc (τ := τ) (main (F := Ideal))) ⟨m, fun _ => 0, ρ⟩ fun r => ∀ c : Dev nD,
      r.2.mem ((c.tc : Thread nD τ).loc main_v6) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).2 main_v6 (Pipeline.mem_restRefs_of main_v6 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c),
      ((h c).1 9).trans (((dats m 0 c).arrAt_in 9 rfl _).trans ((A_eq m c 9).trans (V_main_arg9 m c))),
      ((h c).2 main_arg10 (Pipeline.mem_restRefs_of main_arg10 (by decide) (by decide))).trans (W_main_arg10 m (dats m) c)⟩)
    (run_main m ρ)

end Cert.KernelIdeal.KerRun

end
-- ==== Proof.RefTerm.lean ====
/-
  The reference program's result as ONE pure function of its eleven argument arrays: the operations of its
  straight-line text composed. For each joint group k the tokens' slice k is multiplied into the group's weight,
  the bias added, and the [1024, 27, 27·|group|] result re-laid as [1024, 243, |group|, 3]; the five results are
  scatter-added along the joint axis into a zero array at the group's joint numbers (a negative number would wrap by
  17; none is), a count array receives ones at the same places, and the sum is divided by the count clipped below
  at one.
-/
import proofs.«129922_j69887707841118_1_alg».proof.Proof.Gen.ReferenceIdeal

noncomputable section

namespace Cert.ReferenceIdeal.RefTerm

open Cert.ReferenceIdeal Cert.ReferenceIdeal.Gen Idealize.ShloMosaic

variable {F : FTy → Type} [FloatOps F]

/-- A group's joint numbers as the scatter reads them: one that is negative wraps by 17; as a column. -/
def joints3 (lit : IVec S3 32) : IVec S3x1 32 :=
  broadcastInDim S3x1 ![0] bcast_S3_S3x1_0
    (select (cmpi .slt lit (broadcastInDim S3 ![] bcast_S_S3 (constantI S_ 32 0#32)))
      (addi lit (broadcastInDim S3 ![] bcast_S_S3 (constantI S_ 32 17#32))) lit)

/-- The same for the group of five. -/
def joints5 (lit : IVec S5 32) : IVec S5x1 32 :=
  broadcastInDim S5x1 ![0] bcast_S5_S5x1_0
    (select (cmpi .slt lit (broadcastInDim S5 ![] bcast_S_S5 (constantI S_ 32 0#32)))
      (addi lit (broadcastInDim S5 ![] bcast_S_S5 (constantI S_ 32 17#32))) lit)

/-- The five literal tables of joint numbers. -/
def tab0 : IVec S3 32 := fun i => lit0 (S3.rowMajor i)
def tab1 : IVec S3 32 := fun i => lit1 (S3.rowMajor i)
def tab2 : IVec S5 32 := fun i => lit2 (S5.rowMajor i)
def tab3 : IVec S3 32 := fun i => lit3 (S3.rowMajor i)
def tab4 : IVec S3 32 := fun i => lit4 (S3.rowMajor i)

/-- A three-joint group's prediction, re-laid by frame, joint and channel: the tokens' slice at the group's
    offset against the weight, plus the bias. -/
def pred3 (off : Fin 4 → Nat) (hs : S1024x27x5x512.Slices off S1024x27x1x512) (tok : FVec F S1024x27x5x512 .f32)
    (W : FVec F S81x512 .f32) (b : FVec F S81 .f32) : FVec F S1024x243x3x3 .f32 :=
  shapeCast S1024x243x3x3
    (addf
      (Host.dotGeneral dot_S1024x27x512_S81x512_S1024x27x81_2_1_01_0_n_n none
        (shapeCast S1024x27x512 (extractStridedSlice S1024x27x1x512 off tok hs) shapeCasts_S1024x27x1x512_S1024x27x512) W)
      (broadcastInDim S1024x27x81 ![0, 1, 2] bcast_S1x1x81_S1024x27x81_0_1_2 (broadcastInDim S1x1x81 ![2] bcast_S81_S1x1x81_2 b)))
    shapeCasts_S1024x27x81_S1024x243x3x3

/-- The five-joint group's prediction. -/
def pred5 (off : Fin 4 → Nat) (hs : S1024x27x5x512.Slices off S1024x27x1x512) (tok : FVec F S1024x27x5x512 .f32)
    (W : FVec F S135x512 .f32) (b : FVec F S135 .f32) : FVec F S1024x243x5x3 .f32 :=
  shapeCast S1024x243x5x3
    (addf
      (Host.dotGeneral dot_S1024x27x512_S135x512_S1024x27x135_2_1_01_0_n_n none
        (shapeCast S1024x27x512 (extractStridedSlice S1024x27x1x512 off tok hs) shapeCasts_S1024x27x1x512_S1024x27x512) W)
      (broadcastInDim S1024x27x135 ![0, 1, 2] bcast_S1x1x135_S1024x27x135_0_1_2 (broadcastInDim S1x1x135 ![2] bcast_S135_S1x1x135_2 b)))
    shapeCasts_S1024x27x135_S1024x243x5x3

/-- Ones, as many as a three-joint group's update has per channel-less element. -/
def ones3 : FVec F S1024x243x3x1 .f32 := broadcastInDim S1024x243x3x1 ![] bcast_S_S1024x243x3x1 (constant S_ .f32 0x3F800000#32)
def ones5 : FVec F S1024x243x5x1 .f32 := broadcastInDim S1024x243x5x1 ![] bcast_S_S1024x243x5x1 (constant S_ .f32 0x3F800000#32)

section
variable (tok : FVec F S1024x27x5x512 .f32)
  (W0 : FVec F S81x512 .f32) (b0 : FVec F S81 .f32) (W1 : FVec F S81x512 .f32) (b1 : FVec F S81 .f32)
  (W2 : FVec F S135x512 .f32) (b2 : FVec F S135 .f32) (W3 : FVec F S81x512 .f32) (b3 : FVec F S81 .f32)
  (W4 : FVec F S81x512 .f32) (b4 : FVec F S81 .f32)

/-- The accumulated predictions after 0 … 5 groups. -/
def acc0 : FVec F S1024x243x17x3 .f32 := broadcastInDim S1024x243x17x3 ![] bcast_S_S1024x243x17x3 (constant S_ .f32 0x00000000#32)
def acc1 : FVec F S1024x243x17x3 .f32 :=
  Host.scatterAdd scatter_S1024x243x17x3_S3x1_S1024x243x3x3_013_2_2_1 (acc0 (F := F)) (joints3 tab0)
    (pred3 ![0, 0, 0, 0] slices_S1024x27x5x512_S1024x27x1x512_0_0_0_0 tok W0 b0)
def acc2 : FVec F S1024x243x17x3 .f32 :=
  Host.scatterAdd scatter_S1024x243x17x3_S3x1_S1024x243x3x3_013_2_2_1 (acc1 tok W0 b0) (joints3 tab1)
    (pred3 ![0, 0, 1, 0] slices_S1024x27x5x512_S1024x27x1x512_0_0_1_0 tok W1 b1)
def acc3 : FVec F S1024x243x17x3 .f32 :=
  Host.scatterAdd scatter_S1024x243x17x3_S5x1_S1024x243x5x3_013_2_2_1 (acc2 tok W0 b0 W1 b1) (joints5 tab2)
    (pred5 ![0, 0, 2, 0] slices_S1024x27x5x512_S1024x27x1x512_0_0_2_0 tok W2 b2)
def acc4 : FVec F S1024x243x17x3 .f32 :=
  Host.scatterAdd scatter_S1024x243x17x3_S3x1_S1024x243x3x3_013_2_2_1 (acc3 tok W0 b0 W1 b1 W2 b2) (joints3 tab3)
    (pred3 ![0, 0, 3, 0] slices_S1024x27x5x512_S1024x27x1x512_0_0_3_0 tok W3 b3)
def acc5 : FVec F S1024x243x17x3 .f32 :=
  Host.scatterAdd scatter_S1024x243x17x3_S3x1_S1024x243x3x3_013_2_2_1 (acc4 tok W0 b0 W1 b1 W2 b2 W3 b3) (joints3 tab4)
    (pred3 ![0, 0, 4, 0] slices_S1024x27x5x512_S1024x27x1x512_0_0_4_0 tok W4 b4)

end

/-- The count of contributions after 0 … 5 groups. -/
def cnt0 : FVec F S1024x243x17x1 .f32 := broadcastInDim S1024x243x17x1 ![] bcast_S_S1024x243x17x1 (constant S_ .f32 0x00000000#32)
def cnt1 : FVec F S1024x243x17x1 .f32 :=
  Host.scatterAdd scatter_S1024x243x17x1_S3x1_S1024x243x3x1_013_2_2_1 (cnt0 (F := F)) (joints3 tab0) (ones3 (F := F))
def cnt2 : FVec F S1024x243x17x1 .f32 :=
  Host.scatterAdd scatter_S1024x243x17x1_S3x1_S1024x243x3x1_013_2_2_1 (cnt1 (F := F)) (joints3 tab1) (ones3 (F := F))
def cnt3 : FVec F S1024x243x17x1 .f32 :=
  Host.scatterAdd scatter_S1024x243x17x1_S5x1_S1024x243x5x1_013_2_2_1 (cnt2 (F := F)) (joints5 tab2) (ones5 (F := F))
def cnt4 : FVec F S1024x243x17x1 .f32 :=
  Host.scatterAdd scatter_S1024x243x17x1_S3x1_S1024x243x3x1_013_2_2_1 (cnt3 (F := F)) (joints3 tab3) (ones3 (F := F))
def cnt5 : FVec F S1024x243x17x1 .f32 :=
  Host.scatterAdd scatter_S1024x243x17x1_S3x1_S1024x243x3x1_013_2_2_1 (cnt4 (F := F)) (joints3 tab4) (ones3 (F := F))

/-- The count clipped below at one, per channel. -/
def clipped : FVec F S1024x243x17x3 .f32 :=
  broadcastInDim S1024x243x17x3 ![0, 1, 2, 3] bcast_S1024x243x17x1_S1024x243x17x3_0_1_2_3
    (maximumf (broadcastInDim S1024x243x17x1 ![] bcast_S_S1024x243x17x1 (id (constant S_ .f32 0x3F800000#32))) (cnt5 (F := F)))

/-- THE REFERENCE'S RESULT: the accumulated predictions over the clipped count. -/
def refOut (tok : FVec F S1024x27x5x512 .f32)
    (W0 : FVec F S81x512 .f32) (b0 : FVec F S81 .f32) (W1 : FVec F S81x512 .f32) (b1 : FVec F S81 .f32)
    (W2 : FVec F S135x512 .f32) (b2 : FVec F S135 .f32) (W3 : FVec F S81x512 .f32) (b3 : FVec F S81 .f32)
    (W4 : FVec F S81x512 .f32) (b4 : FVec F S81 .f32) : FVec F S1024x243x17x3 .f32 :=
  Host.divf (acc5 tok W0 b0 W1 b1 W2 b2 W3 b3 W4 b4) (clipped (F := F))

end Cert.ReferenceIdeal.RefTerm

end
-- ==== Proof.RefOps.lean ====
/-
  The reference program's straight-line text as a LIST: the 150 operations of @main in program order, the
  module-local call replaced by its callee's operations over that call's own buffers. Each entry is the
  operation as the program prints it; beside the list, that every operation touches TensorCore buffers only.
-/
import proofs.«129922_j69887707841118_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- @main's 150 operations, in order. -/
abbrev ops : List (HloOp τ sig (Elt F)) :=
  [ StableHlo.nullary main_c (fun i => lit0 (S3.rowMajor i)),
    StableHlo.nullary main_c_0 (fun i => lit1 (S3.rowMajor i)),
    StableHlo.nullary main_c_1 (fun i => lit2 (S5.rowMajor i)),
    StableHlo.nullary main_c_2 (fun i => lit3 (S3.rowMajor i)),
    StableHlo.nullary main_c_3 (fun i => lit4 (S3.rowMajor i)),
    StableHlo.nullary main_cst (constant S_ .f32 0x00000000#32),
    StableHlo.unary main_cst main_v0 (broadcastInDim S1024x243x17x3 ![] bcast_S_S1024x243x17x3 : (⟨S_, .f32⟩ : BufTy).Contents (Elt F) → (⟨S1024x243x17x3, .f32⟩ : BufTy).Contents (Elt F)),
    StableHlo.nullary main_cst_4 (constant S_ .f32 0x00000000#32),
    StableHlo.unary main_cst_4 main_v1 (broadcastInDim S1024x243x17x1 ![] bcast_S_S1024x243x17x1 : (⟨S_, .f32⟩ : BufTy).Contents (Elt F) → (⟨S1024x243x17x1, .f32⟩ : BufTy).Contents (Elt F)),
    StableHlo.unary main_arg0 main_v2 ((extractStridedSlice S1024x27x1x512 ![0, 0, 0, 0] · slices_S1024x27x5x512_S1024x27x1x512_0_0_0_0) : (⟨S1024x27x5x512, .f32⟩ : BufTy).Contents (Elt F) → (⟨S1024x27x1x512, .f32⟩ : BufTy).Contents (Elt F)),
    StableHlo.reshape main_v2 main_v3 rfl shapeCasts_S1024x27x1x512_S1024x27x512,
    StableHlo.binary main_v3 main_arg1 main_v4 ((fun l r => Host.dotGeneral dot_S1024x27x512_S81x512_S1024x27x81_2_1_01_0_n_n none l r) : (⟨S1024x27x512, .f32⟩ : BufTy).Contents (Elt F) → (⟨S81x512, .f32⟩ : BufTy).Contents (Elt F) → (⟨S1024x27x81, .f32⟩ : BufTy).Contents (Elt F)),
    StableHlo.unary main_arg2 main_v5 (broadcastInDim S1x1x81 ![2] bcast_S81_S1x1x81_2 : (⟨S81, .f32⟩ : BufTy).Contents (Elt F) → (⟨S1x1x81, .f32⟩ : BufTy).Contents (Elt F)),
    StableHlo.unary main_v5 main_v6 (broadcastInDim S1024x27x81 ![0, 1, 2] bcast_S1x1x81_S1024x27x81_0_1_2 : (⟨S1x1x81, .f32⟩ : BufTy).Contents (Elt F) → (⟨S1024x27x81, .f32⟩ : BufTy).Contents (Elt F)),
    StableHlo.binary main_v4 main_v6 main_v7 (addf : (⟨S1024x27x81, .f32⟩ : BufTy).Contents (Elt F) → (⟨S1024x27x81, .f32⟩ : BufTy).Contents (Elt F) → (⟨S1024x27x81, .f32⟩ : BufTy).Contents (Elt F)),
    StableHlo.reshape main_v7 main_v8 rfl shapeCasts_S1024x27x81_S1024x243x3x3,
    StableHlo.nullary main_c_5 (constantI S_ 32 0#32),
    StableHlo.unary main_c_5 main_v9 (broadcastInDim S3 ![] bcast_S_S3 : (⟨S_, .i32⟩ : BufTy).Contents (Elt F) → (⟨S3, .i32⟩ : BufTy).Contents (Elt F)),
    StableHlo.binary main_c main_v9 main_v10 (cmpi .slt : (⟨S3, .i32⟩ : BufTy).Contents (Elt F) → (⟨S3, .i32⟩ : BufTy).Contents (Elt F) → (⟨S3, .i1⟩ : BufTy).Contents (Elt F)),
    StableHlo.nullary main_c_6 (constantI S_ 32 17#32),
    StableHlo.unary main_c_6 main_v11 (broadcastInDim S3 ![] bcast_S_S3 : (⟨S_, .i32⟩ : BufTy).Contents (Elt F) → (⟨S3, .i32⟩ : BufTy).Contents (Elt F)),
    StableHlo.binary main_c main_v11 main_v12 (addi : (⟨S3, .i32⟩ : BufTy).Contents (Elt F) → (⟨S3, .i32⟩ : BufTy).Contents (Elt F) → (⟨S3, .i32⟩ : BufTy).Contents (Elt F)),
    StableHlo.ternary main_v10 main_v12 main_c main_v13 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v13 main_v14 (broadcastInDim S3x1 ![0] bcast_S3_S3x1_0 : (⟨S3, .i32⟩ : BufTy).Contents (Elt F) → (⟨S3x1, .i32⟩ : BufTy).Contents (Elt F)),
    StableHlo.ternary main_v0 main_v14 main_v8 main_v15 ((fun x i u => Host.scatterAdd scatter_S1024x243x17x3_S3x1_S1024x243x3x3_013_2_2_1 x i u) : (⟨S1024x243x17x3, .f32⟩ : BufTy).Contents (Elt F) → (⟨S3x1, .i32⟩ : BufTy).Contents (Elt F) → (⟨S1024x243x3x3, .f32⟩ : BufTy).Contents (Elt F) → (⟨S1024x243x17x3, .f32⟩ : BufTy).Contents (Elt F)),
    StableHlo.nullary main_c_7 (constantI S_ 32 0#32),
    StableHlo.unary main_c_7 main_v16 (broadcastInDim S3 ![] bcast_S_S3 : (⟨S_, .i32⟩ : BufTy).Contents (Elt F) → (⟨S3, .i32⟩ : BufTy).Contents (Elt F)),
    StableHlo.binary main_c main_v16 main_v17 (cmpi .slt : (⟨S3, .i32⟩ : BufTy).Contents (Elt F) → (⟨S3, .i32⟩ : BufTy).Contents (Elt F) → (⟨S3, .i1⟩ : BufTy).Contents (Elt F)),
    StableHlo.nullary main_c_8 (constantI S_ 32 17#32),
    StableHlo.unary main_c_8 main_v18 (broadcastInDim S3 ![] bcast_S_S3 : (⟨S_, .i32⟩ : BufTy).Contents (Elt F) → (⟨S3, .i32⟩ : BufTy).Contents (Elt F)),
    StableHlo.binary main_c main_v18 main_v19 (addi : (⟨S3, .i32⟩ : BufTy).Contents (Elt F) → (⟨S3, .i32⟩ : BufTy).Contents (Elt F) → (⟨S3, .i32⟩ : BufTy).Contents (Elt F)),
    StableHlo.ternary main_v17 main_v19 main_c main_v20 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v20 main_v21 (broadcastInDim S3x1 ![0] bcast_S3_S3x1_0 : (⟨S3, .i32⟩ : BufTy).Contents (Elt F) → (⟨S3x1, .i32⟩ : BufTy).Contents (Elt F)),
    StableHlo.nullary main_cst_9 (constant S_ .f32 0x3F800000#32),
    StableHlo.unary main_cst_9 main_v22 (broadcastInDim S1024x243x3x1 ![] bcast_S_S1024x243x3x1 : (⟨S_, .f32⟩ : BufTy).Contents (Elt F) → (⟨S1024x243x3x1, .f32⟩ : BufTy).Contents (Elt F)),
    StableHlo.ternary main_v1 main_v21 main_v22 main_v23 ((fun x i u => Host.scatterAdd scatter_S1024x243x17x1_S3x1_S1024x243x3x1_013_2_2_1 x i u) : (⟨S1024x243x17x1, .f32⟩ : BufTy).Contents (Elt F) → (⟨S3x1, .i32⟩ : BufTy).Contents (Elt F) → (⟨S1024x243x3x1, .f32⟩ : BufTy).Contents (Elt F) → (⟨S1024x243x17x1, .f32⟩ : BufTy).Contents (Elt F)),
    StableHlo.unary main_arg0 main_v24 ((extractStridedSlice S1024x27x1x512 ![0, 0, 1, 0] · slices_S1024x27x5x512_S1024x27x1x512_0_0_1_0) : (⟨S1024x27x5x512, .f32⟩ : BufTy).Contents (Elt F) → (⟨S1024x27x1x512, .f32⟩ : BufTy).Contents (Elt F)),
    StableHlo.reshape main_v24 main_v25 rfl shapeCasts_S1024x27x1x512_S1024x27x512,
    StableHlo.binary main_v25 main_arg3 main_v26 ((fun l r => Host.dotGeneral dot_S1024x27x512_S81x512_S1024x27x81_2_1_01_0_n_n none l r) : (⟨S1024x27x512, .f32⟩ : BufTy).Contents (Elt F) → (⟨S81x512, .f32⟩ : BufTy).Contents (Elt F) → (⟨S1024x27x81, .f32⟩ : BufTy).Contents (Elt F)),
    StableHlo.unary main_arg4 main_v27 (broadcastInDim S1x1x81 ![2] bcast_S81_S1x1x81_2 : (⟨S81, .f32⟩ : BufTy).Contents (Elt F) → (⟨S1x1x81, .f32⟩ : BufTy).Contents (Elt F)),
    StableHlo.unary main_v27 main_v28 (broadcastInDim S1024x27x81 ![0, 1, 2] bcast_S1x1x81_S1024x27x81_0_1_2 : (⟨S1x1x81, .f32⟩ : BufTy).Contents (Elt F) → (⟨S1024x27x81, .f32⟩ : BufTy).Contents (Elt F)),
    StableHlo.binary main_v26 main_v28 main_v29 (addf : (⟨S1024x27x81, .f32⟩ : BufTy).Contents (Elt F) → (⟨S1024x27x81, .f32⟩ : BufTy).Contents (Elt F) → (⟨S1024x27x81, .f32⟩ : BufTy).Contents (Elt F)),
    StableHlo.reshape main_v29 main_v30 rfl shapeCasts_S1024x27x81_S1024x243x3x3,
    StableHlo.nullary main_c_10 (constantI S_ 32 0#32),
    StableHlo.unary main_c_10 main_v31 (broadcastInDim S3 ![] bcast_S_S3 : (⟨S_, .i32⟩ : BufTy).Contents (Elt F) → (⟨S3, .i32⟩ : BufTy).Contents (Elt F)),
    StableHlo.binary main_c_0 main_v31 main_v32 (cmpi .slt : (⟨S3, .i32⟩ : BufTy).Contents (Elt F) → (⟨S3, .i32⟩ : BufTy).Contents (Elt F) → (⟨S3, .i1⟩ : BufTy).Contents (Elt F)),
    StableHlo.nullary main_c_11 (constantI S_ 32 17#32),
    StableHlo.unary main_c_11 main_v33 (broadcastInDim S3 ![] bcast_S_S3 : (⟨S_, .i32⟩ : BufTy).Contents (Elt F) → (⟨S3, .i32⟩ : BufTy).Contents (Elt F)),
    StableHlo.binary main_c_0 main_v33 main_v34 (addi : (⟨S3, .i32⟩ : BufTy).Contents (Elt F) → (⟨S3, .i32⟩ : BufTy).Contents (Elt F) → (⟨S3, .i32⟩ : BufTy).Contents (Elt F)),
    StableHlo.ternary main_v32 main_v34 main_c_0 main_v35 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v35 main_v36 (broadcastInDim S3x1 ![0] bcast_S3_S3x1_0 : (⟨S3, .i32⟩ : BufTy).Contents (Elt F) → (⟨S3x1, .i32⟩ : BufTy).Contents (Elt F)),
    StableHlo.ternary main_v15 main_v36 main_v30 main_v37 ((fun x i u => Host.scatterAdd scatter_S1024x243x17x3_S3x1_S1024x243x3x3_013_2_2_1 x i u) : (⟨S1024x243x17x3, .f32⟩ : BufTy).Contents (Elt F) → (⟨S3x1, .i32⟩ : BufTy).Contents (Elt F) → (⟨S1024x243x3x3, .f32⟩ : BufTy).Contents (Elt F) → (⟨S1024x243x17x3, .f32⟩ : BufTy).Contents (Elt F)),
    StableHlo.nullary main_c_12 (constantI S_ 32 0#32),
    StableHlo.unary main_c_12 main_v38 (broadcastInDim S3 ![] bcast_S_S3 : (⟨S_, .i32⟩ : BufTy).Contents (Elt F) → (⟨S3, .i32⟩ : BufTy).Contents (Elt F)),
    StableHlo.binary main_c_0 main_v38 main_v39 (cmpi .slt : (⟨S3, .i32⟩ : BufTy).Contents (Elt F) → (⟨S3, .i32⟩ : BufTy).Contents (Elt F) → (⟨S3, .i1⟩ : BufTy).Contents (Elt F)),
    StableHlo.nullary main_c_13 (constantI S_ 32 17#32),
    StableHlo.unary main_c_13 main_v40 (broadcastInDim S3 ![] bcast_S_S3 : (⟨S_, .i32⟩ : BufTy).Contents (Elt F) → (⟨S3, .i32⟩ : BufTy).Contents (Elt F)),
    StableHlo.binary main_c_0 main_v40 main_v41 (addi : (⟨S3, .i32⟩ : BufTy).Contents (Elt F) → (⟨S3, .i32⟩ : BufTy).Contents (Elt F) → (⟨S3, .i32⟩ : BufTy).Contents (Elt F)),
    StableHlo.ternary main_v39 main_v41 main_c_0 main_v42 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v42 main_v43 (broadcastInDim S3x1 ![0] bcast_S3_S3x1_0 : (⟨S3, .i32⟩ : BufTy).Contents (Elt F) → (⟨S3x1, .i32⟩ : BufTy).Contents (Elt F)),
    StableHlo.nullary main_cst_14 (constant S_ .f32 0x3F800000#32),
    StableHlo.unary main_cst_14 main_v44 (broadcastInDim S1024x243x3x1 ![] bcast_S_S1024x243x3x1 : (⟨S_, .f32⟩ : BufTy).Contents (Elt F) → (⟨S1024x243x3x1, .f32⟩ : BufTy).Contents (Elt F)),
    StableHlo.ternary main_v23 main_v43 main_v44 main_v45 ((fun x i u => Host.scatterAdd scatter_S1024x243x17x1_S3x1_S1024x243x3x1_013_2_2_1 x i u) : (⟨S1024x243x17x1, .f32⟩ : BufTy).Contents (Elt F) → (⟨S3x1, .i32⟩ : BufTy).Contents (Elt F) → (⟨S1024x243x3x1, .f32⟩ : BufTy).Contents (Elt F) → (⟨S1024x243x17x1, .f32⟩ : BufTy).Contents (Elt F)),
    StableHlo.unary main_arg0 main_v46 ((extractStridedSlice S1024x27x1x512 ![0, 0, 2, 0] · slices_S1024x27x5x512_S1024x27x1x512_0_0_2_0) : (⟨S1024x27x5x512, .f32⟩ : BufTy).Contents (Elt F) → (⟨S1024x27x1x512, .f32⟩ : BufTy).Contents (Elt F)),
    StableHlo.reshape main_v46 main_v47 rfl shapeCasts_S1024x27x1x512_S1024x27x512,
    StableHlo.binary main_v47 main_arg5 main_v48 ((fun l r => Host.dotGeneral dot_S1024x27x512_S135x512_S1024x27x135_2_1_01_0_n_n none l r) : (⟨S1024x27x512, .f32⟩ : BufTy).Contents (Elt F) → (⟨S135x512, .f32⟩ : BufTy).Contents (Elt F) → (⟨S1024x27x135, .f32⟩ : BufTy).Contents (Elt F)),
    StableHlo.unary main_arg6 main_v49 (broadcastInDim S1x1x135 ![2] bcast_S135_S1x1x135_2 : (⟨S135, .f32⟩ : BufTy).Contents (Elt F) → (⟨S1x1x135, .f32⟩ : BufTy).Contents (Elt F)),
    StableHlo.unary main_v49 main_v50 (broadcastInDim S1024x27x135 ![0, 1, 2] bcast_S1x1x135_S1024x27x135_0_1_2 : (⟨S1x1x135, .f32⟩ : BufTy).Contents (Elt F) → (⟨S1024x27x135, .f32⟩ : BufTy).Contents (Elt F)),
    StableHlo.binary main_v48 main_v50 main_v51 (addf : (⟨S1024x27x135, .f32⟩ : BufTy).Contents (Elt F) → (⟨S1024x27x135, .f32⟩ : BufTy).Contents (Elt F) → (⟨S1024x27x135, .f32⟩ : BufTy).Contents (Elt F)),
    StableHlo.reshape main_v51 main_v52 rfl shapeCasts_S1024x27x135_S1024x243x5x3,
    StableHlo.nullary main_c_15 (constantI S_ 32 0#32),
    StableHlo.unary main_c_15 main_v53 (broadcastInDim S5 ![] bcast_S_S5 : (⟨S_, .i32⟩ : BufTy).Contents (Elt F) → (⟨S5, .i32⟩ : BufTy).Contents (Elt F)),
    StableHlo.binary main_c_1 main_v53 main_v54 (cmpi .slt : (⟨S5, .i32⟩ : BufTy).Contents (Elt F) → (⟨S5, .i32⟩ : BufTy).Contents (Elt F) → (⟨S5, .i1⟩ : BufTy).Contents (Elt F)),
    StableHlo.nullary main_c_16 (constantI S_ 32 17#32),
    StableHlo.unary main_c_16 main_v55 (broadcastInDim S5 ![] bcast_S_S5 : (⟨S_, .i32⟩ : BufTy).Contents (Elt F) → (⟨S5, .i32⟩ : BufTy).Contents (Elt F)),
    StableHlo.binary main_c_1 main_v55 main_v56 (addi : (⟨S5, .i32⟩ : BufTy).Contents (Elt F) → (⟨S5, .i32⟩ : BufTy).Contents (Elt F) → (⟨S5, .i32⟩ : BufTy).Contents (Elt F)),
    StableHlo.ternary main_v54 main_v56 main_c_1 main_v57 (select : (⟨S5, .i1⟩ : BufTy).Contents (Elt F) → (⟨S5, .i32⟩ : BufTy).Contents (Elt F) → (⟨S5, .i32⟩ : BufTy).Contents (Elt F) → (⟨S5, .i32⟩ : BufTy).Contents (Elt F)),
    StableHlo.unary main_v57 main_v58 (broadcastInDim S5x1 ![0] bcast_S5_S5x1_0 : (⟨S5, .i32⟩ : BufTy).Contents (Elt F) → (⟨S5x1, .i32⟩ : BufTy).Contents (Elt F)),
    StableHlo.ternary main_v37 main_v58 main_v52 main_v59 ((fun x i u => Host.scatterAdd scatter_S1024x243x17x3_S5x1_S1024x243x5x3_013_2_2_1 x i u) : (⟨S1024x243x17x3, .f32⟩ : BufTy).Contents (Elt F) → (⟨S5x1, .i32⟩ : BufTy).Contents (Elt F) → (⟨S1024x243x5x3, .f32⟩ : BufTy).Contents (Elt F) → (⟨S1024x243x17x3, .f32⟩ : BufTy).Contents (Elt F)),
    StableHlo.nullary main_c_17 (constantI S_ 32 0#32),
    StableHlo.unary main_c_17 main_v60 (broadcastInDim S5 ![] bcast_S_S5 : (⟨S_, .i32⟩ : BufTy).Contents (Elt F) → (⟨S5, .i32⟩ : BufTy).Contents (Elt F)),
    StableHlo.binary main_c_1 main_v60 main_v61 (cmpi .slt : (⟨S5, .i32⟩ : BufTy).Contents (Elt F) → (⟨S5, .i32⟩ : BufTy).Contents (Elt F) → (⟨S5, .i1⟩ : BufTy).Contents (Elt F)),
    StableHlo.nullary main_c_18 (constantI S_ 32 17#32),
    StableHlo.unary main_c_18 main_v62 (broadcastInDim S5 ![] bcast_S_S5 : (⟨S_, .i32⟩ : BufTy).Contents (Elt F) → (⟨S5, .i32⟩ : BufTy).Contents (Elt F)),
    StableHlo.binary main_c_1 main_v62 main_v63 (addi : (⟨S5, .i32⟩ : BufTy).Contents (Elt F) → (⟨S5, .i32⟩ : BufTy).Contents (Elt F) → (⟨S5, .i32⟩ : BufTy).Contents (Elt F)),
    StableHlo.ternary main_v61 main_v63 main_c_1 main_v64 (select : (⟨S5, .i1⟩ : BufTy).Contents (Elt F) → (⟨S5, .i32⟩ : BufTy).Contents (Elt F) → (⟨S5, .i32⟩ : BufTy).Contents (Elt F) → (⟨S5, .i32⟩ : BufTy).Contents (Elt F)),
    StableHlo.unary main_v64 main_v65 (broadcastInDim S5x1 ![0] bcast_S5_S5x1_0 : (⟨S5, .i32⟩ : BufTy).Contents (Elt F) → (⟨S5x1, .i32⟩ : BufTy).Contents (Elt F)),
    StableHlo.nullary main_cst_19 (constant S_ .f32 0x3F800000#32),
    StableHlo.unary main_cst_19 main_v66 (broadcastInDim S1024x243x5x1 ![] bcast_S_S1024x243x5x1 : (⟨S_, .f32⟩ : BufTy).Contents (Elt F) → (⟨S1024x243x5x1, .f32⟩ : BufTy).Contents (Elt F)),
    StableHlo.ternary main_v45 main_v65 main_v66 main_v67 ((fun x i u => Host.scatterAdd scatter_S1024x243x17x1_S5x1_S1024x243x5x1_013_2_2_1 x i u) : (⟨S1024x243x17x1, .f32⟩ : BufTy).Contents (Elt F) → (⟨S5x1, .i32⟩ : BufTy).Contents (Elt F) → (⟨S1024x243x5x1, .f32⟩ : BufTy).Contents (Elt F) → (⟨S1024x243x17x1, .f32⟩ : BufTy).Contents (Elt F)),
    StableHlo.unary main_arg0 main_v68 ((extractStridedSlice S1024x27x1x512 ![0, 0, 3, 0] · slices_S1024x27x5x512_S1024x27x1x512_0_0_3_0) : (⟨S1024x27x5x512, .f32⟩ : BufTy).Contents (Elt F) → (⟨S1024x27x1x512, .f32⟩ : BufTy).Contents (Elt F)),
    StableHlo.reshape main_v68 main_v69 rfl shapeCasts_S1024x27x1x512_S1024x27x512,
    StableHlo.binary main_v69 main_arg7 main_v70 ((fun l r => Host.dotGeneral dot_S1024x27x512_S81x512_S1024x27x81_2_1_01_0_n_n none l r) : (⟨S1024x27x512, .f32⟩ : BufTy).Contents (Elt F) → (⟨S81x512, .f32⟩ : BufTy).Contents (Elt F) → (⟨S1024x27x81, .f32⟩ : BufTy).Contents (Elt F)),
    StableHlo.unary main_arg8 main_v71 (broadcastInDim S1x1x81 ![2] bcast_S81_S1x1x81_2 : (⟨S81, .f32⟩ : BufTy).Contents (Elt F) → (⟨S1x1x81, .f32⟩ : BufTy).Contents (Elt F)),
    StableHlo.unary main_v71 main_v72 (broadcastInDim S1024x27x81 ![0, 1, 2] bcast_S1x1x81_S1024x27x81_0_1_2 : (⟨S1x1x81, .f32⟩ : BufTy).Contents (Elt F) → (⟨S1024x27x81, .f32⟩ : BufTy).Contents (Elt F)),
    StableHlo.binary main_v70 main_v72 main_v73 (addf : (⟨S1024x27x81, .f32⟩ : BufTy).Contents (Elt F) → (⟨S1024x27x81, .f32⟩ : BufTy).Contents (Elt F) → (⟨S1024x27x81, .f32⟩ : BufTy).Contents (Elt F)),
    StableHlo.reshape main_v73 main_v74 rfl shapeCasts_S1024x27x81_S1024x243x3x3,
    StableHlo.nullary main_c_20 (constantI S_ 32 0#32),
    StableHlo.unary main_c_20 main_v75 (broadcastInDim S3 ![] bcast_S_S3 : (⟨S_, .i32⟩ : BufTy).Contents (Elt F) → (⟨S3, .i32⟩ : BufTy).Contents (Elt F)),
    StableHlo.binary main_c_2 main_v75 main_v76 (cmpi .slt : (⟨S3, .i32⟩ : BufTy).Contents (Elt F) → (⟨S3, .i32⟩ : BufTy).Contents (Elt F) → (⟨S3, .i1⟩ : BufTy).Contents (Elt F)),
    StableHlo.nullary main_c_21 (constantI S_ 32 17#32),
    StableHlo.unary main_c_21 main_v77 (broadcastInDim S3 ![] bcast_S_S3 : (⟨S_, .i32⟩ : BufTy).Contents (Elt F) → (⟨S3, .i32⟩ : BufTy).Contents (Elt F)),
    StableHlo.binary main_c_2 main_v77 main_v78 (addi : (⟨S3, .i32⟩ : BufTy).Contents (Elt F) → (⟨S3, .i32⟩ : BufTy).Contents (Elt F) → (⟨S3, .i32⟩ : BufTy).Contents (Elt F)),
    StableHlo.ternary main_v76 main_v78 main_c_2 main_v79 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v79 main_v80 (broadcastInDim S3x1 ![0] bcast_S3_S3x1_0 : (⟨S3, .i32⟩ : BufTy).Contents (Elt F) → (⟨S3x1, .i32⟩ : BufTy).Contents (Elt F)),
    StableHlo.ternary main_v59 main_v80 main_v74 main_v81 ((fun x i u => Host.scatterAdd scatter_S1024x243x17x3_S3x1_S1024x243x3x3_013_2_2_1 x i u) : (⟨S1024x243x17x3, .f32⟩ : BufTy).Contents (Elt F) → (⟨S3x1, .i32⟩ : BufTy).Contents (Elt F) → (⟨S1024x243x3x3, .f32⟩ : BufTy).Contents (Elt F) → (⟨S1024x243x17x3, .f32⟩ : BufTy).Contents (Elt F)),
    StableHlo.nullary main_c_22 (constantI S_ 32 0#32),
    StableHlo.unary main_c_22 main_v82 (broadcastInDim S3 ![] bcast_S_S3 : (⟨S_, .i32⟩ : BufTy).Contents (Elt F) → (⟨S3, .i32⟩ : BufTy).Contents (Elt F)),
    StableHlo.binary main_c_2 main_v82 main_v83 (cmpi .slt : (⟨S3, .i32⟩ : BufTy).Contents (Elt F) → (⟨S3, .i32⟩ : BufTy).Contents (Elt F) → (⟨S3, .i1⟩ : BufTy).Contents (Elt F)),
    StableHlo.nullary main_c_23 (constantI S_ 32 17#32),
    StableHlo.unary main_c_23 main_v84 (broadcastInDim S3 ![] bcast_S_S3 : (⟨S_, .i32⟩ : BufTy).Contents (Elt F) → (⟨S3, .i32⟩ : BufTy).Contents (Elt F)),
    StableHlo.binary main_c_2 main_v84 main_v85 (addi : (⟨S3, .i32⟩ : BufTy).Contents (Elt F) → (⟨S3, .i32⟩ : BufTy).Contents (Elt F) → (⟨S3, .i32⟩ : BufTy).Contents (Elt F)),
    StableHlo.ternary main_v83 main_v85 main_c_2 main_v86 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v86 main_v87 (broadcastInDim S3x1 ![0] bcast_S3_S3x1_0 : (⟨S3, .i32⟩ : BufTy).Contents (Elt F) → (⟨S3x1, .i32⟩ : BufTy).Contents (Elt F)),
    StableHlo.nullary main_cst_24 (constant S_ .f32 0x3F800000#32),
    StableHlo.unary main_cst_24 main_v88 (broadcastInDim S1024x243x3x1 ![] bcast_S_S1024x243x3x1 : (⟨S_, .f32⟩ : BufTy).Contents (Elt F) → (⟨S1024x243x3x1, .f32⟩ : BufTy).Contents (Elt F)),
    StableHlo.ternary main_v67 main_v87 main_v88 main_v89 ((fun x i u => Host.scatterAdd scatter_S1024x243x17x1_S3x1_S1024x243x3x1_013_2_2_1 x i u) : (⟨S1024x243x17x1, .f32⟩ : BufTy).Contents (Elt F) → (⟨S3x1, .i32⟩ : BufTy).Contents (Elt F) → (⟨S1024x243x3x1, .f32⟩ : BufTy).Contents (Elt F) → (⟨S1024x243x17x1, .f32⟩ : BufTy).Contents (Elt F)),
    StableHlo.unary main_arg0 main_v90 ((extractStridedSlice S1024x27x1x512 ![0, 0, 4, 0] · slices_S1024x27x5x512_S1024x27x1x512_0_0_4_0) : (⟨S1024x27x5x512, .f32⟩ : BufTy).Contents (Elt F) → (⟨S1024x27x1x512, .f32⟩ : BufTy).Contents (Elt F)),
    StableHlo.reshape main_v90 main_v91 rfl shapeCasts_S1024x27x1x512_S1024x27x512,
    StableHlo.binary main_v91 main_arg9 main_v92 ((fun l r => Host.dotGeneral dot_S1024x27x512_S81x512_S1024x27x81_2_1_01_0_n_n none l r) : (⟨S1024x27x512, .f32⟩ : BufTy).Contents (Elt F) → (⟨S81x512, .f32⟩ : BufTy).Contents (Elt F) → (⟨S1024x27x81, .f32⟩ : BufTy).Contents (Elt F)),
    StableHlo.unary main_arg10 main_v93 (broadcastInDim S1x1x81 ![2] bcast_S81_S1x1x81_2 : (⟨S81, .f32⟩ : BufTy).Contents (Elt F) → (⟨S1x1x81, .f32⟩ : BufTy).Contents (Elt F)),
    StableHlo.unary main_v93 main_v94 (broadcastInDim S1024x27x81 ![0, 1, 2] bcast_S1x1x81_S1024x27x81_0_1_2 : (⟨S1x1x81, .f32⟩ : BufTy).Contents (Elt F) → (⟨S1024x27x81, .f32⟩ : BufTy).Contents (Elt F)),
    StableHlo.binary main_v92 main_v94 main_v95 (addf : (⟨S1024x27x81, .f32⟩ : BufTy).Contents (Elt F) → (⟨S1024x27x81, .f32⟩ : BufTy).Contents (Elt F) → (⟨S1024x27x81, .f32⟩ : BufTy).Contents (Elt F)),
    StableHlo.reshape main_v95 main_v96 rfl shapeCasts_S1024x27x81_S1024x243x3x3,
    StableHlo.nullary main_c_25 (constantI S_ 32 0#32),
    StableHlo.unary main_c_25 main_v97 (broadcastInDim S3 ![] bcast_S_S3 : (⟨S_, .i32⟩ : BufTy).Contents (Elt F) → (⟨S3, .i32⟩ : BufTy).Contents (Elt F)),
    StableHlo.binary main_c_3 main_v97 main_v98 (cmpi .slt : (⟨S3, .i32⟩ : BufTy).Contents (Elt F) → (⟨S3, .i32⟩ : BufTy).Contents (Elt F) → (⟨S3, .i1⟩ : BufTy).Contents (Elt F)),
    StableHlo.nullary main_c_26 (constantI S_ 32 17#32),
    StableHlo.unary main_c_26 main_v99 (broadcastInDim S3 ![] bcast_S_S3 : (⟨S_, .i32⟩ : BufTy).Contents (Elt F) → (⟨S3, .i32⟩ : BufTy).Contents (Elt F)),
    StableHlo.binary main_c_3 main_v99 main_v100 (addi : (⟨S3, .i32⟩ : BufTy).Contents (Elt F) → (⟨S3, .i32⟩ : BufTy).Contents (Elt F) → (⟨S3, .i32⟩ : BufTy).Contents (Elt F)),
    StableHlo.ternary main_v98 main_v100 main_c_3 main_v101 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v101 main_v102 (broadcastInDim S3x1 ![0] bcast_S3_S3x1_0 : (⟨S3, .i32⟩ : BufTy).Contents (Elt F) → (⟨S3x1, .i32⟩ : BufTy).Contents (Elt F)),
    StableHlo.ternary main_v81 main_v102 main_v96 main_v103 ((fun x i u => Host.scatterAdd scatter_S1024x243x17x3_S3x1_S1024x243x3x3_013_2_2_1 x i u) : (⟨S1024x243x17x3, .f32⟩ : BufTy).Contents (Elt F) → (⟨S3x1, .i32⟩ : BufTy).Contents (Elt F) → (⟨S1024x243x3x3, .f32⟩ : BufTy).Contents (Elt F) → (⟨S1024x243x17x3, .f32⟩ : BufTy).Contents (Elt F)),
    StableHlo.nullary main_c_27 (constantI S_ 32 0#32),
    StableHlo.unary main_c_27 main_v104 (broadcastInDim S3 ![] bcast_S_S3 : (⟨S_, .i32⟩ : BufTy).Contents (Elt F) → (⟨S3, .i32⟩ : BufTy).Contents (Elt F)),
    StableHlo.binary main_c_3 main_v104 main_v105 (cmpi .slt : (⟨S3, .i32⟩ : BufTy).Contents (Elt F) → (⟨S3, .i32⟩ : BufTy).Contents (Elt F) → (⟨S3, .i1⟩ : BufTy).Contents (Elt F)),
    StableHlo.nullary main_c_28 (constantI S_ 32 17#32),
    StableHlo.unary main_c_28 main_v106 (broadcastInDim S3 ![] bcast_S_S3 : (⟨S_, .i32⟩ : BufTy).Contents (Elt F) → (⟨S3, .i32⟩ : BufTy).Contents (Elt F)),
    StableHlo.binary main_c_3 main_v106 main_v107 (addi : (⟨S3, .i32⟩ : BufTy).Contents (Elt F) → (⟨S3, .i32⟩ : BufTy).Contents (Elt F) → (⟨S3, .i32⟩ : BufTy).Contents (Elt F)),
    StableHlo.ternary main_v105 main_v107 main_c_3 main_v108 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v108 main_v109 (broadcastInDim S3x1 ![0] bcast_S3_S3x1_0 : (⟨S3, .i32⟩ : BufTy).Contents (Elt F) → (⟨S3x1, .i32⟩ : BufTy).Contents (Elt F)),
    StableHlo.nullary main_cst_29 (constant S_ .f32 0x3F800000#32),
    StableHlo.unary main_cst_29 main_v110 (broadcastInDim S1024x243x3x1 ![] bcast_S_S1024x243x3x1 : (⟨S_, .f32⟩ : BufTy).Contents (Elt F) → (⟨S1024x243x3x1, .f32⟩ : BufTy).Contents (Elt F)),
    StableHlo.ternary main_v89 main_v109 main_v110 main_v111 ((fun x i u => Host.scatterAdd scatter_S1024x243x17x1_S3x1_S1024x243x3x1_013_2_2_1 x i u) : (⟨S1024x243x17x1, .f32⟩ : BufTy).Contents (Elt F) → (⟨S3x1, .i32⟩ : BufTy).Contents (Elt F) → (⟨S1024x243x3x1, .f32⟩ : BufTy).Contents (Elt F) → (⟨S1024x243x17x1, .f32⟩ : BufTy).Contents (Elt F)),
    StableHlo.nullary main_cst_30 (constant S_ .f32 0x3F800000#32),
    StableHlo.TRef.unary (.of main_cst_30) main_call0.v0 id,
    StableHlo.TRef.unary main_call0.v0 main_call0.v1 (broadcastInDim S1024x243x17x1 ![] bcast_S_S1024x243x17x1),
    StableHlo.TRef.binary main_call0.v1 (.of main_v111) main_call0.v2 maximumf,
    StableHlo.unary main_v112 main_v113 (broadcastInDim S1024x243x17x3 ![0, 1, 2, 3] bcast_S1024x243x17x1_S1024x243x17x3_0_1_2_3 : (⟨S1024x243x17x1, .f32⟩ : BufTy).Contents (Elt F) → (⟨S1024x243x17x3, .f32⟩ : BufTy).Contents (Elt F)),
    StableHlo.binary main_v103 main_v113 main_v114 (Host.divf : (⟨S1024x243x17x3, .f32⟩ : BufTy).Contents (Elt F) → (⟨S1024x243x17x3, .f32⟩ : BufTy).Contents (Elt F) → (⟨S1024x243x17x3, .f32⟩ : BufTy).Contents (Elt F)) ]

/-- Every operation of the list touches TensorCore buffers only. -/
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub ..,
    unary_bufs_sub .., nullary_bufs_sub .., unary_bufs_sub .., unary_bufs_sub .., reshape_bufs_sub .., binary_bufs_sub ..,
    unary_bufs_sub .., unary_bufs_sub .., binary_bufs_sub .., reshape_bufs_sub .., nullary_bufs_sub .., unary_bufs_sub ..,
    binary_bufs_sub .., nullary_bufs_sub .., unary_bufs_sub .., binary_bufs_sub .., ternary_bufs_sub .., unary_bufs_sub ..,
    ternary_bufs_sub .., nullary_bufs_sub .., unary_bufs_sub .., binary_bufs_sub .., nullary_bufs_sub .., unary_bufs_sub ..,
    binary_bufs_sub .., ternary_bufs_sub .., unary_bufs_sub .., nullary_bufs_sub .., unary_bufs_sub .., ternary_bufs_sub ..,
    unary_bufs_sub .., reshape_bufs_sub .., binary_bufs_sub .., unary_bufs_sub .., unary_bufs_sub .., binary_bufs_sub ..,
    reshape_bufs_sub .., nullary_bufs_sub .., unary_bufs_sub .., binary_bufs_sub .., nullary_bufs_sub .., unary_bufs_sub ..,
    binary_bufs_sub .., ternary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    nullary_bufs_sub .., unary_bufs_sub .., ternary_bufs_sub .., unary_bufs_sub .., reshape_bufs_sub .., binary_bufs_sub ..,
    unary_bufs_sub .., unary_bufs_sub .., binary_bufs_sub .., reshape_bufs_sub .., nullary_bufs_sub .., unary_bufs_sub ..,
    binary_bufs_sub .., nullary_bufs_sub .., unary_bufs_sub .., binary_bufs_sub .., ternary_bufs_sub .., unary_bufs_sub ..,
    ternary_bufs_sub .., nullary_bufs_sub .., unary_bufs_sub .., binary_bufs_sub .., nullary_bufs_sub .., unary_bufs_sub ..,
    binary_bufs_sub .., ternary_bufs_sub .., unary_bufs_sub .., nullary_bufs_sub .., unary_bufs_sub .., ternary_bufs_sub ..,
    unary_bufs_sub .., reshape_bufs_sub .., binary_bufs_sub .., unary_bufs_sub .., unary_bufs_sub .., binary_bufs_sub ..,
    reshape_bufs_sub .., nullary_bufs_sub .., unary_bufs_sub .., binary_bufs_sub .., nullary_bufs_sub .., unary_bufs_sub ..,
    binary_bufs_sub .., ternary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    nullary_bufs_sub .., unary_bufs_sub .., ternary_bufs_sub .., unary_bufs_sub .., reshape_bufs_sub .., binary_bufs_sub ..,
    unary_bufs_sub .., unary_bufs_sub .., binary_bufs_sub .., reshape_bufs_sub .., nullary_bufs_sub .., unary_bufs_sub ..,
    binary_bufs_sub .., nullary_bufs_sub .., unary_bufs_sub .., binary_bufs_sub .., ternary_bufs_sub .., unary_bufs_sub ..,
    ternary_bufs_sub .., nullary_bufs_sub .., unary_bufs_sub .., binary_bufs_sub .., nullary_bufs_sub .., unary_bufs_sub ..,
    binary_bufs_sub .., ternary_bufs_sub .., unary_bufs_sub .., nullary_bufs_sub .., unary_bufs_sub .., ternary_bufs_sub ..,
    nullary_bufs_sub .., unary_bufs_sub .., unary_bufs_sub .., binary_bufs_sub .., unary_bufs_sub .., binary_bufs_sub ..⟩

end Cert.ReferenceIdeal.RefOps

end
-- ==== Proof.RefRun.lean ====
/-
  The reference program's run: every weakly fair execution of its straight-line text terminates, nothing faulting,
  with the result buffer at the composed function of the argument arrays (the predictions of the five joint groups
  scatter-added by joint, over the clipped count) and the arguments unchanged.
-/
import proofs.«129922_j69887707841118_1_alg».proof.Proof.RefTerm
import proofs.«129922_j69887707841118_1_alg».proof.Proof.RefOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The program is the list

@main runs its three windows in turn, the third calling the clip function once; with the windows and the callee
unfolded and sequencing reassociated, both sides are one chain of the same 150 steps. -/

-- 150 binds re-associated: the rewrite under the chain recurses once per statement
set_option maxRecDepth 8192 in
theorem main_eq (c : Dev nD) : main (F := F) c = seq RefOps.ops := by
  simp only [main, main_part0, main_part1, main_part2, fn_clip.body, seq, bind_assoc, pure_bind]

/-- The signature scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

/-! ## What the list leaves in each buffer

The fold of the operations' results over any starting contents, read at the result buffer and at each argument.
At the result buffer every operation's value is that of its operands' (each operand the latest write to its
buffer), which composes to the reference term: the five predictions scatter-added into the zero array, divided by
the clipped count; the typed references of the call carry the identity transport. No operation writes an argument. -/

set_option maxRecDepth 8192 in
set_option maxHeartbeats 4000000 in
theorem out_eq (V : Valuation τ sig (Elt F)) :
    after RefOps.ops V (main_v114 : DevRef τ sig)
      = RefTerm.refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) := by
  after_results_simp
  rfl

theorem arg0_eq (V : Valuation τ sig (Elt F)) :
    after RefOps.ops V (main_arg0 : DevRef τ sig) = V (main_arg0 : DevRef τ sig) := by
  after_results_simp

theorem arg1_eq (V : Valuation τ sig (Elt F)) :
    after RefOps.ops V (main_arg1 : DevRef τ sig) = V (main_arg1 : DevRef τ sig) := by
  after_results_simp

theorem arg2_eq (V : Valuation τ sig (Elt F)) :
    after RefOps.ops V (main_arg2 : DevRef τ sig) = V (main_arg2 : DevRef τ sig) := by
  after_results_simp

theorem arg3_eq (V : Valuation τ sig (Elt F)) :
    after RefOps.ops V (main_arg3 : DevRef τ sig) = V (main_arg3 : DevRef τ sig) := by
  after_results_simp

theorem arg4_eq (V : Valuation τ sig (Elt F)) :
    after RefOps.ops V (main_arg4 : DevRef τ sig) = V (main_arg4 : DevRef τ sig) := by
  after_results_simp

theorem arg5_eq (V : Valuation τ sig (Elt F)) :
    after RefOps.ops V (main_arg5 : DevRef τ sig) = V (main_arg5 : DevRef τ sig) := by
  after_results_simp

theorem arg6_eq (V : Valuation τ sig (Elt F)) :
    after RefOps.ops V (main_arg6 : DevRef τ sig) = V (main_arg6 : DevRef τ sig) := by
  after_results_simp

theorem arg7_eq (V : Valuation τ sig (Elt F)) :
    after RefOps.ops V (main_arg7 : DevRef τ sig) = V (main_arg7 : DevRef τ sig) := by
  after_results_simp

theorem arg8_eq (V : Valuation τ sig (Elt F)) :
    after RefOps.ops V (main_arg8 : DevRef τ sig) = V (main_arg8 : DevRef τ sig) := by
  after_results_simp

theorem arg9_eq (V : Valuation τ sig (Elt F)) :
    after RefOps.ops V (main_arg9 : DevRef τ sig) = V (main_arg9 : DevRef τ sig) := by
  after_results_simp

theorem arg10_eq (V : Valuation τ sig (Elt F)) :
    after RefOps.ops V (main_arg10 : DevRef τ sig) = V (main_arg10 : DevRef τ sig) := by
  after_results_simp

/-! ## The run -/

/-- On every device, for any float values, from any memory with zero counters: every weakly fair execution of
    the reference terminates with its result at the composed function of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v114) = RefTerm.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v114).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_seq scopedRefs_eq scopedSems_eq defs main (fun _ => RefOps.ops) main_eq (fun _ => RefOps.ops_sub) m ρ)

end Cert.ReferenceIdeal.RefRun

end
-- ==== Proof.RefPred.lean ====
/-
  One joint group's prediction in the reference, read at an index. The tokens' slice k, re-laid as a
  [1024, 27, 512] array, is contracted over its 512 features with the group's weight; the bias is added along
  the last axis; and the [1024, 27, 27·n] result is re-laid as [1024, 243, n, 3] (n joints in the group). Frame T
  of the re-laid array is frame T % 9 of patch T / 9, so its entry at joint position g, channel c is the linear
  layer's row (T % 9) · 3n + 3 g + c at patch T / 9.
-/
import proofs.«129922_j69887707841118_1_alg».proof.Proof.RefTerm
import proofs.«129922_j69887707841118_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefPred

open Cert.ReferenceIdeal Cert.ReferenceIdeal.Gen Idealize.ShloMosaic Idealize.ShloMosaic.ValueIdx

/-! ## The group of three joints: 81 output rows -/

/-- The contraction of a [1024, 27, 512] array with an [81, 512] weight over the 512 features, at batch `bb`,
    patch `t`, row `o`: the sum over the feature of the products. -/
theorem dot81_apply (A : FVec Ideal S1024x27x512 .f32) (W : FVec Ideal S81x512 .f32)
    (bb : Fin 1024) (t : Fin 27) (o : Fin 81) :
    Host.dotGeneral dot_S1024x27x512_S81x512_S1024x27x81_2_1_01_0_n_n none A W (ix3 bb t o)
      = ∑ h : Fin 512, A (ix3 bb t h) * W (ix2 o h) := by
  show FloatOps.dotGeneral _ none _ A W (ix3 bb t o) = _
  rw [Ideal.dotGeneral_apply,
    ← Equiv.sum_comp (contrEquiv1 dot_S1024x27x512_S81x512_S1024x27x81_2_1_01_0_n_n 512 rfl rfl).symm]
  refine Finset.sum_congr rfl fun h _ => ?_
  have ch := contrEquiv1_symm_val dot_S1024x27x512_S81x512_S1024x27x81_2_1_01_0_n_n 512 rfl rfl h
  have hl : dot_S1024x27x512_S81x512_S1024x27x81_2_1_01_0_n_n.lhsIdx (ix3 bb t o)
      ((contrEquiv1 dot_S1024x27x512_S81x512_S1024x27x81_2_1_01_0_n_n 512 rfl rfl).symm h) = ix3 bb t h := by
    funext ax; apply Fin.ext
    match ax with
    | ⟨0, _⟩ => simp [DotDims.lhsIdx, dot_S1024x27x512_S81x512_S1024x27x81_2_1_01_0_n_n]; rfl
    | ⟨1, _⟩ => simp [DotDims.lhsIdx, dot_S1024x27x512_S81x512_S1024x27x81_2_1_01_0_n_n]; rfl
    | ⟨2, _⟩ => simp [DotDims.lhsIdx, dot_S1024x27x512_S81x512_S1024x27x81_2_1_01_0_n_n]; exact ch
  have hr : dot_S1024x27x512_S81x512_S1024x27x81_2_1_01_0_n_n.rhsIdx (ix3 bb t o)
      ((contrEquiv1 dot_S1024x27x512_S81x512_S1024x27x81_2_1_01_0_n_n 512 rfl rfl).symm h) = ix2 o h := by
    funext ax; apply Fin.ext
    match ax with
    | ⟨0, _⟩ => simp [DotDims.rhsIdx, dot_S1024x27x512_S81x512_S1024x27x81_2_1_01_0_n_n]; rfl
    | ⟨1, _⟩ => simp [DotDims.rhsIdx, dot_S1024x27x512_S81x512_S1024x27x81_2_1_01_0_n_n]; exact ch
  rw [hl, hr]

/-- The tokens' slice `k`, re-laid as [1024, 27, 512], at batch `bb`, patch `t`, feature `h`: the token of group `k`. -/
theorem slice_apply (k : Fin 5) (hs : S1024x27x5x512.Slices ![0, 0, k.val, 0] S1024x27x1x512)
    (tok : FVec Ideal S1024x27x5x512 .f32) (bb : Fin 1024) (t : Fin 27) (h : Fin 512) :
    shapeCast S1024x27x512 (extractStridedSlice S1024x27x1x512 ![0, 0, k.val, 0] tok hs)
        shapeCasts_S1024x27x1x512_S1024x27x512 (ix3 bb t h)
      = tok (ix4 bb t k h) := by
  refine (shapeCast_apply _ shapeCasts_S1024x27x1x512_S1024x27x512 (ix3 bb t h)
    (ix4 bb t (0 : Fin 1) h) ?_).trans ?_
  · rw [Shape.rowMajor_val_four, Shape.rowMajor_val_three]
    show ((bb.val * 27 + t.val) * 1 + 0) * 512 + h.val = (bb.val * 27 + t.val) * 512 + h.val
    omega
  · refine extractStridedSlice_apply _ tok hs _ (ix4 bb t k h) fun a => ?_
    match a with
    | ⟨0, _⟩ => show bb.val = 0 + bb.val; omega
    | ⟨1, _⟩ => show t.val = 0 + t.val; omega
    | ⟨2, _⟩ => show k.val = k.val + 0; omega
    | ⟨3, _⟩ => show h.val = 0 + h.val; omega

/-- The bias spread along batch and patch, at batch `bb`, patch `t`, row `o`: the bias of row `o`. -/
theorem bias81_apply (b : FVec Ideal S81 .f32) (bb : Fin 1024) (t : Fin 27) (o : Fin 81) :
    broadcastInDim S1024x27x81 ![0, 1, 2] bcast_S1x1x81_S1024x27x81_0_1_2
        (broadcastInDim S1x1x81 ![2] bcast_S81_S1x1x81_2 b) (ix3 bb t o)
      = b (ix1 o) := by
  refine (broadcastInDim_apply _ bcast_S1x1x81_S1024x27x81_0_1_2 _ (ix3 bb t o)
    (ix3 (0 : Fin 1) (0 : Fin 1) o) fun a => ?_).trans ?_
  · match a with
    | ⟨0, _⟩ => rfl
    | ⟨1, _⟩ => rfl
    | ⟨2, _⟩ => rfl
  · refine broadcastInDim_apply _ bcast_S81_S1x1x81_2 b _ (ix1 o) fun a => ?_
    match a with
    | ⟨0, _⟩ => rfl

/-- A three-joint group's prediction at batch `bb`, frame `T`, joint position `g`, channel `c`. -/
theorem pred3_apply (k : Fin 5) (off : Fin 4 → Nat) (hoff : off = ![0, 0, k.val, 0])
    (hs : S1024x27x5x512.Slices off S1024x27x1x512) (tok : FVec Ideal S1024x27x5x512 .f32)
    (W : FVec Ideal S81x512 .f32) (b : FVec Ideal S81 .f32)
    (bb : Fin 1024) (T : Fin 243) (g : Fin 3) (c : Fin 3) :
    RefTerm.pred3 (F := Ideal) off hs tok W b (ix4 bb T g c)
      = Cert.Spec.lin tok k W b bb ⟨T.val / 9, by omega⟩ ⟨(T.val % 9) * 9 + g.val * 3 + c.val, by omega⟩ := by
  subst hoff
  unfold RefTerm.pred3
  refine (shapeCast_apply _ shapeCasts_S1024x27x81_S1024x243x3x3 (ix4 bb T g c)
    (ix3 bb (⟨T.val / 9, by omega⟩ : Fin 27) (⟨(T.val % 9) * 9 + g.val * 3 + c.val, by omega⟩ : Fin 81)) ?_).trans ?_
  · rw [Shape.rowMajor_val_three, Shape.rowMajor_val_four]
    show (bb.val * 27 + T.val / 9) * 81 + ((T.val % 9) * 9 + g.val * 3 + c.val)
      = ((bb.val * 243 + T.val) * 3 + g.val) * 3 + c.val
    omega
  · rw [addf_apply, dot81_apply, bias81_apply]
    unfold Cert.Spec.lin
    congr 1
    refine Finset.sum_congr rfl fun h _ => ?_
    rw [slice_apply]

/-! ## The group of five joints: 135 output rows -/

/-- The contraction of a [1024, 27, 512] array with a [135, 512] weight over the 512 features, at batch `bb`,
    patch `t`, row `o`: the sum over the feature of the products. -/
theorem dot135_apply (A : FVec Ideal S1024x27x512 .f32) (W : FVec Ideal S135x512 .f32)
    (bb : Fin 1024) (t : Fin 27) (o : Fin 135) :
    Host.dotGeneral dot_S1024x27x512_S135x512_S1024x27x135_2_1_01_0_n_n none A W (ix3 bb t o)
      = ∑ h : Fin 512, A (ix3 bb t h) * W (ix2 o h) := by
  show FloatOps.dotGeneral _ none _ A W (ix3 bb t o) = _
  rw [Ideal.dotGeneral_apply,
    ← Equiv.sum_comp (contrEquiv1 dot_S1024x27x512_S135x512_S1024x27x135_2_1_01_0_n_n 512 rfl rfl).symm]
  refine Finset.sum_congr rfl fun h _ => ?_
  have ch := contrEquiv1_symm_val dot_S1024x27x512_S135x512_S1024x27x135_2_1_01_0_n_n 512 rfl rfl h
  have hl : dot_S1024x27x512_S135x512_S1024x27x135_2_1_01_0_n_n.lhsIdx (ix3 bb t o)
      ((contrEquiv1 dot_S1024x27x512_S135x512_S1024x27x135_2_1_01_0_n_n 512 rfl rfl).symm h) = ix3 bb t h := by
    funext ax; apply Fin.ext
    match ax with
    | ⟨0, _⟩ => simp [DotDims.lhsIdx, dot_S1024x27x512_S135x512_S1024x27x135_2_1_01_0_n_n]; rfl
    | ⟨1, _⟩ => simp [DotDims.lhsIdx, dot_S1024x27x512_S135x512_S1024x27x135_2_1_01_0_n_n]; rfl
    | ⟨2, _⟩ => simp [DotDims.lhsIdx, dot_S1024x27x512_S135x512_S1024x27x135_2_1_01_0_n_n]; exact ch
  have hr : dot_S1024x27x512_S135x512_S1024x27x135_2_1_01_0_n_n.rhsIdx (ix3 bb t o)
      ((contrEquiv1 dot_S1024x27x512_S135x512_S1024x27x135_2_1_01_0_n_n 512 rfl rfl).symm h) = ix2 o h := by
    funext ax; apply Fin.ext
    match ax with
    | ⟨0, _⟩ => simp [DotDims.rhsIdx, dot_S1024x27x512_S135x512_S1024x27x135_2_1_01_0_n_n]; rfl
    | ⟨1, _⟩ => simp [DotDims.rhsIdx, dot_S1024x27x512_S135x512_S1024x27x135_2_1_01_0_n_n]; exact ch
  rw [hl, hr]

/-- The bias spread along batch and patch, at batch `bb`, patch `t`, row `o`: the bias of row `o`. -/
theorem bias135_apply (b : FVec Ideal S135 .f32) (bb : Fin 1024) (t : Fin 27) (o : Fin 135) :
    broadcastInDim S1024x27x135 ![0, 1, 2] bcast_S1x1x135_S1024x27x135_0_1_2
        (broadcastInDim S1x1x135 ![2] bcast_S135_S1x1x135_2 b) (ix3 bb t o)
      = b (ix1 o) := by
  refine (broadcastInDim_apply _ bcast_S1x1x135_S1024x27x135_0_1_2 _ (ix3 bb t o)
    (ix3 (0 : Fin 1) (0 : Fin 1) o) fun a => ?_).trans ?_
  · match a with
    | ⟨0, _⟩ => rfl
    | ⟨1, _⟩ => rfl
    | ⟨2, _⟩ => rfl
  · refine broadcastInDim_apply _ bcast_S135_S1x1x135_2 b _ (ix1 o) fun a => ?_
    match a with
    | ⟨0, _⟩ => rfl

/-- The five-joint group's prediction at batch `bb`, frame `T`, joint position `g`, channel `c`. -/
theorem pred5_apply (k : Fin 5) (off : Fin 4 → Nat) (hoff : off = ![0, 0, k.val, 0])
    (hs : S1024x27x5x512.Slices off S1024x27x1x512) (tok : FVec Ideal S1024x27x5x512 .f32)
    (W : FVec Ideal S135x512 .f32) (b : FVec Ideal S135 .f32)
    (bb : Fin 1024) (T : Fin 243) (g : Fin 5) (c : Fin 3) :
    RefTerm.pred5 (F := Ideal) off hs tok W b (ix4 bb T g c)
      = Cert.Spec.lin tok k W b bb ⟨T.val / 9, by omega⟩ ⟨(T.val % 9) * 15 + g.val * 3 + c.val, by omega⟩ := by
  subst hoff
  unfold RefTerm.pred5
  refine (shapeCast_apply _ shapeCasts_S1024x27x135_S1024x243x5x3 (ix4 bb T g c)
    (ix3 bb (⟨T.val / 9, by omega⟩ : Fin 27) (⟨(T.val % 9) * 15 + g.val * 3 + c.val, by omega⟩ : Fin 135)) ?_).trans ?_
  · rw [Shape.rowMajor_val_three, Shape.rowMajor_val_four]
    show (bb.val * 27 + T.val / 9) * 135 + ((T.val % 9) * 15 + g.val * 3 + c.val)
      = ((bb.val * 243 + T.val) * 5 + g.val) * 3 + c.val
    omega
  · rw [addf_apply, dot135_apply, bias135_apply]
    unfold Cert.Spec.lin
    congr 1
    refine Finset.sum_congr rfl fun h _ => ?_
    rw [slice_apply]

end Cert.ReferenceIdeal.RefPred

end
-- ==== Proof.LibScatterJoint.lean ====
/-
  A float scatter-add along ONE axis of a rank-4 array, read at an index, at the ideal instance.

  The operand has shape [B, T, J, C]; the updates have shape [B, T, G, C]; the scatter indices are a column
  [G, 1] of numbers, the g-th naming the position on the operand's third axis that slab g of the updates is added
  at (update window axes 0, 1, 3; inserted window axis 2; the index vector's axis 1). When the column lists
  distinct in-range positions `jt g`, the result at (b, t, j, c) is the operand there plus the update at
  (b, t, g, c) if j = jt g for some g, and the operand alone otherwise: no two updates meet.
-/
import Idealize.ShloMosaic.PureOps.Ideal
import Idealize.ShloMosaic.Lib.ValueIdx

noncomputable section

open scoped BigOperators

namespace Cert.Lib.ScatterJoint

open Idealize.ShloMosaic Idealize.ShloMosaic.ValueIdx

/-- The dimension numbers of a scatter along axis 2 of [B, T, J, C] by a column [G, 1] of positions, the updates
    [B, T, G, C]; their conditions are decided on a program's literal shapes. -/
abbrev jointDims (B T J C G : Nat)
    (wf : ScatterDims.WF ⟨4, ![B, T, J, C]⟩ ⟨2, ![G, 1]⟩ ⟨4, ![B, T, G, C]⟩ [0, 1, 3] [2] [2] 1) :
    ScatterDims ⟨4, ![B, T, J, C]⟩ ⟨2, ![G, 1]⟩ ⟨4, ![B, T, G, C]⟩ where
  updateWindowDims := [0, 1, 3]
  insertedWindowDims := [2]
  scatterDimsToOperandDims := [2]
  indexVectorDim := 1
  wf := wf

variable {B T J C G w : Nat}

/-- An update index whose start plus window coordinate is, on every axis, the coordinate of the operand index `i`
    lands at `i`. -/
theorem resultIdx?_of_eq {s si u : Shape} (d : ScatterDims s si u) (j : u.Idx) (idx : IVec si w) (i : s.Idx)
    (h : ∀ a, d.start j idx a + d.window j a = ((i a).val : Int)) : d.resultIdx? j idx = some i := by
  have hc : ∀ a, 0 ≤ d.start j idx a + d.window j a ∧ d.start j idx a + d.window j a < s.size a := by
    intro a
    rw [h a]
    exact ⟨Int.natCast_nonneg _, by exact_mod_cast (i a).isLt⟩
  unfold ScatterDims.resultIdx?
  rw [dif_pos hc]
  congr 1
  funext a
  apply Fin.ext
  show (d.start j idx a + d.window j a).toNat = (i a).val
  rw [h a]
  exact Int.toNat_natCast _

/-- An axis whose number differs from `b`'s is not in the one-element list `[b]`. -/
theorem not_mem_single {n : Nat} {a b : Fin n} (h : a.val ≠ b.val) : a ∉ [b] :=
  fun hm => h (congrArg Fin.val (List.mem_singleton.mp hm))

section Joint
variable (wf : ScatterDims.WF ⟨4, ![B, T, J, C]⟩ ⟨2, ![G, 1]⟩ ⟨4, ![B, T, G, C]⟩ [0, 1, 3] [2] [2] 1)
  (idx : IVec ⟨2, ![G, 1]⟩ w) (u0 : Fin B) (u1 : Fin T) (u2 : Fin G) (u3 : Fin C)

/-- The window start of update index (u0, u1, u2, u3) on axis 2: the column's entry at `u2`, read signed. -/
theorem start_joint_two (h2 : 2 < (⟨4, ![B, T, J, C]⟩ : Shape).rank) :
    (jointDims B T J C G wf).start (ix4 u0 u1 u2 u3) idx ⟨2, h2⟩ = (idx (ix2 u2 (0 : Fin 1))).toInt := by
  unfold ScatterDims.start
  rw [dif_pos (show (⟨2, h2⟩ : Fin (⟨4, ![B, T, J, C]⟩ : Shape).rank) ∈ (jointDims B T J C G wf).scatterDimsToOperandDims from
    List.mem_singleton.mpr rfl)]
  congr 2
  funext b
  apply Fin.ext
  match b with
  | ⟨0, _⟩ => rfl
  | ⟨1, _⟩ => rfl

/-- The window start on an axis other than 2 is zero. -/
theorem start_joint_other (a : Fin (⟨4, ![B, T, J, C]⟩ : Shape).rank) (ha : a.val ≠ 2) :
    (jointDims B T J C G wf).start (ix4 u0 u1 u2 u3) idx a = 0 := by
  unfold ScatterDims.start
  rw [dif_neg (show a ∉ (jointDims B T J C G wf).scatterDimsToOperandDims from not_mem_single ha)]

/-- The window coordinate of update index (u0, u1, u2, u3): u0, u1, 0, u3 on the four axes. -/
theorem window_joint (a : Fin (⟨4, ![B, T, J, C]⟩ : Shape).rank) :
    (jointDims B T J C G wf).window (ix4 u0 u1 u2 u3) a
      = match a with | ⟨0, _⟩ => u0.val | ⟨1, _⟩ => u1.val | ⟨2, _⟩ => 0 | ⟨3, _⟩ => u3.val := by
  match a with
  | ⟨0, _⟩ => rfl
  | ⟨1, _⟩ => rfl
  | ⟨2, _⟩ => rfl
  | ⟨3, _⟩ => rfl

/-- Under the column's reading `jt`, update index (u0, u1, u2, u3) lands at operand index (u0, u1, jt u2, u3): on
    axis 2 the start is `jt u2` and the window coordinate zero, on the other axes the start is zero and the window
    coordinate the update's own. -/
theorem resultIdx?_joint (jt : Fin G → Fin J)
    (hjt : ∀ g : Fin G, (idx (ix2 g (0 : Fin 1))).toInt = ((jt g).val : Int)) :
    (jointDims B T J C G wf).resultIdx? (ix4 u0 u1 u2 u3) idx = some (ix4 u0 u1 (jt u2) u3) := by
  apply resultIdx?_of_eq
  intro a
  match a with
  | ⟨0, h⟩ =>
    rw [start_joint_other wf idx u0 u1 u2 u3 ⟨0, h⟩ (show (0 : Nat) ≠ 2 by decide), window_joint]
    exact Int.zero_add _
  | ⟨1, h⟩ =>
    rw [start_joint_other wf idx u0 u1 u2 u3 ⟨1, h⟩ (show (1 : Nat) ≠ 2 by decide), window_joint]
    exact Int.zero_add _
  | ⟨2, h⟩ =>
    rw [start_joint_two, window_joint, hjt]
    exact Int.add_zero _
  | ⟨3, h⟩ =>
    rw [start_joint_other wf idx u0 u1 u2 u3 ⟨3, h⟩ (show (3 : Nat) ≠ 2 by decide), window_joint]
    exact Int.zero_add _

end Joint

/-- Two rank-4 indices given by coordinates are equal exactly when their coordinates are. -/
theorem ix4_inj {n0 n1 n2 n3 : Nat} (a a' : Fin n0) (b b' : Fin n1) (c c' : Fin n2) (d d' : Fin n3) :
    ix4 a b c d = ix4 a' b' c' d' ↔ a = a' ∧ b = b' ∧ c = c' ∧ d = d' := by
  constructor
  · intro h
    have h0 := congrFun h ⟨0, (by decide : (0 : Nat) < 4)⟩
    have h1 := congrFun h ⟨1, (by decide : (1 : Nat) < 4)⟩
    have h2 := congrFun h ⟨2, (by decide : (2 : Nat) < 4)⟩
    have h3 := congrFun h ⟨3, (by decide : (3 : Nat) < 4)⟩
    exact ⟨h0, h1, h2, h3⟩
  · rintro ⟨rfl, rfl, rfl, rfl⟩
    rfl

/-- Update index (u0, u1, u2, u3) lands at (b, t, j, c) exactly when u0 = b, u1 = t, the column sends u2 to j, and
    u3 = c. -/
theorem resultIdx?_joint_iff
    (wf : ScatterDims.WF ⟨4, ![B, T, J, C]⟩ ⟨2, ![G, 1]⟩ ⟨4, ![B, T, G, C]⟩ [0, 1, 3] [2] [2] 1)
    (idx : IVec ⟨2, ![G, 1]⟩ w) (jt : Fin G → Fin J)
    (hjt : ∀ g : Fin G, (idx (ix2 g (0 : Fin 1))).toInt = ((jt g).val : Int))
    (u0 : Fin B) (u1 : Fin T) (u2 : Fin G) (u3 : Fin C) (b : Fin B) (t : Fin T) (j : Fin J) (c : Fin C) :
    (jointDims B T J C G wf).resultIdx? (ix4 u0 u1 u2 u3) idx = some (ix4 b t j c)
      ↔ u0 = b ∧ u1 = t ∧ jt u2 = j ∧ u3 = c := by
  rw [resultIdx?_joint wf idx u0 u1 u2 u3 jt hjt, Option.some_inj, ix4_inj]

/-- Position `j` is slab `g`'s: the result there is the operand plus that slab's update. -/
theorem scatterAdd_joint_hit
    (wf : ScatterDims.WF ⟨4, ![B, T, J, C]⟩ ⟨2, ![G, 1]⟩ ⟨4, ![B, T, G, C]⟩ [0, 1, 3] [2] [2] 1)
    (x : (⟨4, ![B, T, J, C]⟩ : Shape).Idx → EReal) (idx : IVec ⟨2, ![G, 1]⟩ w)
    (upd : (⟨4, ![B, T, G, C]⟩ : Shape).Idx → EReal) (jt : Fin G → Fin J)
    (hjt : ∀ g : Fin G, (idx (ix2 g (0 : Fin 1))).toInt = ((jt g).val : Int)) (hinj : Function.Injective jt)
    (b : Fin B) (t : Fin T) (j : Fin J) (c : Fin C) (g : Fin G) (hg : jt g = j) :
    Ideal.hostScatterAdd (jointDims B T J C G wf) x idx upd (ix4 b t j c) = x (ix4 b t j c) + upd (ix4 b t g c) := by
  unfold Ideal.hostScatterAdd
  congr 1
  -- the only update index that lands at (b, t, j, c) is (b, t, g, c)
  refine Finset.sum_eq_single (ix4 b t g c) ?_ ?_
  · intro u hu hne
    obtain ⟨u0, u1, u2, u3, rfl⟩ : ∃ u0 u1 u2 u3, u = ix4 u0 u1 u2 u3 := ⟨u 0, u 1, u 2, u 3, eq_ix4 u⟩
    rw [Finset.mem_filter, resultIdx?_joint_iff wf idx jt hjt] at hu
    obtain ⟨-, h0, h1, h2, h3⟩ := hu
    have h2' : u2 = g := hinj (h2.trans hg.symm)
    exact absurd ((ix4_inj _ _ _ _ _ _ _ _).mpr ⟨h0, h1, h2', h3⟩) hne
  · intro hn
    exact absurd (Finset.mem_filter.mpr ⟨Finset.mem_univ (ix4 b t g c),
      (resultIdx?_joint_iff wf idx jt hjt b t g c b t j c).mpr ⟨rfl, rfl, hg, rfl⟩⟩) hn

/-- Position `j` is no slab's: the result there is the operand. -/
theorem scatterAdd_joint_miss
    (wf : ScatterDims.WF ⟨4, ![B, T, J, C]⟩ ⟨2, ![G, 1]⟩ ⟨4, ![B, T, G, C]⟩ [0, 1, 3] [2] [2] 1)
    (x : (⟨4, ![B, T, J, C]⟩ : Shape).Idx → EReal) (idx : IVec ⟨2, ![G, 1]⟩ w)
    (upd : (⟨4, ![B, T, G, C]⟩ : Shape).Idx → EReal) (jt : Fin G → Fin J)
    (hjt : ∀ g : Fin G, (idx (ix2 g (0 : Fin 1))).toInt = ((jt g).val : Int))
    (b : Fin B) (t : Fin T) (j : Fin J) (c : Fin C) (hg : ∀ g : Fin G, jt g ≠ j) :
    Ideal.hostScatterAdd (jointDims B T J C G wf) x idx upd (ix4 b t j c) = x (ix4 b t j c) := by
  unfold Ideal.hostScatterAdd
  -- no update index lands at (b, t, j, c): the sum is empty
  refine (congrArg (x (ix4 b t j c) + ·) (Finset.sum_eq_zero ?_)).trans (add_zero _)
  intro u hu
  obtain ⟨u0, u1, u2, u3, rfl⟩ : ∃ u0 u1 u2 u3, u = ix4 u0 u1 u2 u3 := ⟨u 0, u 1, u 2, u 3, eq_ix4 u⟩
  rw [Finset.mem_filter, resultIdx?_joint_iff wf idx jt hjt] at hu
  exact absurd hu.2.2.2.1 (hg u2)

end Cert.Lib.ScatterJoint

end
-- ==== Proof.RefValue.lean ====
/-
  The reference's result is the specification. Each of the five scatter-adds lands a group's prediction on that
  group's joints and nowhere else, and the groups partition the joints 0 … 16: so at joint j the accumulated sum
  is zero plus the one prediction of j's group (at j's position in the group), the count is zero plus one, its
  clip below at one is one, and the quotient by one is the prediction.
-/
import proofs.«129922_j69887707841118_1_alg».proof.Proof.RefPred
import proofs.«129922_j69887707841118_1_alg».proof.Proof.LibScatterJoint
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx

/-! ## The joint tables

The five groups' joint numbers as functions into the 17 joints; the reference's index columns read them, each
table is injective, and the five images partition the joints. -/

/-- Group 0: joints 1, 2, 3. -/
def jt0 : Fin 3 → Fin 17 := ![1, 2, 3]
/-- Group 1: joints 4, 5, 6. -/
def jt1 : Fin 3 → Fin 17 := ![4, 5, 6]
/-- Group 2: joints 0, 7, 8, 9, 10. -/
def jt2 : Fin 5 → Fin 17 := ![0, 7, 8, 9, 10]
/-- Group 3: joints 11, 12, 13. -/
def jt3 : Fin 3 → Fin 17 := ![11, 12, 13]
/-- Group 4: joints 14, 15, 16. -/
def jt4 : Fin 3 → Fin 17 := ![14, 15, 16]

/-- The index column of group 0 reads its table: no number is negative, so none wraps. -/
theorem joints_tab0 (g : Fin 3) : (RefTerm.joints3 RefTerm.tab0 (ix2 g (0 : Fin 1))).toInt = ((jt0 g).val : Int) := by
  match g with
  | ⟨0, _⟩ => rfl
  | ⟨1, _⟩ => rfl
  | ⟨2, _⟩ => rfl
/-- Likewise group 1's … -/
theorem joints_tab1 (g : Fin 3) : (RefTerm.joints3 RefTerm.tab1 (ix2 g (0 : Fin 1))).toInt = ((jt1 g).val : Int) := by
  match g with
  | ⟨0, _⟩ => rfl
  | ⟨1, _⟩ => rfl
  | ⟨2, _⟩ => rfl
/-- … group 2's … -/
theorem joints_tab2 (g : Fin 5) : (RefTerm.joints5 RefTerm.tab2 (ix2 g (0 : Fin 1))).toInt = ((jt2 g).val : Int) := by
  match g with
  | ⟨0, _⟩ => rfl
  | ⟨1, _⟩ => rfl
  | ⟨2, _⟩ => rfl
  | ⟨3, _⟩ => rfl
  | ⟨4, _⟩ => rfl
/-- … group 3's … -/
theorem joints_tab3 (g : Fin 3) : (RefTerm.joints3 RefTerm.tab3 (ix2 g (0 : Fin 1))).toInt = ((jt3 g).val : Int) := by
  match g with
  | ⟨0, _⟩ => rfl
  | ⟨1, _⟩ => rfl
  | ⟨2, _⟩ => rfl
/-- … and group 4's. -/
theorem joints_tab4 (g : Fin 3) : (RefTerm.joints3 RefTerm.tab4 (ix2 g (0 : Fin 1))).toInt = ((jt4 g).val : Int) := by
  match g with
  | ⟨0, _⟩ => rfl
  | ⟨1, _⟩ => rfl
  | ⟨2, _⟩ => rfl

/-- No table names a joint twice. -/
theorem jt0_inj : Function.Injective jt0 := by decide
theorem jt1_inj : Function.Injective jt1 := by decide
theorem jt2_inj : Function.Injective jt2 := by decide
theorem jt3_inj : Function.Injective jt3 := by decide
theorem jt4_inj : Function.Injective jt4 := by decide

/-- Every joint lies in one of the five groups. -/
theorem joint_cases (j : Fin 17) :
    (∃ g, j = jt0 g) ∨ (∃ g, j = jt1 g) ∨ (∃ g, j = jt2 g) ∨ (∃ g, j = jt3 g) ∨ (∃ g, j = jt4 g) := by
  revert j; decide

/-- The groups are pairwise disjoint. -/
theorem disj01 : ∀ (g : Fin 3) (g' : Fin 3), jt0 g ≠ jt1 g' := by decide
theorem disj02 : ∀ (g : Fin 3) (g' : Fin 5), jt0 g ≠ jt2 g' := by decide
theorem disj03 : ∀ (g : Fin 3) (g' : Fin 3), jt0 g ≠ jt3 g' := by decide
theorem disj04 : ∀ (g : Fin 3) (g' : Fin 3), jt0 g ≠ jt4 g' := by decide
theorem disj12 : ∀ (g : Fin 3) (g' : Fin 5), jt1 g ≠ jt2 g' := by decide
theorem disj13 : ∀ (g : Fin 3) (g' : Fin 3), jt1 g ≠ jt3 g' := by decide
theorem disj14 : ∀ (g : Fin 3) (g' : Fin 3), jt1 g ≠ jt4 g' := by decide
theorem disj23 : ∀ (g : Fin 5) (g' : Fin 3), jt2 g ≠ jt3 g' := by decide
theorem disj24 : ∀ (g : Fin 5) (g' : Fin 3), jt2 g ≠ jt4 g' := by decide
theorem disj34 : ∀ (g : Fin 3) (g' : Fin 3), jt3 g ≠ jt4 g' := by decide

/-! ## One scatter-add at an index

The program's four scatter records are the joint-axis scatter's dimension numbers at their shapes, and the host's
scatter-add at the ideal instance is the exact sum: so a joint a group's table names receives that slab of the
updates, and any other joint keeps the operand. -/

/-- Predictions, a three-joint group: the joint the table sends slab `g` to receives that slab. -/
theorem scat33_hit (x : FVec Ideal S1024x243x17x3 .f32) (idx : IVec S3x1 32) (upd : FVec Ideal S1024x243x3x3 .f32)
    (jt : Fin 3 → Fin 17) (hjt : ∀ g : Fin 3, (idx (ix2 g (0 : Fin 1))).toInt = ((jt g).val : Int))
    (hinj : Function.Injective jt) (bb : Fin 1024) (T : Fin 243) (c : Fin 3) (g : Fin 3) :
    Host.scatterAdd scatter_S1024x243x17x3_S3x1_S1024x243x3x3_013_2_2_1 x idx upd (ix4 bb T (jt g) c)
      = x (ix4 bb T (jt g) c) + upd (ix4 bb T g c) :=
  Cert.Lib.ScatterJoint.scatterAdd_joint_hit scatter_S1024x243x17x3_S3x1_S1024x243x3x3_013_2_2_1_wf x idx upd jt hjt hinj
    bb T (jt g) c g rfl

/-- Predictions, a three-joint group: a joint outside the table keeps the operand. -/
theorem scat33_miss (x : FVec Ideal S1024x243x17x3 .f32) (idx : IVec S3x1 32) (upd : FVec Ideal S1024x243x3x3 .f32)
    (jt : Fin 3 → Fin 17) (hjt : ∀ g : Fin 3, (idx (ix2 g (0 : Fin 1))).toInt = ((jt g).val : Int))
    (bb : Fin 1024) (T : Fin 243) (j : Fin 17) (c : Fin 3) (hg : ∀ g : Fin 3, jt g ≠ j) :
    Host.scatterAdd scatter_S1024x243x17x3_S3x1_S1024x243x3x3_013_2_2_1 x idx upd (ix4 bb T j c) = x (ix4 bb T j c) :=
  Cert.Lib.ScatterJoint.scatterAdd_joint_miss scatter_S1024x243x17x3_S3x1_S1024x243x3x3_013_2_2_1_wf x idx upd jt hjt
    bb T j c hg

/-- Predictions, the five-joint group: the joint the table sends slab `g` to receives that slab. -/
theorem scat53_hit (x : FVec Ideal S1024x243x17x3 .f32) (idx : IVec S5x1 32) (upd : FVec Ideal S1024x243x5x3 .f32)
    (jt : Fin 5 → Fin 17) (hjt : ∀ g : Fin 5, (idx (ix2 g (0 : Fin 1))).toInt = ((jt g).val : Int))
    (hinj : Function.Injective jt) (bb : Fin 1024) (T : Fin 243) (c : Fin 3) (g : Fin 5) :
    Host.scatterAdd scatter_S1024x243x17x3_S5x1_S1024x243x5x3_013_2_2_1 x idx upd (ix4 bb T (jt g) c)
      = x (ix4 bb T (jt g) c) + upd (ix4 bb T g c) :=
  Cert.Lib.ScatterJoint.scatterAdd_joint_hit scatter_S1024x243x17x3_S5x1_S1024x243x5x3_013_2_2_1_wf x idx upd jt hjt hinj
    bb T (jt g) c g rfl

/-- Predictions, the five-joint group: a joint outside the table keeps the operand. -/
theorem scat53_miss (x : FVec Ideal S1024x243x17x3 .f32) (idx : IVec S5x1 32) (upd : FVec Ideal S1024x243x5x3 .f32)
    (jt : Fin 5 → Fin 17) (hjt : ∀ g : Fin 5, (idx (ix2 g (0 : Fin 1))).toInt = ((jt g).val : Int))
    (bb : Fin 1024) (T : Fin 243) (j : Fin 17) (c : Fin 3) (hg : ∀ g : Fin 5, jt g ≠ j) :
    Host.scatterAdd scatter_S1024x243x17x3_S5x1_S1024x243x5x3_013_2_2_1 x idx upd (ix4 bb T j c) = x (ix4 bb T j c) :=
  Cert.Lib.ScatterJoint.scatterAdd_joint_miss scatter_S1024x243x17x3_S5x1_S1024x243x5x3_013_2_2_1_wf x idx upd jt hjt
    bb T j c hg

/-- Counts, a three-joint group: the joint the table sends slab `g` to receives that slab. -/
theorem scat31_hit (x : FVec Ideal S1024x243x17x1 .f32) (idx : IVec S3x1 32) (upd : FVec Ideal S1024x243x3x1 .f32)
    (jt : Fin 3 → Fin 17) (hjt : ∀ g : Fin 3, (idx (ix2 g (0 : Fin 1))).toInt = ((jt g).val : Int))
    (hinj : Function.Injective jt) (bb : Fin 1024) (T : Fin 243) (c : Fin 1) (g : Fin 3) :
    Host.scatterAdd scatter_S1024x243x17x1_S3x1_S1024x243x3x1_013_2_2_1 x idx upd (ix4 bb T (jt g) c)
      = x (ix4 bb T (jt g) c) + upd (ix4 bb T g c) :=
  Cert.Lib.ScatterJoint.scatterAdd_joint_hit scatter_S1024x243x17x1_S3x1_S1024x243x3x1_013_2_2_1_wf x idx upd jt hjt hinj
    bb T (jt g) c g rfl

/-- Counts, a three-joint group: a joint outside the table keeps the operand. -/
theorem scat31_miss (x : FVec Ideal S1024x243x17x1 .f32) (idx : IVec S3x1 32) (upd : FVec Ideal S1024x243x3x1 .f32)
    (jt : Fin 3 → Fin 17) (hjt : ∀ g : Fin 3, (idx (ix2 g (0 : Fin 1))).toInt = ((jt g).val : Int))
    (bb : Fin 1024) (T : Fin 243) (j : Fin 17) (c : Fin 1) (hg : ∀ g : Fin 3, jt g ≠ j) :
    Host.scatterAdd scatter_S1024x243x17x1_S3x1_S1024x243x3x1_013_2_2_1 x idx upd (ix4 bb T j c) = x (ix4 bb T j c) :=
  Cert.Lib.ScatterJoint.scatterAdd_joint_miss scatter_S1024x243x17x1_S3x1_S1024x243x3x1_013_2_2_1_wf x idx upd jt hjt
    bb T j c hg

/-- Counts, the five-joint group: the joint the table sends slab `g` to receives that slab. -/
theorem scat51_hit (x : FVec Ideal S1024x243x17x1 .f32) (idx : IVec S5x1 32) (upd : FVec Ideal S1024x243x5x1 .f32)
    (jt : Fin 5 → Fin 17) (hjt : ∀ g : Fin 5, (idx (ix2 g (0 : Fin 1))).toInt = ((jt g).val : Int))
    (hinj : Function.Injective jt) (bb : Fin 1024) (T : Fin 243) (c : Fin 1) (g : Fin 5) :
    Host.scatterAdd scatter_S1024x243x17x1_S5x1_S1024x243x5x1_013_2_2_1 x idx upd (ix4 bb T (jt g) c)
      = x (ix4 bb T (jt g) c) + upd (ix4 bb T g c) :=
  Cert.Lib.ScatterJoint.scatterAdd_joint_hit scatter_S1024x243x17x1_S5x1_S1024x243x5x1_013_2_2_1_wf x idx upd jt hjt hinj
    bb T (jt g) c g rfl

/-- Counts, the five-joint group: a joint outside the table keeps the operand. -/
theorem scat51_miss (x : FVec Ideal S1024x243x17x1 .f32) (idx : IVec S5x1 32) (upd : FVec Ideal S1024x243x5x1 .f32)
    (jt : Fin 5 → Fin 17) (hjt : ∀ g : Fin 5, (idx (ix2 g (0 : Fin 1))).toInt = ((jt g).val : Int))
    (bb : Fin 1024) (T : Fin 243) (j : Fin 17) (c : Fin 1) (hg : ∀ g : Fin 5, jt g ≠ j) :
    Host.scatterAdd scatter_S1024x243x17x1_S5x1_S1024x243x5x1_013_2_2_1 x idx upd (ix4 bb T j c) = x (ix4 bb T j c) :=
  Cert.Lib.ScatterJoint.scatterAdd_joint_miss scatter_S1024x243x17x1_S5x1_S1024x243x5x1_013_2_2_1_wf x idx upd jt hjt
    bb T j c hg

/-! ## The constants at an index -/

/-- The zero array of predictions reads zero. -/
theorem acc0_apply (i : S1024x243x17x3.Idx) : RefTerm.acc0 (F := Ideal) i = 0 := by
  unfold RefTerm.acc0
  rw [broadcastInDim_scalar_apply, constant_apply, Ideal.ofBits_zero_f32]

/-- The zero array of counts reads zero. -/
theorem cnt0_apply (i : S1024x243x17x1.Idx) : RefTerm.cnt0 (F := Ideal) i = 0 := by
  unfold RefTerm.cnt0
  rw [broadcastInDim_scalar_apply, constant_apply, Ideal.ofBits_zero_f32]

/-- A three-joint group's ones read one. -/
theorem ones3_apply (i : S1024x243x3x1.Idx) : RefTerm.ones3 (F := Ideal) i = 1 := by
  unfold RefTerm.ones3
  rw [broadcastInDim_scalar_apply, constant_apply, Ideal.ofBits_one_f32]

/-- The five-joint group's ones read one. -/
theorem ones5_apply (i : S1024x243x5x1.Idx) : RefTerm.ones5 (F := Ideal) i = 1 := by
  unfold RefTerm.ones5
  rw [broadcastInDim_scalar_apply, constant_apply, Ideal.ofBits_one_f32]

/-- The quotient by one is the dividend, on every extended real. -/
theorem div_one (x : EReal) : Ideal.div x 1 = x := by
  rw [show (1 : EReal) = ((1 : ℝ) : EReal) from rfl, Ideal.div_coe one_ne_zero, div_self one_ne_zero]
  exact mul_one x

/-- The clipped count at (b, T, j, c) is the larger of one and the count at (b, T, j). -/
theorem clipped_apply (bb : Fin 1024) (T : Fin 243) (j : Fin 17) (c : Fin 3) :
    RefTerm.clipped (F := Ideal) (ix4 bb T j c) = max 1 (RefTerm.cnt5 (F := Ideal) (ix4 bb T j (0 : Fin 1))) := by
  unfold RefTerm.clipped
  rw [broadcastInDim_apply _ _ _ _ (ix4 bb T j (0 : Fin 1)) (by
    intro a
    match a with
    | ⟨0, _⟩ => rfl
    | ⟨1, _⟩ => rfl
    | ⟨2, _⟩ => rfl
    | ⟨3, _⟩ => rfl)]
  rw [maximumf_apply, broadcastInDim_scalar_apply]
  show max (constant (F := Ideal) S_ .f32 0x3F800000#32 ix0) _ = _
  rw [constant_apply, Ideal.ofBits_one_f32]

/-! ## The accumulated sum and the count at a joint, group by group

At a joint of group k the k-th scatter-add lands that joint's slab and the other four pass it by. -/

section Groups
variable (tok : FVec Ideal S1024x27x5x512 .f32)
  (W0 : FVec Ideal S81x512 .f32) (b0 : FVec Ideal S81 .f32) (W1 : FVec Ideal S81x512 .f32) (b1 : FVec Ideal S81 .f32)
  (W2 : FVec Ideal S135x512 .f32) (b2 : FVec Ideal S135 .f32) (W3 : FVec Ideal S81x512 .f32) (b3 : FVec Ideal S81 .f32)
  (W4 : FVec Ideal S81x512 .f32) (b4 : FVec Ideal S81 .f32)
  (bb : Fin 1024) (T : Fin 243) (c : Fin 3) (c0 : Fin 1)

/-- At a joint of group 0 the accumulated sum is zero plus that group's prediction at the joint's position. -/
theorem acc5_g0 (g : Fin 3) :
    RefTerm.acc5 (F := Ideal) tok W0 b0 W1 b1 W2 b2 W3 b3 W4 b4 (ix4 bb T (jt0 g) c)
      = RefTerm.pred3 (F := Ideal) ![0, 0, 0, 0] slices_S1024x27x5x512_S1024x27x1x512_0_0_0_0 tok W0 b0 (ix4 bb T g c) := by
  unfold RefTerm.acc5
  rw [scat33_miss _ _ _ jt4 joints_tab4 _ _ _ _ (fun g' => (disj04 g g').symm)]
  unfold RefTerm.acc4
  rw [scat33_miss _ _ _ jt3 joints_tab3 _ _ _ _ (fun g' => (disj03 g g').symm)]
  unfold RefTerm.acc3
  rw [scat53_miss _ _ _ jt2 joints_tab2 _ _ _ _ (fun g' => (disj02 g g').symm)]
  unfold RefTerm.acc2
  rw [scat33_miss _ _ _ jt1 joints_tab1 _ _ _ _ (fun g' => (disj01 g g').symm)]
  unfold RefTerm.acc1
  rw [scat33_hit _ _ _ jt0 joints_tab0 jt0_inj, acc0_apply, zero_add]

/-- At a joint of group 1 the accumulated sum is zero plus that group's prediction at the joint's position. -/
theorem acc5_g1 (g : Fin 3) :
    RefTerm.acc5 (F := Ideal) tok W0 b0 W1 b1 W2 b2 W3 b3 W4 b4 (ix4 bb T (jt1 g) c)
      = RefTerm.pred3 (F := Ideal) ![0, 0, 1, 0] slices_S1024x27x5x512_S1024x27x1x512_0_0_1_0 tok W1 b1 (ix4 bb T g c) := by
  unfold RefTerm.acc5
  rw [scat33_miss _ _ _ jt4 joints_tab4 _ _ _ _ (fun g' => (disj14 g g').symm)]
  unfold RefTerm.acc4
  rw [scat33_miss _ _ _ jt3 joints_tab3 _ _ _ _ (fun g' => (disj13 g g').symm)]
  unfold RefTerm.acc3
  rw [scat53_miss _ _ _ jt2 joints_tab2 _ _ _ _ (fun g' => (disj12 g g').symm)]
  unfold RefTerm.acc2
  rw [scat33_hit _ _ _ jt1 joints_tab1 jt1_inj]
  unfold RefTerm.acc1
  rw [scat33_miss _ _ _ jt0 joints_tab0 _ _ _ _ (fun g' => disj01 g' g), acc0_apply, zero_add]

/-- At a joint of group 2 the accumulated sum is zero plus that group's prediction at the joint's position. -/
theorem acc5_g2 (g : Fin 5) :
    RefTerm.acc5 (F := Ideal) tok W0 b0 W1 b1 W2 b2 W3 b3 W4 b4 (ix4 bb T (jt2 g) c)
      = RefTerm.pred5 (F := Ideal) ![0, 0, 2, 0] slices_S1024x27x5x512_S1024x27x1x512_0_0_2_0 tok W2 b2 (ix4 bb T g c) := by
  unfold RefTerm.acc5
  rw [scat33_miss _ _ _ jt4 joints_tab4 _ _ _ _ (fun g' => (disj24 g g').symm)]
  unfold RefTerm.acc4
  rw [scat33_miss _ _ _ jt3 joints_tab3 _ _ _ _ (fun g' => (disj23 g g').symm)]
  unfold RefTerm.acc3
  rw [scat53_hit _ _ _ jt2 joints_tab2 jt2_inj]
  unfold RefTerm.acc2
  rw [scat33_miss _ _ _ jt1 joints_tab1 _ _ _ _ (fun g' => disj12 g' g)]
  unfold RefTerm.acc1
  rw [scat33_miss _ _ _ jt0 joints_tab0 _ _ _ _ (fun g' => disj02 g' g), acc0_apply, zero_add]

/-- At a joint of group 3 the accumulated sum is zero plus that group's prediction at the joint's position. -/
theorem acc5_g3 (g : Fin 3) :
    RefTerm.acc5 (F := Ideal) tok W0 b0 W1 b1 W2 b2 W3 b3 W4 b4 (ix4 bb T (jt3 g) c)
      = RefTerm.pred3 (F := Ideal) ![0, 0, 3, 0] slices_S1024x27x5x512_S1024x27x1x512_0_0_3_0 tok W3 b3 (ix4 bb T g c) := by
  unfold RefTerm.acc5
  rw [scat33_miss _ _ _ jt4 joints_tab4 _ _ _ _ (fun g' => (disj34 g g').symm)]
  unfold RefTerm.acc4
  rw [scat33_hit _ _ _ jt3 joints_tab3 jt3_inj]
  unfold RefTerm.acc3
  rw [scat53_miss _ _ _ jt2 joints_tab2 _ _ _ _ (fun g' => disj23 g' g)]
  unfold RefTerm.acc2
  rw [scat33_miss _ _ _ jt1 joints_tab1 _ _ _ _ (fun g' => disj13 g' g)]
  unfold RefTerm.acc1
  rw [scat33_miss _ _ _ jt0 joints_tab0 _ _ _ _ (fun g' => disj03 g' g), acc0_apply, zero_add]

/-- At a joint of group 4 the accumulated sum is zero plus that group's prediction at the joint's position. -/
theorem acc5_g4 (g : Fin 3) :
    RefTerm.acc5 (F := Ideal) tok W0 b0 W1 b1 W2 b2 W3 b3 W4 b4 (ix4 bb T (jt4 g) c)
      = RefTerm.pred3 (F := Ideal) ![0, 0, 4, 0] slices_S1024x27x5x512_S1024x27x1x512_0_0_4_0 tok W4 b4 (ix4 bb T g c) := by
  unfold RefTerm.acc5
  rw [scat33_hit _ _ _ jt4 joints_tab4 jt4_inj]
  unfold RefTerm.acc4
  rw [scat33_miss _ _ _ jt3 joints_tab3 _ _ _ _ (fun g' => disj34 g' g)]
  unfold RefTerm.acc3
  rw [scat53_miss _ _ _ jt2 joints_tab2 _ _ _ _ (fun g' => disj24 g' g)]
  unfold RefTerm.acc2
  rw [scat33_miss _ _ _ jt1 joints_tab1 _ _ _ _ (fun g' => disj14 g' g)]
  unfold RefTerm.acc1
  rw [scat33_miss _ _ _ jt0 joints_tab0 _ _ _ _ (fun g' => disj04 g' g), acc0_apply, zero_add]

/-- At a joint of group 0 the count is zero plus one. -/
theorem cnt5_g0 (g : Fin 3) : RefTerm.cnt5 (F := Ideal) (ix4 bb T (jt0 g) c0) = 1 := by
  unfold RefTerm.cnt5
  rw [scat31_miss _ _ _ jt4 joints_tab4 _ _ _ _ (fun g' => (disj04 g g').symm)]
  unfold RefTerm.cnt4
  rw [scat31_miss _ _ _ jt3 joints_tab3 _ _ _ _ (fun g' => (disj03 g g').symm)]
  unfold RefTerm.cnt3
  rw [scat51_miss _ _ _ jt2 joints_tab2 _ _ _ _ (fun g' => (disj02 g g').symm)]
  unfold RefTerm.cnt2
  rw [scat31_miss _ _ _ jt1 joints_tab1 _ _ _ _ (fun g' => (disj01 g g').symm)]
  unfold RefTerm.cnt1
  rw [scat31_hit _ _ _ jt0 joints_tab0 jt0_inj, cnt0_apply, ones3_apply, zero_add]

/-- At a joint of group 1 the count is zero plus one. -/
theorem cnt5_g1 (g : Fin 3) : RefTerm.cnt5 (F := Ideal) (ix4 bb T (jt1 g) c0) = 1 := by
  unfold RefTerm.cnt5
  rw [scat31_miss _ _ _ jt4 joints_tab4 _ _ _ _ (fun g' => (disj14 g g').symm)]
  unfold RefTerm.cnt4
  rw [scat31_miss _ _ _ jt3 joints_tab3 _ _ _ _ (fun g' => (disj13 g g').symm)]
  unfold RefTerm.cnt3
  rw [scat51_miss _ _ _ jt2 joints_tab2 _ _ _ _ (fun g' => (disj12 g g').symm)]
  unfold RefTerm.cnt2
  rw [scat31_hit _ _ _ jt1 joints_tab1 jt1_inj]
  unfold RefTerm.cnt1
  rw [scat31_miss _ _ _ jt0 joints_tab0 _ _ _ _ (fun g' => disj01 g' g), cnt0_apply, ones3_apply, zero_add]

/-- At a joint of group 2 the count is zero plus one. -/
theorem cnt5_g2 (g : Fin 5) : RefTerm.cnt5 (F := Ideal) (ix4 bb T (jt2 g) c0) = 1 := by
  unfold RefTerm.cnt5
  rw [scat31_miss _ _ _ jt4 joints_tab4 _ _ _ _ (fun g' => (disj24 g g').symm)]
  unfold RefTerm.cnt4
  rw [scat31_miss _ _ _ jt3 joints_tab3 _ _ _ _ (fun g' => (disj23 g g').symm)]
  unfold RefTerm.cnt3
  rw [scat51_hit _ _ _ jt2 joints_tab2 jt2_inj]
  unfold RefTerm.cnt2
  rw [scat31_miss _ _ _ jt1 joints_tab1 _ _ _ _ (fun g' => disj12 g' g)]
  unfold RefTerm.cnt1
  rw [scat31_miss _ _ _ jt0 joints_tab0 _ _ _ _ (fun g' => disj02 g' g), cnt0_apply, ones5_apply, zero_add]

/-- At a joint of group 3 the count is zero plus one. -/
theorem cnt5_g3 (g : Fin 3) : RefTerm.cnt5 (F := Ideal) (ix4 bb T (jt3 g) c0) = 1 := by
  unfold RefTerm.cnt5
  rw [scat31_miss _ _ _ jt4 joints_tab4 _ _ _ _ (fun g' => (disj34 g g').symm)]
  unfold RefTerm.cnt4
  rw [scat31_hit _ _ _ jt3 joints_tab3 jt3_inj]
  unfold RefTerm.cnt3
  rw [scat51_miss _ _ _ jt2 joints_tab2 _ _ _ _ (fun g' => disj23 g' g)]
  unfold RefTerm.cnt2
  rw [scat31_miss _ _ _ jt1 joints_tab1 _ _ _ _ (fun g' => disj13 g' g)]
  unfold RefTerm.cnt1
  rw [scat31_miss _ _ _ jt0 joints_tab0 _ _ _ _ (fun g' => disj03 g' g), cnt0_apply, ones3_apply, zero_add]

/-- At a joint of group 4 the count is zero plus one. -/
theorem cnt5_g4 (g : Fin 3) : RefTerm.cnt5 (F := Ideal) (ix4 bb T (jt4 g) c0) = 1 := by
  unfold RefTerm.cnt5
  rw [scat31_hit _ _ _ jt4 joints_tab4 jt4_inj]
  unfold RefTerm.cnt4
  rw [scat31_miss _ _ _ jt3 joints_tab3 _ _ _ _ (fun g' => disj34 g' g)]
  unfold RefTerm.cnt3
  rw [scat51_miss _ _ _ jt2 joints_tab2 _ _ _ _ (fun g' => disj24 g' g)]
  unfold RefTerm.cnt2
  rw [scat31_miss _ _ _ jt1 joints_tab1 _ _ _ _ (fun g' => disj14 g' g)]
  unfold RefTerm.cnt1
  rw [scat31_miss _ _ _ jt0 joints_tab0 _ _ _ _ (fun g' => disj04 g' g), cnt0_apply, ones3_apply, zero_add]

end Groups

/-! ## The specification at a joint, group by group

Joint j's lanes are 3 j … 3 j + 2; the specification's case split on the lane picks the joint's group, and the row
it reads is frame · (3 · group size) + 3 · (position in the group) + channel. -/

/-- The tables' joint numbers as arithmetic in the position: groups 0, 1, 3, 4 are runs; group 2 is joint 0 and then the run 7 … 10. -/
theorem jt0_val (g : Fin 3) : (jt0 g).val = g.val + 1 := by revert g; decide
theorem jt1_val (g : Fin 3) : (jt1 g).val = g.val + 4 := by revert g; decide
theorem jt2_val (g : Fin 5) : (jt2 g).val = if g.val = 0 then 0 else g.val + 6 := by revert g; decide
theorem jt3_val (g : Fin 3) : (jt3 g).val = g.val + 11 := by revert g; decide
theorem jt4_val (g : Fin 3) : (jt4 g).val = g.val + 14 := by revert g; decide

section SpecGroups
variable (tok : FVec Ideal S1024x27x5x512 .f32)
  (W0 : FVec Ideal S81x512 .f32) (b0 : FVec Ideal S81 .f32) (W1 : FVec Ideal S81x512 .f32) (b1 : FVec Ideal S81 .f32)
  (W2 : FVec Ideal S135x512 .f32) (b2 : FVec Ideal S135 .f32) (W3 : FVec Ideal S81x512 .f32) (b3 : FVec Ideal S81 .f32)
  (W4 : FVec Ideal S81x512 .f32) (b4 : FVec Ideal S81 .f32)
  (bb : Fin 1024) (T : Fin 243) (c : Fin 3)

/-- Joints 1 … 3: lanes 3 … 11, group 0. -/
theorem Gc_g0 (g : Fin 3) :
    Cert.Spec.Gc tok W0 b0 W1 b1 W2 b2 W3 b3 W4 b4 bb T (jt0 g) c
      = Cert.Spec.lin tok 0 W0 b0 bb ⟨T.val / 9, by omega⟩ ⟨(T.val % 9) * 9 + g.val * 3 + c.val, by omega⟩ := by
  have hc := c.isLt
  have hg := g.isLt
  have hj := jt0_val g
  unfold Cert.Spec.Gc Cert.Spec.GKc
  rw [dif_neg (by simp only []; omega), dif_pos (by simp only []; omega)]
  exact congrArg _ (Fin.ext (by simp only []; omega))

/-- Joints 4 … 6: lanes 12 … 20, group 1. -/
theorem Gc_g1 (g : Fin 3) :
    Cert.Spec.Gc tok W0 b0 W1 b1 W2 b2 W3 b3 W4 b4 bb T (jt1 g) c
      = Cert.Spec.lin tok 1 W1 b1 bb ⟨T.val / 9, by omega⟩ ⟨(T.val % 9) * 9 + g.val * 3 + c.val, by omega⟩ := by
  have hc := c.isLt
  have hg := g.isLt
  have hj := jt1_val g
  unfold Cert.Spec.Gc Cert.Spec.GKc
  rw [dif_neg (by simp only []; omega), dif_neg (by simp only []; omega), dif_pos (by simp only []; omega)]
  exact congrArg _ (Fin.ext (by simp only []; omega))

/-- Joint 0: lanes 0 … 2; joints 7 … 10: lanes 21 … 32; group 2, fifteen rows a frame. -/
theorem Gc_g2 (g : Fin 5) :
    Cert.Spec.Gc tok W0 b0 W1 b1 W2 b2 W3 b3 W4 b4 bb T (jt2 g) c
      = Cert.Spec.lin tok 2 W2 b2 bb ⟨T.val / 9, by omega⟩ ⟨(T.val % 9) * 15 + g.val * 3 + c.val, by omega⟩ := by
  have hc := c.isLt
  have hg := g.isLt
  have hj := jt2_val g
  unfold Cert.Spec.Gc Cert.Spec.GKc
  by_cases h0 : g.val = 0
  · rw [if_pos h0] at hj
    rw [dif_pos (by simp only []; omega)]
    exact congrArg _ (Fin.ext (by simp only []; omega))
  · rw [if_neg h0] at hj
    rw [dif_neg (by simp only []; omega), dif_neg (by simp only []; omega), dif_neg (by simp only []; omega),
      dif_pos (by simp only []; omega)]
    exact congrArg _ (Fin.ext (by simp only []; omega))

/-- Joints 11 … 13: lanes 33 … 41, group 3. -/
theorem Gc_g3 (g : Fin 3) :
    Cert.Spec.Gc tok W0 b0 W1 b1 W2 b2 W3 b3 W4 b4 bb T (jt3 g) c
      = Cert.Spec.lin tok 3 W3 b3 bb ⟨T.val / 9, by omega⟩ ⟨(T.val % 9) * 9 + g.val * 3 + c.val, by omega⟩ := by
  have hc := c.isLt
  have hg := g.isLt
  have hj := jt3_val g
  unfold Cert.Spec.Gc Cert.Spec.GKc
  rw [dif_neg (by simp only []; omega), dif_neg (by simp only []; omega), dif_neg (by simp only []; omega),
    dif_neg (by simp only []; omega), dif_pos (by simp only []; omega)]
  exact congrArg _ (Fin.ext (by simp only []; omega))

/-- Joints 14 … 16: lanes 42 … 50, group 4. -/
theorem Gc_g4 (g : Fin 3) :
    Cert.Spec.Gc tok W0 b0 W1 b1 W2 b2 W3 b3 W4 b4 bb T (jt4 g) c
      = Cert.Spec.lin tok 4 W4 b4 bb ⟨T.val / 9, by omega⟩ ⟨(T.val % 9) * 9 + g.val * 3 + c.val, by omega⟩ := by
  have hc := c.isLt
  have hg := g.isLt
  have hj := jt4_val g
  unfold Cert.Spec.Gc Cert.Spec.GKc
  rw [dif_neg (by simp only []; omega), dif_neg (by simp only []; omega), dif_neg (by simp only []; omega),
    dif_neg (by simp only []; omega), dif_neg (by simp only []; omega)]
  exact congrArg _ (Fin.ext (by simp only []; omega))

end SpecGroups

/-- At the ideal instance the reference's composed result is the specification's array, index by index. -/
theorem refOut_eq (tok : FVec Ideal S1024x27x5x512 .f32)
    (W0 : FVec Ideal S81x512 .f32) (b0 : FVec Ideal S81 .f32) (W1 : FVec Ideal S81x512 .f32) (b1 : FVec Ideal S81 .f32)
    (W2 : FVec Ideal S135x512 .f32) (b2 : FVec Ideal S135 .f32) (W3 : FVec Ideal S81x512 .f32) (b3 : FVec Ideal S81 .f32)
    (W4 : FVec Ideal S81x512 .f32) (b4 : FVec Ideal S81 .f32) :
    RefTerm.refOut (F := Ideal) tok W0 b0 W1 b1 W2 b2 W3 b3 W4 b4 = Cert.Spec.G tok W0 b0 W1 b1 W2 b2 W3 b3 W4 b4 := by
  funext i
  obtain ⟨bb, T, j, c, rfl⟩ : ∃ bb T j c, i = ix4 bb T j c := ⟨i 0, i 1, i 2, i 3, eq_ix4 i⟩
  show RefTerm.refOut (F := Ideal) tok W0 b0 W1 b1 W2 b2 W3 b3 W4 b4 (ix4 bb T j c)
    = Cert.Spec.Gc tok W0 b0 W1 b1 W2 b2 W3 b3 W4 b4 bb T j c
  -- the quotient at the index: the accumulated sum over the larger of one and the count
  unfold RefTerm.refOut
  rw [hostDivf_apply, clipped_apply]
  -- the joint's group: the count there is one, the sum the group's prediction, and the quotient by one is it
  rcases joint_cases j with ⟨g, rfl⟩ | ⟨g, rfl⟩ | ⟨g, rfl⟩ | ⟨g, rfl⟩ | ⟨g, rfl⟩
  · rw [cnt5_g0, max_self, div_one, acc5_g0, Gc_g0]
    exact RefPred.pred3_apply 0 _ rfl _ tok W0 b0 bb T g c
  · rw [cnt5_g1, max_self, div_one, acc5_g1, Gc_g1]
    exact RefPred.pred3_apply 1 _ rfl _ tok W1 b1 bb T g c
  · rw [cnt5_g2, max_self, div_one, acc5_g2, Gc_g2]
    exact RefPred.pred5_apply 2 _ rfl _ tok W2 b2 bb T g c
  · rw [cnt5_g3, max_self, div_one, acc5_g3, Gc_g3]
    exact RefPred.pred3_apply 3 _ rfl _ tok W3 b3 bb T g c
  · rw [cnt5_g4, max_self, div_one, acc5_g4, Gc_g4]
    exact RefPred.pred3_apply 4 _ rfl _ tok W4 b4 bb T g c

end Cert.ReferenceIdeal.RefValue

end
-- ==== Proof.lean ====
/-
  The certificate of a fused multi-head linear decoder against its jnp reference, over the extended reals.

  The model predicts 17 joints × 3 channels for each of 243 frames (27 temporal patches of 9 frames) of 1024
  samples from five tokens a patch, one token per joint group (joints {1,2,3}, {4,5,6}, {0,7,8,9,10}, {11,12,13},
  {14,15,16}): group k's prediction is a linear image of token k, whose output rows address frame, joint of the
  group and channel.

  The kernel streams the tokens 32 samples a grid point, multiplies each group's token block into the group's
  weight, adds the bias, and stores the result's columns at the lanes 3 j + c of the group's joints in a block
  [32, 27, 9, 51]; the host re-lays the array [1024, 27, 9, 51] as [1024, 243, 17, 3]. The reference computes each
  group's prediction by a contraction, scatter-adds it into a zero array at the group's joints, scatter-adds ones into
  a count, and divides the sum by the count clipped below at one. Because the five groups partition the 17 joints,
  each entry receives exactly one prediction and a count of one: both programs end at the one function `Spec.G` of
  the argument arrays — the extended reals' 0 + x = x and x / 1 = x hold at every x, so no finiteness is used.

  The kernel's and the idealized kernel's frames are the generated ones; the reference's frame is its run with
  the result dropped; the idealization rewrote no operation, so it preserves trivially.
-/
import proofs.«129922_j69887707841118_1_alg».proof.Defs
import proofs.«129922_j69887707841118_1_alg».proof.Proof.Gen.Kernel
import proofs.«129922_j69887707841118_1_alg».proof.Proof.Gen.Kernel.Frame
import proofs.«129922_j69887707841118_1_alg».proof.Proof.Gen.KernelIdeal
import proofs.«129922_j69887707841118_1_alg».proof.Proof.Gen.KernelIdeal.Frame
import proofs.«129922_j69887707841118_1_alg».proof.Proof.Gen.ReferenceIdeal
import proofs.«129922_j69887707841118_1_alg».proof.Proof.Gen.Pre_finite_inputs
import proofs.«129922_j69887707841118_1_alg».proof.Proof.KerRun
import proofs.«129922_j69887707841118_1_alg».proof.Proof.RefRun
import proofs.«129922_j69887707841118_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both idealized programs end at the specification of arguments that agree. -/
theorem algebraic : Cert.algebraic_KernelIdeal_ReferenceIdeal := by
  intro m ρ m' ρ' _ hagree
  refine ⟨_, Cert.KernelIdeal.KerRun.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8, e9, e10⟩ := hagree c
  rw [Cert.ReferenceIdeal.RefValue.refOut_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
